-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1x64 : Shape := ⟨2, ![1, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : FVec F S1x64 .f32) (main_arg2 : FVec F S64 .f32) (main_arg3 : FVec F S64x1 .f32) (main_arg4 : FVec F S1 .f32) (main_arg5 : IVec S2x1600000 32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S100000x1 : Shape := ⟨2, ![100000, 1]⟩
abbrev S1x64 : Shape := ⟨2, ![1, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x1 : Shape := ⟨2, ![10000, 1]⟩
abbrev S10000x64 : Shape := ⟨2, ![10000, 64]⟩
abbrev S1703936 : Shape := ⟨1, ![1703936]⟩
abbrev S1703936x1 : Shape := ⟨2, ![1703936, 1]⟩
abbrev S1703936x64 : Shape := ⟨2, ![1703936, 64]⟩
abbrev S8192x64 : Shape := ⟨2, ![8192, 64]⟩
abbrev S8192x1 : Shape := ⟨2, ![8192, 1]⟩
abbrev S1700000x64 : Shape := ⟨2, ![1700000, 64]⟩
abbrev S10000 : Shape := ⟨1, ![10000]⟩
abbrev S1x1 : Shape := ⟨2, ![1, 1]⟩

abbrev nBuf : Space → Nat
  | .hbm => 86
  | .vmem => 26
  | .smem => 0
  | _ => 0

abbrev bufTy : (tb : Table) → Fin (tcTables nBuf tb) → BufTy
  | .hbm, ⟨0, _⟩ => ⟨S100000x1, .f32⟩
  | .hbm, ⟨1, _⟩ => ⟨S1x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S_, .i32⟩
  | .hbm, ⟨45, _⟩ => ⟨S1703936, .i32⟩
  | .hbm, ⟨46, _⟩ => ⟨S_, .i32⟩
  | .hbm, ⟨47, _⟩ => ⟨S_, .f32⟩
  | .hbm, ⟨48, _⟩ => ⟨S1703936, .f32⟩
  | .hbm, ⟨49, _⟩ => ⟨S_, .i32⟩
  | .hbm, ⟨50, _⟩ => ⟨S1703936, .i32⟩
  | .hbm, ⟨51, _⟩ => ⟨S1703936, .i1⟩
  | .hbm, ⟨52, _⟩ => ⟨S_, .i32⟩
  | .hbm, ⟨53, _⟩ => ⟨S1703936, .i32⟩
  | .hbm, ⟨54, _⟩ => ⟨S1703936, .i32⟩
  | .hbm, ⟨55, _⟩ => ⟨S1703936, .i32⟩
  | .hbm, ⟨56, _⟩ => ⟨S1703936x1, .i32⟩
  | .hbm, ⟨57, _⟩ => ⟨S1703936x64, .f32⟩
  | .hbm, ⟨58, _⟩ => ⟨S1703936x1, .f32⟩
  | .hbm, ⟨59, _⟩ => ⟨S1703936x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S1x64, .f32⟩
  | .hbm, ⟨68, _⟩ => ⟨S100000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x1, .f32⟩
  | .hbm, ⟨78, _⟩ => ⟨S1700000x1, .f32⟩
  | .hbm, ⟨79, _⟩ => ⟨S1700000x1, .f32⟩
  | .hbm, ⟨80, _⟩ => ⟨S_, .f32⟩
  | .hbm, ⟨81, _⟩ => ⟨S100000x1, .f32⟩
  | .hbm, ⟨82, _⟩ => ⟨S1700000x1, .i32⟩
  | .hbm, ⟨83, _⟩ => ⟨S100000x1, .f32⟩
  | .hbm, ⟨84, _⟩ => ⟨S1x1, .f32⟩
  | .hbm, ⟨85, _⟩ => ⟨S1x1, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S8192x64, .f32⟩
  | .local _ .vmem, ⟨6, _⟩ => ⟨S8192x64, .f32⟩
  | .local _ .vmem, ⟨7, _⟩ => ⟨S8192x1, .f32⟩
  | .local _ .vmem, ⟨8, _⟩ => ⟨S8192x1, .f32⟩
  | .local _ .vmem, ⟨9, _⟩ => ⟨S8192x64, .f32⟩
  | .local _ .vmem, ⟨10, _⟩ => ⟨S8192x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S10000x1, .f32⟩
  | .local _ .vmem, ⟨20, _⟩ => ⟨S10000x1, .f32⟩
  | .local _ .vmem, ⟨21, _⟩ => ⟨S10000x1, .f32⟩
  | .local _ .vmem, ⟨22, _⟩ => ⟨S10000x1, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_call0_v0 : Ref sig .tc := ⟨.hbm, 44, rfl⟩
abbrev main_v30 : Ref sig .tc := ⟨.hbm, 45, rfl⟩
abbrev main_c_6 : Ref sig .tc := ⟨.hbm, 46, rfl⟩
abbrev main_call1_v0 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v16 : BitVec 1 := Scalar.cmpi .eq arg0 c9_i32
  let v17 : BitVec 32 := Scalar.extui v16
  let c0_i32_8 : BitVec 32 := 0#32
  let v18 : BitVec 1 := Scalar.cmpi .ne v17 c0_i32_8
  v18

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x1_S10000x1_0_0 : ∀ a, (![0, 0] : Fin 2 → Nat) a + S10000x1.size a ≤ S10000x1.size a
  h_S10000x1 : 0 < S10000x1.numel
  inb_S1x64_S1x64_0_0 : ∀ a, (![0, 0] : Fin 2 → Nat) a + S1x64.size a ≤ S1x64.size a
  h_S1x64 : 0 < S1x64.numel
  broadcasts_S10000x1_S10000x64 : S10000x1.Broadcasts S10000x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  pads_S1700000_S1703936_039360 : S1700000.Pads (![0] : Fin 1 → Nat) ![3936] ![0] S1703936
  h_S_ : 0 < S_.numel
  bcast_S_S1703936 : S_.BroadcastsInDim S1703936 (![] : Fin 0 → Fin S1703936.rank)
  bcast_S1703936_S1703936x1_0 : S1703936.BroadcastsInDim S1703936x1 (![0] : Fin 1 → Fin S1703936x1.rank)
  shapeCasts_S1703936_S1703936x1 : S1703936.ShapeCasts S1703936x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  slices_S1703936x64_S1700000x64_0_0 : S1703936x64.Slices ![0, 0] S1700000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  shapeCasts_S1x64_S1x64 : S1x64.ShapeCasts S1x64
  shapeCasts_S64x1_S1x64 : S64x1.ShapeCasts S1x64
  reduces_S10000x64_S10000 : S10000x64.Reduces [1] S10000
  shapeCasts_S10000_S10000x1 : S10000.ShapeCasts S10000x1
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S10000x1_S10000x1 : S10000x1.ShapeCasts S10000x1
  broadcasts_S1x1_S10000x1 : S1x1.Broadcasts S10000x1
  reduces_S10000x1_S1 : S10000x1.Reduces [0] S1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1703936x1_S1703936x64_1_0_n_n_0_1_164_wf : GatherDims.WF S100000x64 S1703936x1 S1703936x64 [1] [0] [] [0] [] 1 ![1, 64]
  scatter_S100000x64_S1700000x1_S1700000x64_1_0_0_1_wf : ScatterDims.WF S100000x64 S1700000x1 S1700000x64 [1] [0] [0] 1
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1703936x64.size a
  hwx1_0 : ∀ i : grid1.Coords, EltTy.bits .f32 = 32 ∨ (Rect.block (s := S1703936x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1703936x64.size a
  hwx1_2 : ∀ i : grid1.Coords, EltTy.bits .f32 = 32 ∨ (Rect.block (s := S1703936x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S100000x1.size a
  hwx4_0 : ∀ i : grid4.Coords, EltTy.bits .f32 = 32 ∨ (Rect.block (s := S100000x1) S10000x1.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1703936x1_S1703936x64_1_0_n_n_0_1_164 : GatherDims S100000x64 S1703936x1 S1703936x64 where
  offsetDims := [1]
  collapsedSliceDims := [0]
  operandBatchingDims := []
  startIndicesBatchingDims := []
  startIndexMap := [0]
  indexVectorDim := 1
  sliceSizes := ![1, 64]
  wf := gather_S100000x64_S1703936x1_S1703936x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x1.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x1 : Shape := ⟨2, ![100000, 1]⟩
abbrev S1x64 : Shape := ⟨2, ![1, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S1x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x1, .f32⟩
  | .hbm, ⟨75, _⟩ => ⟨S1700000x1, .f32⟩
  | .hbm, ⟨76, _⟩ => ⟨S1700000x1, .f32⟩
  | .hbm, ⟨77, _⟩ => ⟨S_, .f32⟩
  | .hbm, ⟨78, _⟩ => ⟨S100000x1, .f32⟩
  | .hbm, ⟨79, _⟩ => ⟨S1700000x1, .i32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | .hbm, ⟨84, _⟩ => ⟨S_, .f32⟩
  | .hbm, ⟨85, _⟩ => ⟨S1, .f32⟩
  | .hbm, ⟨86, _⟩ => ⟨S1x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x64_S100000x64_1_0_0_1_n_n_wf : DotDims.WF S100000x1 S1x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.K.Reg0.lean ====
/- The program Kernel (the program as printed, read at the word-level instance) has the same text as its idealization,
  so this module is the idealized program's module of the same name with the program's namespace substituted: region 0's proof data and the body's obligation.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or not
    (the weight row is fetched once and stays): for any proof data over V's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev rx0 : Rect S10000x1 := Rect.unit (s := S10000x1) ![0, 0] S10000x1.size inb_S10000x1_S10000x1_0_0
abbrev rw0 : Rect S1x64 := Rect.unit (s := S1x64) ![0, 0] S1x64.size inb_S1x64_S1x64_0_0
abbrev ro0 : Rect S10000x64 := Rect.unit (s := S10000x64) ![0, 0] S10000x64.size inb_S10000x64_S10000x64_0_0

/-- What the body leaves in the output window's buffer: its one store, of the product of the two loaded blocks. -/
def out0_2 (x0 : Vec F S10000x1 .f32) (x1 : Vec F S1x64 .f32) : Vec F S10000x64 .f32 :=
  View.canon [⟨ro0, k0_pay1 (View.ld x0 rx0) (View.ld x1 rw0)⟩]

/-- The one store covers the whole buffer. -/
theorem cover0_2 (p0 : Vec F S10000x64 .f32) (y : S10000x64.Idx) :
    ∃ pc ∈ ([⟨ro0, p0⟩] : List (View.Piece (Elt F) S10000x64 .f32)), y ∈ pc.1.set :=
  View.cover_of_tiled [⟨ro0, p0⟩] S10000x64.size (by rfl) y

set_option maxHeartbeats 1000000 in
/-- The body on whole staging buffers, the inputs' at contents x0, x1 and the output's at anything, runs to a state
    with the inputs' as they were and the output's at out0_2 x0 x1. -/
theorem sound_kernel0 (c : Dev nD) (E : Set ℕ) (i : grid0.Coords)
    (arg1 : Memref sig .tc .vmem S10000x1 .f32) (harg1 : arg1.IsWhole) (arg2 : Memref sig .tc .vmem S1x64 .f32) (harg2 : arg2.IsWhole)
    (arg3 : Memref sig .tc .vmem S10000x64 .f32) (harg3 : arg3.IsWhole)
    (x0 : Vec F S10000x1 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear1_kernel i arg1 harg1 arg2 harg2 arg3 harg3) K := by
  simp only [cc0__linear1_kernel_eq_skeleton]; unfold cc0__linear1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core c: the arrays as the region finds them; after the body at point t each
    input's buffer at its block and the output's at out0_2 of the two blocks; the invariant is the untouched scoped
    rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- The program Kernel (the program as printed, read at the word-level instance) has the same text as its idealization,
  so this module is the idealized program's module of the same name with the program's namespace substituted: region 1's proof data and the body's obligation.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or not
    (both are fetched at every point): for any proof data over V's arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev rx1 : Rect S8192x64 := Rect.unit (s := S8192x64) ![0, 0] S8192x64.size inb_S8192x64_S8192x64_0_0
abbrev rw1 : Rect S8192x1 := Rect.unit (s := S8192x1) ![0, 0] S8192x1.size inb_S8192x1_S8192x1_0_0
abbrev ro1 : Rect S8192x64 := Rect.unit (s := S8192x64) ![0, 0] S8192x64.size inb_S8192x64_S8192x64_0_0

/-- What the body leaves in the output window's buffer: its one store, of the product of each gathered row with its coefficient. -/
def out1_2 (x0 : Vec F S8192x64 .f32) (x1 : Vec F S8192x1 .f32) : Vec F S8192x64 .f32 :=
  View.canon [⟨ro1, k1_pay1 (View.ld x0 rx1) (View.ld x1 rw1)⟩]

/-- The one store covers the whole buffer. -/
theorem cover1_2 (p0 : Vec F S8192x64 .f32) (y : S8192x64.Idx) :
    ∃ pc ∈ ([⟨ro1, p0⟩] : List (View.Piece (Elt F) S8192x64 .f32)), y ∈ pc.1.set :=
  View.cover_of_tiled [⟨ro1, p0⟩] S8192x64.size (by rfl) y

set_option maxHeartbeats 1000000 in
/-- The body on whole staging buffers, the inputs' at contents x0, x1 and the output's at anything, runs to a state
    with the inputs' as they were and the output's at out1_2 x0 x1. -/
theorem sound_kernel1 (c : Dev nD) (E : Set ℕ) (i : grid1.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1 on core c: the arrays as the region finds them; after the body at point t each
    input's buffer at its block and the output's at out1_2 of the two blocks; the invariant is the untouched scoped
    rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- The program Kernel (the program as printed, read at the word-level instance) has the same text as its idealization,
  so this module is the idealized program's module of the same name with the program's namespace substituted: region 2's proof data and the body's obligation.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or not
    (the bias row is fetched once and stays): for any proof data over V's arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev rx2 : Rect S10000x64 := Rect.unit (s := S10000x64) ![0, 0] S10000x64.size inb_S10000x64_S10000x64_0_0
abbrev rw2 : Rect S1x64 := Rect.unit (s := S1x64) ![0, 0] S1x64.size inb_S1x64_S1x64_0_0
abbrev ro2 : Rect S10000x64 := Rect.unit (s := S10000x64) ![0, 0] S10000x64.size inb_S10000x64_S10000x64_0_0

/-- What the body leaves in the output window's buffer: its one store, of the rectified sum of the block and the bias row. -/
def out2_2 (x0 : Vec F S10000x64 .f32) (x1 : Vec F S1x64 .f32) : Vec F S10000x64 .f32 :=
  View.canon [⟨ro2, k2_pay1 (View.ld x0 rx2) (View.ld x1 rw2)⟩]

/-- The one store covers the whole buffer. -/
theorem cover2_2 (p0 : Vec F S10000x64 .f32) (y : S10000x64.Idx) :
    ∃ pc ∈ ([⟨ro2, p0⟩] : List (View.Piece (Elt F) S10000x64 .f32)), y ∈ pc.1.set :=
  View.cover_of_tiled [⟨ro2, p0⟩] S10000x64.size (by rfl) y

set_option maxHeartbeats 1000000 in
/-- The body on whole staging buffers, the inputs' at contents x0, x1 and the output's at anything, runs to a state
    with the inputs' as they were and the output's at out2_2 x0 x1. -/
theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of region 2 on core c: the arrays as the region finds them; after the body at point t each
    input's buffer at its block and the output's at out2_2 of the two blocks; the invariant is the untouched scoped
    rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- The program Kernel (the program as printed, read at the word-level instance) has the same text as its idealization,
  so this module is the idealized program's module of the same name with the program's namespace substituted: region 3's proof data and the body's obligation.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the pipeline fetched it there or not
    (the weight row is fetched once and stays): for any proof data over V's arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev rx3 : Rect S10000x64 := Rect.unit (s := S10000x64) ![0, 0] S10000x64.size inb_S10000x64_S10000x64_0_0
abbrev rw3 : Rect S1x64 := Rect.unit (s := S1x64) ![0, 0] S1x64.size inb_S1x64_S1x64_0_0
abbrev ro3 : Rect S10000x1 := Rect.unit (s := S10000x1) ![0, 0] S10000x1.size inb_S10000x1_S10000x1_0_0

/-- What the body leaves in the output window's buffer: its one store, of the row sums of the products with the weight row. -/
def out3_2 (x0 : Vec F S10000x64 .f32) (x1 : Vec F S1x64 .f32) : Vec F S10000x1 .f32 :=
  View.canon [⟨ro3, k3_pay1 (View.ld x0 rx3) (View.ld x1 rw3)⟩]

/-- The one store covers the whole buffer. -/
theorem cover3_2 (p0 : Vec F S10000x1 .f32) (y : S10000x1.Idx) :
    ∃ pc ∈ ([⟨ro3, p0⟩] : List (View.Piece (Elt F) S10000x1 .f32)), y ∈ pc.1.set :=
  View.cover_of_tiled [⟨ro3, p0⟩] S10000x1.size (by rfl) y

set_option maxHeartbeats 1000000 in
/-- The body on whole staging buffers, the inputs' at contents x0, x1 and the output's at anything, runs to a state
    with the inputs' as they were and the output's at out3_2 x0 x1. -/
theorem sound_kernel3 (c : Dev nD) (E : Set ℕ) (i : grid3.Coords)
    (arg1 : Memref sig .tc .vmem S10000x64 .f32) (harg1 : arg1.IsWhole) (arg2 : Memref sig .tc .vmem S1x64 .f32) (harg2 : arg2.IsWhole)
    (arg3 : Memref sig .tc .vmem S10000x1 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear2_kernel i arg1 harg1 arg2 harg2 arg3 harg3) K := by
  simp only [cc3__linear2_kernel_eq_skeleton]; unfold cc3__linear2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of region 3 on core c: the arrays as the region finds them; after the body at point t each
    input's buffer at its block and the output's at out3_2 of the two blocks; the invariant is the untouched scoped
    rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/- The program Kernel (the program as printed, read at the word-level instance) has the same text as its idealization,
  so this module is the idealized program's module of the same name with the program's namespace substituted: region 4's running maximum, proof data and the body's obligation.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch buffer the kernel keeps its running maximum in. -/
abbrev scM4 : Memref sig .tc .vmem S1x1 .f32 := Memref.whole cc4_scratch0

/-- THE RUNNING MAXIMUM. What the scratch holds after the body at point n: the body's update of what the point before
    left (at the first point: of the reset value, minus infinity) by the point's block of a and the bias element. -/
def acc4 (c : Dev nD) : (n : ℕ) → n < cfg4.N → Vec F S1x1 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) (k4_pay1 (F := F)) := rfl

theorem acc4_succ (c : Dev nD) (n : ℕ) (h : n + 1 < cfg4.N) :
    acc4 V c (n + 1) h = k4_pay2 (iblk4 V c 0 ⟨n + 1, h⟩) (iblk4 V c 1 ⟨n + 1, h⟩) (acc4 V c n (Nat.lt_of_succ_lt h)) := rfl

/-- The scoped buffers of the program's other regions (their staging buffers), each at some contents: the part of the
    scoped rest this region never touches. -/
def rest4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f))

/-- The region's invariant before position n: before the first point the launch's (the whole scoped rest at anything
    beside the generator register); afterwards the scratch holds the running maximum the point before left, the other
    scoped buffers are as untouched as before, and the register is at some state. -/
def PhiS4 (c : Dev nD) : (n : ℕ) → n ≤ cfg4.N → sProp 𝕄
  | 0, _ => Pipeline.ΦA spec4 c
  | n + 1, hn => iprop(owns (c : Thread nD τ) scM4 fullShare (acc4 V c n hn) ∗ rest4 (F := F) c ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) scM4 fullShare (acc4 V c n hn) ∗ rest4 (F := F) c ∗ (∃ r, prngReg c r)) := rfl

theorem PhiS4_pos (c : Dev nD) (n : ℕ) (h : n ≤ cfg4.N) (hz : n ≠ 0) :
    PhiS4 V c n h = iprop(owns (c : Thread nD τ) scM4 fullShare (acc4 V c (n - 1) (by omega)) ∗ rest4 (F := F) c ∗ (∃ r, prngReg c r)) := by
  cases n with
  | zero => exact absurd rfl hz
  | succ n => rfl

/-- The proof data of region 4 on core c: the arrays as the region finds them; after the body at point t each input's
    buffer at its block; the output's named contents the running maximum after the point (what the last point stores
    there; at the other points the buffer is idle and not written back, and nothing reads this name); the invariant
    PhiS4; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-- The launch's invariant, opened: the scratch at some contents, the other regions' scoped buffers, the generator
    register at some state. -/
theorem PhiA4_eq (c : Dev nD) :
    (Pipeline.ΦA spec4 c : sProp 𝕄)
      = iprop((∃ d, owns (c : Thread nD τ) scM4 fullShare d) ∗ rest4 (F := F) c ∗ (∃ r, prngReg c r)) := by
  unfold Pipeline.ΦA rest4; rw [scopedRest4_eq]; simp only [scM4, owns_whole]
  refine BI.equiv_iff.mp ⟨?_, ?_⟩
  · show (_ : sProp 𝕄) ⊢ _
    iintro ⟨⟨H1, H2, H3, H4, H5, H6, H7, H8, H9, H10, H11, H12, H13, H14, H15, H16, H17, H18, H19, H20, H21, HS⟩, Hg⟩
    isplitl [HS]; · iexact HS
    isplitr [Hg]
    swap; · iexact Hg
    iframe
  · show (_ : sProp 𝕄) ⊢ _
    iintro ⟨HS, ⟨H1, H2, H3, H4, H5, H6, H7, H8, H9, H10, H11, H12, H13, H14, H15, H16, H17, H18, H19, H20, H21⟩, Hg⟩
    isplitr [Hg]
    swap; · iexact Hg
    iframe

/-- The body's first condition (the point is the first), from the grid coordinates. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The body's second condition (the point is the last). -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := fun _ => rfl
theorem liveAt4_1 : ∀ t : Fin cfg4.N, cfg4.idle 1 (grid4.coords t) = false := fun _ => rfl
theorem idleAt4_2 : ∀ t : Fin cfg4.N, ¬t.val = 9 → cfg4.idle 2 (grid4.coords t) = true :=
  (by decide +kernel : ∀ t : Fin grid4.N, ¬t.val = 9 → cfg4.idle 2 (grid4.coords t) = true)
theorem liveAt4_2 : ∀ t : Fin cfg4.N, t.val = 9 → cfg4.idle 2 (grid4.coords t) = false :=
  (by decide +kernel : ∀ t : Fin grid4.N, t.val = 9 → cfg4.idle 2 (grid4.coords t) = false)
theorem noFlush4_2 : ∀ t : Fin cfg4.N, ¬t.val = 9 → (cfg4.win 2).flush t = false :=
  (by decide +kernel : ∀ t : Fin grid4.N, ¬t.val = 9 → win4_2.flush t = false)

/-- The zero offsets the body's rectangles are printed with. -/
theorem hz2 : (![0, 0] : Fin 2 → Nat) = fun _ => 0 := by funext a; fin_cases a <;> rfl

/-! ## The body run once per control case, on whole buffers

The body's loads go through the whole rectangle of each buffer, so they read the buffer's contents; its stores go
through the whole rectangle of the one-element scratch (and, at the last point, of the output buffer), so what a
buffer holds afterwards is the last payload stored into it. -/

set_option maxHeartbeats 1000000 in
/-- At the first point (not the last): the scratch, handed over at anything, is reset to minus infinity and then
    updated; the output's buffer is left as it was found. -/
theorem sound_kernel4_A (c : Dev nD) (E : Set ℕ) (i : grid4.Coords) (hc0 : cond4_0 i) (hc1 : ¬cond4_1 i)
    (arg1 : Memref sig .tc .vmem S10000x1 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S1x1 .f32) (harg4 : arg4.IsWhole)
    (x0 : Vec F S10000x1 .f32) (x1 : Vec F S1x1 .f32) (xi2 : Vec F S1x1 .f32) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k4_pay2 x0 x1 (k4_pay1 (F := F)))) -∗ K ⟨⟩))
      ⊢ wp frame (wpE (defs₀ (F := F)) Variants.none c none) E (cc4__maxpool_kernel i arg1 harg1 arg2 harg2 arg3 harg3 arg4 harg4) K := by
  simp only [cc4__maxpool_kernel_eq_skeleton]; unfold cc4__maxpool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1) hz2 inb_S1x1_S1x1_0_0 y⟩)).trans ?_
  refine (View.canon_cons_unit_zero (S := S1x1) hz2 inb_S1x1_S1x1_0_0 _ _).trans ?_
  sl_unfold_run_names
  simp only [View.readAt_eq_ld, View.ld_unit_zero (S := S10000x1) hz2, View.ld_unit_zero (S := S1x1) hz2, View.readCov_unit_zero (S := S1x1) _ hz2]

set_option maxHeartbeats 1000000 in
/-- At a point that is neither the first nor the last: the scratch, handed over at s, is updated; the output's
    buffer is left as it was found. -/
theorem sound_kernel4_B (c : Dev nD) (E : Set ℕ) (i : grid4.Coords) (hc0 : ¬cond4_0 i) (hc1 : ¬cond4_1 i)
    (arg1 : Memref sig .tc .vmem S10000x1 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S1x1 .f32) (harg4 : arg4.IsWhole)
    (x0 : Vec F S10000x1 .f32) (x1 : Vec F S1x1 .f32) (xi2 : Vec F S1x1 .f32) (s : Vec F S1x1 .f32) (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare s
        ∗ (iprop(owns (c : Thread nD τ) arg1 fullShare x0 ∗ owns (c : Thread nD τ) arg2 fullShare x1 ∗ owns (c : Thread nD τ) arg3 fullShare xi2
            ∗ owns (c : Thread nD τ) arg4 fullShare (k4_pay2 x0 x1 s)) -∗ K ⟨⟩))
      ⊢ wp frame (wpE (defs₀ (F := F)) Variants.none c none) E (cc4__maxpool_kernel i arg1 harg1 arg2 harg2 arg3 harg3 arg4 harg4) K := by
  simp only [cc4__maxpool_kernel_eq_skeleton]; unfold cc4__maxpool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1) hz2 inb_S1x1_S1x1_0_0 y⟩)).trans ?_
  refine (View.canon_cons_unit_zero (S := S1x1) hz2 inb_S1x1_S1x1_0_0 _ _).trans ?_
  sl_unfold_run_names
  simp only [View.readAt_eq_ld, View.ld_unit_zero (S := S10000x1) hz2, View.ld_unit_zero (S := S1x1) hz2, View.readCov_unit_zero (S := S1x1) _ hz2]

set_option maxHeartbeats 1000000 in
/-- At the last point (not the first): the scratch, handed over at s, is updated, and its new contents are copied
    into the output's buffer, handed over at anything. -/
theorem sound_kernel4_C (c : Dev nD) (E : Set ℕ) (i : grid4.Coords) (hc0 : ¬cond4_0 i) (hc1 : cond4_1 i)
    (arg1 : Memref sig .tc .vmem S10000x1 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S1x1 .f32) (harg4 : arg4.IsWhole)
    (x0 : Vec F S10000x1 .f32) (x1 : Vec F S1x1 .f32) (s : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1 ∗ owns (c : Thread nD τ) arg3 fullShare (k4_pay2 x0 x1 s)
            ∗ owns (c : Thread nD τ) arg4 fullShare (k4_pay2 x0 x1 s)) -∗ K ⟨⟩))
      ⊢ wp frame (wpE (defs₀ (F := F)) Variants.none c none) E (cc4__maxpool_kernel i arg1 harg1 arg2 harg2 arg3 harg3 arg4 harg4) K := by
  simp only [cc4__maxpool_kernel_eq_skeleton]; unfold cc4__maxpool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1) hz2 inb_S1x1_S1x1_0_0 y⟩)).trans ?_
    refine (View.canon_cons_unit_zero (S := S1x1) hz2 inb_S1x1_S1x1_0_0 _ _).trans ?_
    sl_unfold_run_names
    simp only [View.readAt_eq_ld, View.ld_unit_zero (S := S10000x1) hz2, View.ld_unit_zero (S := S1x1) hz2, View.readCov_unit_zero (S := S1x1) _ hz2]
  iexists _; isplitr
  swap; · iexact HS
  ipureintro
  refine (View.read_writes_eq_canon _ _ _ (fun y => ⟨_, List.mem_cons_self, View.mem_set_unit_zero (S := S1x1) hz2 inb_S1x1_S1x1_0_0 y⟩)).trans ?_
  refine (View.canon_cons_unit_zero (S := S1x1) hz2 inb_S1x1_S1x1_0_0 _ _).trans ?_
  sl_unfold_run_names
  simp only [View.readAt_eq_ld, View.ld_unit_zero (S := S10000x1) hz2, View.ld_unit_zero (S := S1x1) hz2, View.readCov_unit_zero (S := S1x1) _ hz2]

/-! ## The obligation at a point -/

/-- The invariant at a point's start, restated at the point's number. -/
theorem PhiS4_castSucc (c : Dev nD) (t : Fin cfg4.N) :
    (dat4 V c).Φ t.castSucc = PhiS4 V c t.val (Nat.le_of_lt t.isLt) := by
  dsimp only [dat4]; simp only [Fin.coe_castSucc]

/-- The running maximum after the first point. -/
theorem acc4_first (c : Dev nD) (t : Fin cfg4.N) (h0 : t.val = 0) :
    acc4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

/-- The running maximum after a later point, from the one before. -/
theorem acc4_later (c : Dev nD) (t : Fin cfg4.N) (h0 : ¬t.val = 0) :
    acc4 V c t.val t.isLt
      = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl h0
  | succ n => rfl

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the output's buffer as it was found at every point but the last. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 2000000 in
/-- The body at any point. The inputs' buffers hold their blocks. At the first point the invariant is the launch's:
    the scratch at anything; the body leaves it at the first running maximum. At a later point the invariant hands the
    scratch at the running maximum the point before left, and the body leaves it at this point's. The output's buffer
    comes back untouched, except at the last point, where it comes back at the final running maximum. The other
    regions' scoped buffers and the generator register pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases h0 : t.val = 0
  · have h9 : ¬t.val = 9 := by omega
    rw [Dat.leavesExact_idle (dat4 V c) 2 t (idleAt4_2 t h9) (noFlush4_2 t h9)]
    rw [acc4_first V c t h0, PhiS4_castSucc V c t, PhiS4_zero V c _ _ h0, PhiA4_eq]
    iintro ⟨⟨HS, Hr, Hg⟩, Ho, ⟨%d0, H0⟩, ⟨%d1, H1⟩, ⟨%d2, H2⟩⟩
    iapply (sound_kernel4_A c Set.univ (grid4.coords t) ((hcond4_0 t).mpr h0) (fun h => h9 ((hcond4_1 t).mp h)) _ _ _ _ _ _ _ _ (iblk4 V c 0 t) (iblk4 V c 1 t) _ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · by_cases h9 : t.val = 9
    · rw [show (dat4 V c).leavesExact 2 t = owns (c : Thread nD τ) (st4_2 t) fullShare ((dat4 V c).after 2 t) from by
        unfold Dat.leavesExact; rw [liveAt4_2 t h9], after4_2]
      rw [acc4_later V c t h0, PhiS4_castSucc V c t, PhiS4_pos V c _ _ h0]
      iintro ⟨⟨HS, Hr, Hg⟩, Ho, ⟨%d0, H0⟩, ⟨%d1, H1⟩, ⟨%d2, H2⟩⟩
      iapply (sound_kernel4_C c Set.univ (grid4.coords t) (fun h => h0 ((hcond4_0 t).mp h)) ((hcond4_1 t).mpr h9) _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [Dat.leavesExact_idle (dat4 V c) 2 t (idleAt4_2 t h9) (noFlush4_2 t h9)]
      rw [acc4_later V c t h0, PhiS4_castSucc V c t, PhiS4_pos V c _ _ h0]
      iintro ⟨⟨HS, Hr, Hg⟩, Ho, ⟨%d0, H0⟩, ⟨%d1, H1⟩, ⟨%d2, H2⟩⟩
      iapply (sound_kernel4_B c Set.univ (grid4.coords t) (fun h => h0 ((hcond4_0 t).mp h)) (fun h => h9 ((hcond4_1 t).mp h)) _ _ _ _ _ _ _ _ (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The pipeline's obligation on the body, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest back: the scratch's contents are forgotten. -/
theorem hout4 (c : Dev nD) : (dat4 V c).Φ (Fin.last cfg4.N) ⊢ (Pipeline.ΦA spec4 c : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨HS, Hr, Hg⟩
  isplitl [HS]; · iexists _; iexact HS
  isplitl [Hr]; · iexact Hr
  iexact Hg

end Cert.Kernel.Hand

end
-- ==== Proof.K.Chain.lean ====
/- The program Kernel (the program as printed, read at the word-level instance) has the same text as its idealization,
  so this module is the idealized program's module of the same name with the program's namespace substituted: the buffer contents between the program's items.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import proofs.«130239_j40776419508957_1_alg».proof.Proof.Gen.Kernel.Regions
import proofs.«130239_j40776419508957_1_alg».proof.Proof.K.Reg0
import proofs.«130239_j40776419508957_1_alg».proof.Proof.K.Reg1
import proofs.«130239_j40776419508957_1_alg».proof.Proof.K.Reg2
import proofs.«130239_j40776419508957_1_alg».proof.Proof.K.Reg3
import proofs.«130239_j40776419508957_1_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take as the arrays it finds. -/
abbrev atTc (W : Dev nD → Valuation τ sig (Elt F)) : (c : Dev nD) → (b : Ref sig .tc) → Buf (Elt F) ((c : Thread nD τ).loc b) :=
  fun c b => W c b

/-- Core c's buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After region 0: its arrays at what the pipeline leaves, every other buffer as found. -/
def W2 (c : Dev nD) : Valuation τ sig (Elt F) :=
  Pipeline.withArrays spec0 c (W1 m c) fun w => (dat0 (atTc (W1 m)) c).arrAt w cfg0.N
theorem W2_arr (c : Dev nD) (w : Fin cfg0.W) :
    W2 m c (Proc.devRef .tc (Pipeline.arrRef spec0 w)) = (dat0 (atTc (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array passes through the region unchanged. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (atTc (W1 m)) c).arrAt_in w hw _).trans (A_eq0 (atTc (W1 m)) c w))
/-- The two facts the region's exit takes: each of its arrays holds what the pipeline leaves, every other buffer what it held. -/
theorem hF0 (c : Dev nD) (w : Fin cfg0.W) :
    (dat0 (atTc (W1 m)) c).arrAt w cfg0.N = atTc (W2 m) c (Pipeline.arrRef spec0 w) :=
  (W2_arr m c w).symm
theorem hrest0 (c : Dev nD) : ∀ b, b ∉ Finset.univ.image (Pipeline.arrRef spec0) → atTc (W2 m) c b = atTc (W1 m) c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- After the host stretch `hostOps1_1`. -/
abbrev W4 : Dev nD → Valuation τ sig (Elt F) := fun c => StableHlo.after hostOps1_1 (W3 m c)
/-- After the host stretch `hostOps1_2`. -/
abbrev W5 : Dev nD → Valuation τ sig (Elt F) := fun c => StableHlo.after hostOps1_2 (W4 m c)
/-- After the host stretch `hostOps1_3`. -/
abbrev W6 : Dev nD → Valuation τ sig (Elt F) := fun c => StableHlo.after hostOps1_3 (W5 m c)
/-- After the host stretch `hostOps1_4`. -/
abbrev W7 : Dev nD → Valuation τ sig (Elt F) := fun c => StableHlo.after hostOps1_4 (W6 m c)
/-- After region 1: its arrays at what the pipeline leaves, every other buffer as found. -/
def W8 (c : Dev nD) : Valuation τ sig (Elt F) :=
  Pipeline.withArrays spec1 c (W7 m c) fun w => (dat1 (atTc (W7 m)) c).arrAt w cfg1.N
theorem W8_arr (c : Dev nD) (w : Fin cfg1.W) :
    W8 m c (Proc.devRef .tc (Pipeline.arrRef spec1 w)) = (dat1 (atTc (W7 m)) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- An input window's array passes through the region unchanged. -/
theorem W8_in (c : Dev nD) (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (atTc (W7 m)) c).arrAt_in w hw _).trans (A_eq1 (atTc (W7 m)) c w))
/-- The two facts the region's exit takes: each of its arrays holds what the pipeline leaves, every other buffer what it held. -/
theorem hF1 (c : Dev nD) (w : Fin cfg1.W) :
    (dat1 (atTc (W7 m)) c).arrAt w cfg1.N = atTc (W8 m) c (Pipeline.arrRef spec1 w) :=
  (W8_arr m c w).symm
theorem hrest1 (c : Dev nD) : ∀ b, b ∉ Finset.univ.image (Pipeline.arrRef spec1) → atTc (W8 m) c b = atTc (W7 m) c b :=
  fun b hb => W8_of_ne m c b fun w e => hb (Finset.mem_image.mpr ⟨w, Finset.mem_univ _, e⟩)
/-- After the host stretch `hostOps2`. -/
abbrev W9 : Dev nD → Valuation τ sig (Elt F) := fun c => StableHlo.after hostOps2 (W8 m c)
/-- After region 2: its arrays at what the pipeline leaves, every other buffer as found. -/
def W10 (c : Dev nD) : Valuation τ sig (Elt F) :=
  Pipeline.withArrays spec2 c (W9 m c) fun w => (dat2 (atTc (W9 m)) c).arrAt w cfg2.N
theorem W10_arr (c : Dev nD) (w : Fin cfg2.W) :
    W10 m c (Proc.devRef .tc (Pipeline.arrRef spec2 w)) = (dat2 (atTc (W9 m)) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- An input window's array passes through the region unchanged. -/
theorem W10_in (c : Dev nD) (w : Fin cfg2.W) (hw : (cfg2.win w).isOut = false) :
    W10 m c (Proc.devRef .tc (Pipeline.arrRef spec2 w)) = W9 m c (Proc.devRef .tc (Pipeline.arrRef spec2 w)) :=
  (W10_arr m c w).trans (((dat2 (atTc (W9 m)) c).arrAt_in w hw _).trans (A_eq2 (atTc (W9 m)) c w))
/-- The two facts the region's exit takes: each of its arrays holds what the pipeline leaves, every other buffer what it held. -/
theorem hF2 (c : Dev nD) (w : Fin cfg2.W) :
    (dat2 (atTc (W9 m)) c).arrAt w cfg2.N = atTc (W10 m) c (Pipeline.arrRef spec2 w) :=
  (W10_arr m c w).symm
theorem hrest2 (c : Dev nD) : ∀ b, b ∉ Finset.univ.image (Pipeline.arrRef spec2) → atTc (W10 m) c b = atTc (W9 m) c b :=
  fun b hb => W10_of_ne m c b fun w e => hb (Finset.mem_image.mpr ⟨w, Finset.mem_univ _, e⟩)
/-- After the host stretch `hostOps3`. -/
abbrev W11 : Dev nD → Valuation τ sig (Elt F) := fun c => StableHlo.after hostOps3 (W10 m c)
/-- After region 3: its arrays at what the pipeline leaves, every other buffer as found. -/
def W12 (c : Dev nD) : Valuation τ sig (Elt F) :=
  Pipeline.withArrays spec3 c (W11 m c) fun w => (dat3 (atTc (W11 m)) c).arrAt w cfg3.N
theorem W12_arr (c : Dev nD) (w : Fin cfg3.W) :
    W12 m c (Proc.devRef .tc (Pipeline.arrRef spec3 w)) = (dat3 (atTc (W11 m)) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
/-- An input window's array passes through the region unchanged. -/
theorem W12_in (c : Dev nD) (w : Fin cfg3.W) (hw : (cfg3.win w).isOut = false) :
    W12 m c (Proc.devRef .tc (Pipeline.arrRef spec3 w)) = W11 m c (Proc.devRef .tc (Pipeline.arrRef spec3 w)) :=
  (W12_arr m c w).trans (((dat3 (atTc (W11 m)) c).arrAt_in w hw _).trans (A_eq3 (atTc (W11 m)) c w))
/-- The two facts the region's exit takes: each of its arrays holds what the pipeline leaves, every other buffer what it held. -/
theorem hF3 (c : Dev nD) (w : Fin cfg3.W) :
    (dat3 (atTc (W11 m)) c).arrAt w cfg3.N = atTc (W12 m) c (Pipeline.arrRef spec3 w) :=
  (W12_arr m c w).symm
theorem hrest3 (c : Dev nD) : ∀ b, b ∉ Finset.univ.image (Pipeline.arrRef spec3) → atTc (W12 m) c b = atTc (W11 m) c b :=
  fun b hb => W12_of_ne m c b fun w e => hb (Finset.mem_image.mpr ⟨w, Finset.mem_univ _, e⟩)
/-- After the host stretch `hostOps4`. -/
abbrev W13 : Dev nD → Valuation τ sig (Elt F) := fun c => StableHlo.after hostOps4 (W12 m c)
/-- After region 4: its arrays at what the pipeline leaves, every other buffer as found. -/
def W14 (c : Dev nD) : Valuation τ sig (Elt F) :=
  Pipeline.withArrays spec4 c (W13 m c) fun w => (dat4 (atTc (W13 m)) c).arrAt w cfg4.N
theorem W14_arr (c : Dev nD) (w : Fin cfg4.W) :
    W14 m c (Proc.devRef .tc (Pipeline.arrRef spec4 w)) = (dat4 (atTc (W13 m)) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
/-- An input window's array passes through the region unchanged. -/
theorem W14_in (c : Dev nD) (w : Fin cfg4.W) (hw : (cfg4.win w).isOut = false) :
    W14 m c (Proc.devRef .tc (Pipeline.arrRef spec4 w)) = W13 m c (Proc.devRef .tc (Pipeline.arrRef spec4 w)) :=
  (W14_arr m c w).trans (((dat4 (atTc (W13 m)) c).arrAt_in w hw _).trans (A_eq4 (atTc (W13 m)) c w))
/-- The two facts the region's exit takes: each of its arrays holds what the pipeline leaves, every other buffer what it held. -/
theorem hF4 (c : Dev nD) (w : Fin cfg4.W) :
    (dat4 (atTc (W13 m)) c).arrAt w cfg4.N = atTc (W14 m) c (Pipeline.arrRef spec4 w) :=
  (W14_arr m c w).symm
theorem hrest4 (c : Dev nD) : ∀ b, b ∉ Finset.univ.image (Pipeline.arrRef spec4) → atTc (W14 m) c b = atTc (W13 m) c b :=
  fun b hb => W14_of_ne m c b fun w e => hb (Finset.mem_image.mpr ⟨w, Finset.mem_univ _, e⟩)

/-! ## What a host stretch does not write, it leaves -/
theorem W1_of (c : Dev nD) (r : Ref sig .tc) (hr : r ∉ hostOps0_W) : W1 m c r = W0 m c r :=
  StableHlo.after_of_writes_sub hostOps0 _ hostOps0_writes hr
theorem W3_of (c : Dev nD) (r : Ref sig .tc) (hr : r ∉ hostOps1_W) : W3 m c r = W2 m c r :=
  StableHlo.after_of_writes_sub hostOps1 _ hostOps1_writes hr
theorem W4_of (c : Dev nD) (r : Ref sig .tc) (hr : r ∉ hostOps1_1_W) : W4 m c r = W3 m c r :=
  StableHlo.after_of_writes_sub hostOps1_1 _ hostOps1_1_writes hr
theorem W5_of (c : Dev nD) (r : Ref sig .tc) (hr : r ∉ hostOps1_2_W) : W5 m c r = W4 m c r :=
  StableHlo.after_of_writes_sub hostOps1_2 _ hostOps1_2_writes hr
theorem W6_of (c : Dev nD) (r : Ref sig .tc) (hr : r ∉ hostOps1_3_W) : W6 m c r = W5 m c r :=
  StableHlo.after_of_writes_sub hostOps1_3 _ hostOps1_3_writes hr
theorem W7_of (c : Dev nD) (r : Ref sig .tc) (hr : r ∉ hostOps1_4_W) : W7 m c r = W6 m c r :=
  StableHlo.after_of_writes_sub hostOps1_4 _ hostOps1_4_writes hr
theorem W9_of (c : Dev nD) (r : Ref sig .tc) (hr : r ∉ hostOps2_W) : W9 m c r = W8 m c r :=
  StableHlo.after_of_writes_sub hostOps2 _ hostOps2_writes hr
theorem W11_of (c : Dev nD) (r : Ref sig .tc) (hr : r ∉ hostOps3_W) : W11 m c r = W10 m c r :=
  StableHlo.after_of_writes_sub hostOps3 _ hostOps3_writes hr
theorem W13_of (c : Dev nD) (r : Ref sig .tc) (hr : r ∉ hostOps4_W) : W13 m c r = W12 m c r :=
  StableHlo.after_of_writes_sub hostOps4 _ hostOps4_writes hr

/-! ## The arguments reach the end as launched -/
theorem W14_main_arg0 (c : Dev nD) : W14 m c (Proc.devRef .tc main_arg0) = m ((c : Thread nD τ).loc main_arg0) :=
  (W14_of_ne m c main_arg0 (by decide)).trans <| (W13_of m c main_arg0 (by decide)).trans <| (W12_of_ne m c main_arg0 (by decide)).trans <| (W11_of m c main_arg0 (by decide)).trans <| (W10_of_ne m c main_arg0 (by decide)).trans <| (W9_of m c main_arg0 (by decide)).trans <| (W8_of_ne m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_in m c 0 rfl).trans <| (W1_of m c main_arg0 (by decide)).trans rfl
theorem W14_main_arg1 (c : Dev nD) : W14 m c (Proc.devRef .tc main_arg1) = m ((c : Thread nD τ).loc main_arg1) :=
  (W14_of_ne m c main_arg1 (by decide)).trans <| (W13_of m c main_arg1 (by decide)).trans <| (W12_of_ne m c main_arg1 (by decide)).trans <| (W11_of m c main_arg1 (by decide)).trans <| (W10_of_ne m c main_arg1 (by decide)).trans <| (W9_of m c main_arg1 (by decide)).trans <| (W8_of_ne m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_in m c 1 rfl).trans <| (W1_of m c main_arg1 (by decide)).trans rfl
theorem W14_main_arg2 (c : Dev nD) : W14 m c (Proc.devRef .tc main_arg2) = m ((c : Thread nD τ).loc main_arg2) :=
  (W14_of_ne m c main_arg2 (by decide)).trans <| (W13_of m c main_arg2 (by decide)).trans <| (W12_of_ne m c main_arg2 (by decide)).trans <| (W11_of m c main_arg2 (by decide)).trans <| (W10_of_ne m c main_arg2 (by decide)).trans <| (W9_of m c main_arg2 (by decide)).trans <| (W8_of_ne m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of_ne m c main_arg2 (by decide)).trans <| (W1_of m c main_arg2 (by decide)).trans rfl
theorem W14_main_arg3 (c : Dev nD) : W14 m c (Proc.devRef .tc main_arg3) = m ((c : Thread nD τ).loc main_arg3) :=
  (W14_of_ne m c main_arg3 (by decide)).trans <| (W13_of m c main_arg3 (by decide)).trans <| (W12_of_ne m c main_arg3 (by decide)).trans <| (W11_of m c main_arg3 (by decide)).trans <| (W10_of_ne m c main_arg3 (by decide)).trans <| (W9_of m c main_arg3 (by decide)).trans <| (W8_of_ne m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of_ne m c main_arg3 (by decide)).trans <| (W1_of m c main_arg3 (by decide)).trans rfl
theorem W14_main_arg4 (c : Dev nD) : W14 m c (Proc.devRef .tc main_arg4) = m ((c : Thread nD τ).loc main_arg4) :=
  (W14_of_ne m c main_arg4 (by decide)).trans <| (W13_of m c main_arg4 (by decide)).trans <| (W12_of_ne m c main_arg4 (by decide)).trans <| (W11_of m c main_arg4 (by decide)).trans <| (W10_of_ne m c main_arg4 (by decide)).trans <| (W9_of m c main_arg4 (by decide)).trans <| (W8_of_ne m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of_ne m c main_arg4 (by decide)).trans <| (W1_of m c main_arg4 (by decide)).trans rfl
theorem W14_main_arg5 (c : Dev nD) : W14 m c (Proc.devRef .tc main_arg5) = m ((c : Thread nD τ).loc main_arg5) :=
  (W14_of_ne m c main_arg5 (by decide)).trans <| (W13_of m c main_arg5 (by decide)).trans <| (W12_of_ne m c main_arg5 (by decide)).trans <| (W11_of m c main_arg5 (by decide)).trans <| (W10_of_ne m c main_arg5 (by decide)).trans <| (W9_of m c main_arg5 (by decide)).trans <| (W8_of_ne m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of_ne m c main_arg5 (by decide)).trans <| (W1_of m c main_arg5 (by decide)).trans rfl

end Cert.Kernel.Hand

end
-- ==== Proof.K.Data.lean ====
/- The program Kernel (the program as printed, read at the word-level instance) has the same text as its idealization,
  so this module is the idealized program's module of the same name with the program's namespace substituted: the regions' proof data as one family, and what rides beside the buffers.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import proofs.«130239_j40776419508957_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every region's proof data, each at the contents its region finds. -/
def pdats : (p : Fin 5) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W7 m)) c
  | ⟨2, _⟩ => fun c => dat2 (atTc (W9 m)) c
  | ⟨3, _⟩ => fun c => dat3 (atTc (W11 m)) c
  | ⟨4, _⟩ => fun c => dat4 (atTc (W13 m)) c

/-- No core waits on another: no level is assigned. -/
abbrev noLevels : GSem nD τ sig → Finset Unit := fun _ => ∅
abbrev levelZero : GSem nD τ sig → Unit → ℕ := fun _ _ => 0

/-- What rides beside the buffers through every item: the generator register at some state, and nothing owed. -/
abbrev rest (c : Dev nD) : sProp 𝕄 := iprop((∃ r, prngReg c r) ∗ ∃ W, owes (c : Thread nD τ) (0 : CellTallies nD τ sig Unit) W)

/-- A host stretch as an item of the run: its operations over the unscoped buffers from the contents W, the rest riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- The last thread state without the owing part: every unscoped buffer at the last contents, the generator register at some state. -/
abbrev lastState (c : Dev nD) : sProp 𝕄 := iprop(StableHlo.held (c : Thread nD τ) (Pipeline.ucRefs τ sig) (W14 m c) ∗ ∃ r, prngReg c r)

end Cert.Kernel.Hand

end
-- ==== Proof.K.Seg0.lean ====
/- The program Kernel (the program as printed, read at the word-level instance) has the same text as its idealization,
  so this module is the idealized program's module of the same name with the program's namespace substituted: region 0 as an item of the run.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import proofs.«130239_j40776419508957_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item0 : Pipeline.RegionSeg (pcfgs (F := F)) adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ noLevels levelZero 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/- The program Kernel (the program as printed, read at the word-level instance) has the same text as its idealization,
  so this module is the idealized program's module of the same name with the program's namespace substituted: region 1 as an item of the run.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import proofs.«130239_j40776419508957_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item1 : Pipeline.RegionSeg (pcfgs (F := F)) adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (atTc (W7 m)) c).loose
  hwaits := Pipeline.hwaits_of_owed_zero _ _ _ _ noLevels levelZero 1 fun _ _ => rfl
  pre c := iprop(StableHlo.held (c : Thread nD τ) (Pipeline.ucRefs τ sig) (W7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := UR sig nD τ) (Lvl := ℕ) spec1 c (atTc (W7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W7 m) c) (atTc (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/- The program Kernel (the program as printed, read at the word-level instance) has the same text as its idealization,
  so this module is the idealized program's module of the same name with the program's namespace substituted: region 2 as an item of the run.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import proofs.«130239_j40776419508957_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item2 : Pipeline.RegionSeg (pcfgs (F := F)) adm (pdats m) () defs₀ Variants.none noLevels levelZero 2 where
  win := launch2.win.to₀
  block_pos := launch2.block_pos
  stage_whole := launch2.stage_whole
  K := PEmpty
  osem k := k.elim
  ho := Pipeline.OwnSemFacts.none _
  hbody c := (body_obligation2 (atTc (W9 m)) c).loose
  hwaits := Pipeline.hwaits_of_owed_zero _ _ _ _ noLevels levelZero 2 fun _ _ => rfl
  pre c := iprop(StableHlo.held (c : Thread nD τ) (Pipeline.ucRefs τ sig) (W9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := UR sig nD τ) (Lvl := ℕ) spec2 c (atTc (W9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W9 m) c) (atTc (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/- The program Kernel (the program as printed, read at the word-level instance) has the same text as its idealization,
  so this module is the idealized program's module of the same name with the program's namespace substituted: region 3 as an item of the run.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import proofs.«130239_j40776419508957_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item3 : Pipeline.RegionSeg (pcfgs (F := F)) adm (pdats m) () defs₀ Variants.none noLevels levelZero 3 where
  win := launch3.win.to₀
  block_pos := launch3.block_pos
  stage_whole := launch3.stage_whole
  K := PEmpty
  osem k := k.elim
  ho := Pipeline.OwnSemFacts.none _
  hbody c := (body_obligation3 (atTc (W11 m)) c).loose
  hwaits := Pipeline.hwaits_of_owed_zero _ _ _ _ noLevels levelZero 3 fun _ _ => rfl
  pre c := iprop(StableHlo.held (c : Thread nD τ) (Pipeline.ucRefs τ sig) (W11 m c) ∗ rest c)
  post c := iprop(StableHlo.held (c : Thread nD τ) (Pipeline.ucRefs τ sig) (W12 m c) ∗ rest c)
  X c := iprop(∃ r, prngReg c r)
  Y c := iprop(∃ r, prngReg c r)
  Z c := Pipeline.unscopedRest (Ix := Unit) (Name := ℕ) (U := UR sig nD τ) (Lvl := ℕ) spec3 c (atTc (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W11 m) c) (atTc (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/- The program Kernel (the program as printed, read at the word-level instance) has the same text as its idealization,
  so this module is the idealized program's module of the same name with the program's namespace substituted: region 4 as the last item of the run.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import proofs.«130239_j40776419508957_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item4 : Pipeline.RegionSeg (pcfgs (F := F)) adm (pdats m) () defs₀ Variants.none noLevels levelZero 4 where
  win := launch4.win.to₀
  block_pos := launch4.block_pos
  stage_whole := launch4.stage_whole
  K := PEmpty
  osem k := k.elim
  ho := Pipeline.OwnSemFacts.none _
  hbody c := (body_obligation4 (atTc (W13 m)) c).loose
  hwaits := Pipeline.hwaits_of_owed_zero _ _ _ _ noLevels levelZero 4 fun _ _ => rfl
  pre c := iprop(StableHlo.held (c : Thread nD τ) (Pipeline.ucRefs τ sig) (W13 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (atTc (W13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (atTc (W13 m)) c
    unfold Pipeline.ΦA at h
    rw [show (pdats m 4 c).Φ 0 = (dat4 (atTc (W13 m)) c).Φ 0 from rfl]
    iintro ⟨Hp, -, Hr⟩
    iapply h
    isplitl [Hr]; · iexact Hr
    iexact Hp
  hout c := by
    rw [Pipeline.ownSems0_none]
    have h := hout4 (atTc (W13 m)) c
    unfold Pipeline.ΦA at h
    rw [show (pdats m 4 c).Φ (Fin.last _) = (dat4 (atTc (W13 m)) c).Φ (Fin.last _) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W13 m) c) (atTc (W14 m) c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
/- The program Kernel (the program as printed, read at the word-level instance) has the same text as its idealization,
  so this module is the idealized program's module of the same name with the program's namespace substituted: the run of the whole program, the frame, and the result read back.
-/
import proofs.«130239_j40776419508957_1_alg».proof.Proof.Gen.Kernel.Launch
import proofs.«130239_j40776419508957_1_alg».proof.Proof.Gen.Kernel.Skeleton
import proofs.«130239_j40776419508957_1_alg».proof.Proof.Gen.Kernel.Points
import proofs.«130239_j40776419508957_1_alg».proof.Proof.K.Seg0
import proofs.«130239_j40776419508957_1_alg».proof.Proof.K.Seg1
import proofs.«130239_j40776419508957_1_alg».proof.Proof.K.Seg2
import proofs.«130239_j40776419508957_1_alg».proof.Proof.K.Seg3
import proofs.«130239_j40776419508957_1_alg».proof.Proof.K.Seg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's fourteen items in order: a host item per stretch from the contents it finds, a region per kernel call. -/
abbrev items : List (Pipeline.Seg (pcfgs (F := F)) adm (pdats m) () defs₀ Variants.none noLevels levelZero) :=
  [ .host (hostItem hostOps0 hostOps0_sub hostOps0_fresh (W0 m)),
    .region (item0 m),
    .host (hostItem hostOps1 hostOps1_sub hostOps1_fresh (W2 m)),
    .host (hostItem hostOps1_1 hostOps1_1_sub hostOps1_1_fresh (W3 m)),
    .host (hostItem hostOps1_2 hostOps1_2_sub hostOps1_2_fresh (W4 m)),
    .host (hostItem hostOps1_3 hostOps1_3_sub hostOps1_3_fresh (W5 m)),
    .host (hostItem hostOps1_4 hostOps1_4_sub hostOps1_4_fresh (W6 m)),
    .region (item1 m),
    .host (hostItem hostOps2 hostOps2_sub hostOps2_fresh (W8 m)),
    .region (item2 m),
    .host (hostItem hostOps3 hostOps3_sub hostOps3_fresh (W10 m)),
    .region (item3 m),
    .host (hostItem hostOps4 hostOps4_sub hostOps4_fresh (W12 m)),
    .region (item4 m) ]

/-- The program is the run of its items. -/
theorem main_items (c : Dev nD) : main (F := F) c = Pipeline.Seg.run (items m) := by
  rw [main_chain c, Pipeline.Seg.run_eq_chain]
  rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and at the end every unscoped buffer of every core holds the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ Variants.none noLevels levelZero m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c)⟩) (run_all m ρ)

/-- THE RESULT: beside the frame, the result buffer ends at what region 4's write-back left in its output array. -/
theorem run_result : θ_run defs (onTc (τ := τ) (main (F := F))) ⟨m, fun _ => 0, ρ⟩ (fun r => ∀ c : Dev nD,
      r.2.mem ((c.tc : Thread nD τ).loc main_v62) = W14 m c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v62 (by decide)),
     (h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c)⟩) (run_all m ρ)

end Cert.Kernel.Hand

end
-- ==== Proof.KI.Reg0.lean ====
/-
  Region 0 of the program: the first linear layer. At grid point t the body reads the t-th block of 10000 rows of
  the node features x (one column) and the whole weight row W1 (64 columns, the same block at every point), and
  writes the block of 10000 x 64 products x[r] * W1[j]. This module states what each window's staging buffer holds
  after the body at each point, as a function of the arrays the region finds (a parameter V), runs the body once on
  whole staging buffers, and concludes the per-point obligation the pipeline asks of the body.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or not
    (the weight row is fetched once and stays): for any proof data over V's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev rx0 : Rect S10000x1 := Rect.unit (s := S10000x1) ![0, 0] S10000x1.size inb_S10000x1_S10000x1_0_0
abbrev rw0 : Rect S1x64 := Rect.unit (s := S1x64) ![0, 0] S1x64.size inb_S1x64_S1x64_0_0
abbrev ro0 : Rect S10000x64 := Rect.unit (s := S10000x64) ![0, 0] S10000x64.size inb_S10000x64_S10000x64_0_0

/-- What the body leaves in the output window's buffer: its one store, of the product of the two loaded blocks. -/
def out0_2 (x0 : Vec F S10000x1 .f32) (x1 : Vec F S1x64 .f32) : Vec F S10000x64 .f32 :=
  View.canon [⟨ro0, k0_pay1 (View.ld x0 rx0) (View.ld x1 rw0)⟩]

/-- The one store covers the whole buffer. -/
theorem cover0_2 (p0 : Vec F S10000x64 .f32) (y : S10000x64.Idx) :
    ∃ pc ∈ ([⟨ro0, p0⟩] : List (View.Piece (Elt F) S10000x64 .f32)), y ∈ pc.1.set :=
  View.cover_of_tiled [⟨ro0, p0⟩] S10000x64.size (by rfl) y

set_option maxHeartbeats 1000000 in
/-- The body on whole staging buffers, the inputs' at contents x0, x1 and the output's at anything, runs to a state
    with the inputs' as they were and the output's at out0_2 x0 x1. -/
theorem sound_kernel0 (c : Dev nD) (E : Set ℕ) (i : grid0.Coords)
    (arg1 : Memref sig .tc .vmem S10000x1 .f32) (harg1 : arg1.IsWhole) (arg2 : Memref sig .tc .vmem S1x64 .f32) (harg2 : arg2.IsWhole)
    (arg3 : Memref sig .tc .vmem S10000x64 .f32) (harg3 : arg3.IsWhole)
    (x0 : Vec F S10000x1 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear1_kernel i arg1 harg1 arg2 harg2 arg3 harg3) K := by
  simp only [cc0__linear1_kernel_eq_skeleton]; unfold cc0__linear1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core c: the arrays as the region finds them; after the body at point t each
    input's buffer at its block and the output's at out0_2 of the two blocks; the invariant is the untouched scoped
    rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 of the program: the scaling of the gathered rows. At grid point t the body reads the t-th block of 8192
  rows of the gathered features (64 columns) and the matching 8192 normalisation coefficients (one column), and
  writes the block of 8192 x 64 products g[r, j] * n[r]. What each window's staging buffer holds after the body at
  each point, as a function of the arrays the region finds (a parameter V); the body run once on whole staging
  buffers; the per-point obligation the pipeline asks of the body.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or not
    (both are fetched at every point): for any proof data over V's arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev rx1 : Rect S8192x64 := Rect.unit (s := S8192x64) ![0, 0] S8192x64.size inb_S8192x64_S8192x64_0_0
abbrev rw1 : Rect S8192x1 := Rect.unit (s := S8192x1) ![0, 0] S8192x1.size inb_S8192x1_S8192x1_0_0
abbrev ro1 : Rect S8192x64 := Rect.unit (s := S8192x64) ![0, 0] S8192x64.size inb_S8192x64_S8192x64_0_0

/-- What the body leaves in the output window's buffer: its one store, of the product of each gathered row with its coefficient. -/
def out1_2 (x0 : Vec F S8192x64 .f32) (x1 : Vec F S8192x1 .f32) : Vec F S8192x64 .f32 :=
  View.canon [⟨ro1, k1_pay1 (View.ld x0 rx1) (View.ld x1 rw1)⟩]

/-- The one store covers the whole buffer. -/
theorem cover1_2 (p0 : Vec F S8192x64 .f32) (y : S8192x64.Idx) :
    ∃ pc ∈ ([⟨ro1, p0⟩] : List (View.Piece (Elt F) S8192x64 .f32)), y ∈ pc.1.set :=
  View.cover_of_tiled [⟨ro1, p0⟩] S8192x64.size (by rfl) y

set_option maxHeartbeats 1000000 in
/-- The body on whole staging buffers, the inputs' at contents x0, x1 and the output's at anything, runs to a state
    with the inputs' as they were and the output's at out1_2 x0 x1. -/
theorem sound_kernel1 (c : Dev nD) (E : Set ℕ) (i : grid1.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1 on core c: the arrays as the region finds them; after the body at point t each
    input's buffer at its block and the output's at out1_2 of the two blocks; the invariant is the untouched scoped
    rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 of the program: bias and rectification. At grid point t the body reads the t-th block of 10000 rows of
  the aggregated features (64 columns) and the whole bias row (64 columns, the same block at every point), and
  writes the block of values max(a[r, j] + b[j], 0). What each window's staging buffer holds after the body at each
  point, as a function of the arrays the region finds (a parameter V); the body run once on whole staging buffers;
  the per-point obligation the pipeline asks of the body.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or not
    (the bias row is fetched once and stays): for any proof data over V's arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev rx2 : Rect S10000x64 := Rect.unit (s := S10000x64) ![0, 0] S10000x64.size inb_S10000x64_S10000x64_0_0
abbrev rw2 : Rect S1x64 := Rect.unit (s := S1x64) ![0, 0] S1x64.size inb_S1x64_S1x64_0_0
abbrev ro2 : Rect S10000x64 := Rect.unit (s := S10000x64) ![0, 0] S10000x64.size inb_S10000x64_S10000x64_0_0

/-- What the body leaves in the output window's buffer: its one store, of the rectified sum of the block and the bias row. -/
def out2_2 (x0 : Vec F S10000x64 .f32) (x1 : Vec F S1x64 .f32) : Vec F S10000x64 .f32 :=
  View.canon [⟨ro2, k2_pay1 (View.ld x0 rx2) (View.ld x1 rw2)⟩]

/-- The one store covers the whole buffer. -/
theorem cover2_2 (p0 : Vec F S10000x64 .f32) (y : S10000x64.Idx) :
    ∃ pc ∈ ([⟨ro2, p0⟩] : List (View.Piece (Elt F) S10000x64 .f32)), y ∈ pc.1.set :=
  View.cover_of_tiled [⟨ro2, p0⟩] S10000x64.size (by rfl) y

set_option maxHeartbeats 1000000 in
/-- The body on whole staging buffers, the inputs' at contents x0, x1 and the output's at anything, runs to a state
    with the inputs' as they were and the output's at out2_2 x0 x1. -/
theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of region 2 on core c: the arrays as the region finds them; after the body at point t each
    input's buffer at its block and the output's at out2_2 of the two blocks; the invariant is the untouched scoped
    rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 of the program: the second linear layer. At grid point t the body reads the t-th block of 10000 rows of
  the hidden features (64 columns) and the whole weight row (64 columns, the same block at every point), and writes
  the block of 10000 row sums, the sum over j of h[r, j] * w[j] (one column). What each window's staging buffer holds
  after the body at each point, as a function of the arrays the region finds (a parameter V); the body run once on
  whole staging buffers; the per-point obligation the pipeline asks of the body.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the pipeline fetched it there or not
    (the weight row is fetched once and stays): for any proof data over V's arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev rx3 : Rect S10000x64 := Rect.unit (s := S10000x64) ![0, 0] S10000x64.size inb_S10000x64_S10000x64_0_0
abbrev rw3 : Rect S1x64 := Rect.unit (s := S1x64) ![0, 0] S1x64.size inb_S1x64_S1x64_0_0
abbrev ro3 : Rect S10000x1 := Rect.unit (s := S10000x1) ![0, 0] S10000x1.size inb_S10000x1_S10000x1_0_0

/-- What the body leaves in the output window's buffer: its one store, of the row sums of the products with the weight row. -/
def out3_2 (x0 : Vec F S10000x64 .f32) (x1 : Vec F S1x64 .f32) : Vec F S10000x1 .f32 :=
  View.canon [⟨ro3, k3_pay1 (View.ld x0 rx3) (View.ld x1 rw3)⟩]

/-- The one store covers the whole buffer. -/
theorem cover3_2 (p0 : Vec F S10000x1 .f32) (y : S10000x1.Idx) :
    ∃ pc ∈ ([⟨ro3, p0⟩] : List (View.Piece (Elt F) S10000x1 .f32)), y ∈ pc.1.set :=
  View.cover_of_tiled [⟨ro3, p0⟩] S10000x1.size (by rfl) y

set_option maxHeartbeats 1000000 in
/-- The body on whole staging buffers, the inputs' at contents x0, x1 and the output's at anything, runs to a state
    with the inputs' as they were and the output's at out3_2 x0 x1. -/
theorem sound_kernel3 (c : Dev nD) (E : Set ℕ) (i : grid3.Coords)
    (arg1 : Memref sig .tc .vmem S10000x64 .f32) (harg1 : arg1.IsWhole) (arg2 : Memref sig .tc .vmem S1x64 .f32) (harg2 : arg2.IsWhole)
    (arg3 : Memref sig .tc .vmem S10000x1 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear2_kernel i arg1 harg1 arg2 harg2 arg3 harg3) K := by
  simp only [cc3__linear2_kernel_eq_skeleton]; unfold cc3__linear2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of region 3 on core c: the arrays as the region finds them; after the body at point t each
    input's buffer at its block and the output's at out3_2 of the two blocks; the invariant is the untouched scoped
    rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the program: the global maximum. The grid has ten points, run in order. A one-element scratch buffer
  carries a running maximum from point to point: at the first point it is reset to minus infinity; at every point it
  is replaced by the larger of itself and the maximum, over the point's block of 10000 rows, of a[r] + b (b the one
  bias element, the same block at every point); at the last point it is copied into the one-element output buffer,
  which no other point touches and which the pipeline writes back only there. This module states what the scratch
  holds after each point (by recursion on the point), the proof data over it, and the obligation the pipeline asks of
  the body at each point, with the invariant handing the scratch from one point to the next.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch buffer the kernel keeps its running maximum in. -/
abbrev scM4 : Memref sig .tc .vmem S1x1 .f32 := Memref.whole cc4_scratch0

/-- THE RUNNING MAXIMUM. What the scratch holds after the body at point n: the body's update of what the point before
    left (at the first point: of the reset value, minus infinity) by the point's block of a and the bias element. -/
def acc4 (c : Dev nD) : (n : ℕ) → n < cfg4.N → Vec F S1x1 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) (k4_pay1 (F := F)) := rfl

theorem acc4_succ (c : Dev nD) (n : ℕ) (h : n + 1 < cfg4.N) :
    acc4 V c (n + 1) h = k4_pay2 (iblk4 V c 0 ⟨n + 1, h⟩) (iblk4 V c 1 ⟨n + 1, h⟩) (acc4 V c n (Nat.lt_of_succ_lt h)) := rfl

/-- The scoped buffers of the program's other regions (their staging buffers), each at some contents: the part of the
    scoped rest this region never touches. -/
def rest4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f))

/-- The region's invariant before position n: before the first point the launch's (the whole scoped rest at anything
    beside the generator register); afterwards the scratch holds the running maximum the point before left, the other
    scoped buffers are as untouched as before, and the register is at some state. -/
def PhiS4 (c : Dev nD) : (n : ℕ) → n ≤ cfg4.N → sProp 𝕄
  | 0, _ => Pipeline.ΦA spec4 c
  | n + 1, hn => iprop(owns (c : Thread nD τ) scM4 fullShare (acc4 V c n hn) ∗ rest4 (F := F) c ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) scM4 fullShare (acc4 V c n hn) ∗ rest4 (F := F) c ∗ (∃ r, prngReg c r)) := rfl

theorem PhiS4_pos (c : Dev nD) (n : ℕ) (h : n ≤ cfg4.N) (hz : n ≠ 0) :
    PhiS4 V c n h = iprop(owns (c : Thread nD τ) scM4 fullShare (acc4 V c (n - 1) (by omega)) ∗ rest4 (F := F) c ∗ (∃ r, prngReg c r)) := by
  cases n with
  | zero => exact absurd rfl hz
  | succ n => rfl

/-- The proof data of region 4 on core c: the arrays as the region finds them; after the body at point t each input's
    buffer at its block; the output's named contents the running maximum after the point (what the last point stores
    there; at the other points the buffer is idle and not written back, and nothing reads this name); the invariant
    PhiS4; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-- The launch's invariant, opened: the scratch at some contents, the other regions' scoped buffers, the generator
    register at some state. -/
theorem PhiA4_eq (c : Dev nD) :
    (Pipeline.ΦA spec4 c : sProp 𝕄)
      = iprop((∃ d, owns (c : Thread nD τ) scM4 fullShare d) ∗ rest4 (F := F) c ∗ (∃ r, prngReg c r)) := by
  unfold Pipeline.ΦA rest4; rw [scopedRest4_eq]; simp only [scM4, owns_whole]
  refine BI.equiv_iff.mp ⟨?_, ?_⟩
  · show (_ : sProp 𝕄) ⊢ _
    iintro ⟨⟨H1, H2, H3, H4, H5, H6, H7, H8, H9, H10, H11, H12, H13, H14, H15, H16, H17, H18, H19, H20, H21, HS⟩, Hg⟩
    isplitl [HS]; · iexact HS
    isplitr [Hg]
    swap; · iexact Hg
    iframe
  · show (_ : sProp 𝕄) ⊢ _
    iintro ⟨HS, ⟨H1, H2, H3, H4, H5, H6, H7, H8, H9, H10, H11, H12, H13, H14, H15, H16, H17, H18, H19, H20, H21⟩, Hg⟩
    isplitr [Hg]
    swap; · iexact Hg
    iframe

/-- The body's first condition (the point is the first), from the grid coordinates. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The body's second condition (the point is the last). -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := fun _ => rfl
theorem liveAt4_1 : ∀ t : Fin cfg4.N, cfg4.idle 1 (grid4.coords t) = false := fun _ => rfl
theorem idleAt4_2 : ∀ t : Fin cfg4.N, ¬t.val = 9 → cfg4.idle 2 (grid4.coords t) = true :=
  (by decide +kernel : ∀ t : Fin grid4.N, ¬t.val = 9 → cfg4.idle 2 (grid4.coords t) = true)
theorem liveAt4_2 : ∀ t : Fin cfg4.N, t.val = 9 → cfg4.idle 2 (grid4.coords t) = false :=
  (by decide +kernel : ∀ t : Fin grid4.N, t.val = 9 → cfg4.idle 2 (grid4.coords t) = false)
theorem noFlush4_2 : ∀ t : Fin cfg4.N, ¬t.val = 9 → (cfg4.win 2).flush t = false :=
  (by decide +kernel : ∀ t : Fin grid4.N, ¬t.val = 9 → win4_2.flush t = false)

/-- The zero offsets the body's rectangles are printed with. -/
theorem hz2 : (![0, 0] : Fin 2 → Nat) = fun _ => 0 := by funext a; fin_cases a <;> rfl

/-! ## The body run once per control case, on whole buffers

The body's loads go through the whole rectangle of each buffer, so they read the buffer's contents; its stores go
through the whole rectangle of the one-element scratch (and, at the last point, of the output buffer), so what a
buffer holds afterwards is the last payload stored into it. -/

set_option maxHeartbeats 1000000 in
/-- At the first point (not the last): the scratch, handed over at anything, is reset to minus infinity and then
    updated; the output's buffer is left as it was found. -/
theorem sound_kernel4_A (c : Dev nD) (E : Set ℕ) (i : grid4.Coords) (hc0 : cond4_0 i) (hc1 : ¬cond4_1 i)
    (arg1 : Memref sig .tc .vmem S10000x1 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S1x1 .f32) (harg4 : arg4.IsWhole)
    (x0 : Vec F S10000x1 .f32) (x1 : Vec F S1x1 .f32) (xi2 : Vec F S1x1 .f32) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k4_pay2 x0 x1 (k4_pay1 (F := F)))) -∗ K ⟨⟩))
      ⊢ wp frame (wpE (defs₀ (F := F)) Variants.none c none) E (cc4__maxpool_kernel i arg1 harg1 arg2 harg2 arg3 harg3 arg4 harg4) K := by
  simp only [cc4__maxpool_kernel_eq_skeleton]; unfold cc4__maxpool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1) hz2 inb_S1x1_S1x1_0_0 y⟩)).trans ?_
  refine (View.canon_cons_unit_zero (S := S1x1) hz2 inb_S1x1_S1x1_0_0 _ _).trans ?_
  sl_unfold_run_names
  simp only [View.readAt_eq_ld, View.ld_unit_zero (S := S10000x1) hz2, View.ld_unit_zero (S := S1x1) hz2, View.readCov_unit_zero (S := S1x1) _ hz2]

set_option maxHeartbeats 1000000 in
/-- At a point that is neither the first nor the last: the scratch, handed over at s, is updated; the output's
    buffer is left as it was found. -/
theorem sound_kernel4_B (c : Dev nD) (E : Set ℕ) (i : grid4.Coords) (hc0 : ¬cond4_0 i) (hc1 : ¬cond4_1 i)
    (arg1 : Memref sig .tc .vmem S10000x1 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S1x1 .f32) (harg4 : arg4.IsWhole)
    (x0 : Vec F S10000x1 .f32) (x1 : Vec F S1x1 .f32) (xi2 : Vec F S1x1 .f32) (s : Vec F S1x1 .f32) (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare s
        ∗ (iprop(owns (c : Thread nD τ) arg1 fullShare x0 ∗ owns (c : Thread nD τ) arg2 fullShare x1 ∗ owns (c : Thread nD τ) arg3 fullShare xi2
            ∗ owns (c : Thread nD τ) arg4 fullShare (k4_pay2 x0 x1 s)) -∗ K ⟨⟩))
      ⊢ wp frame (wpE (defs₀ (F := F)) Variants.none c none) E (cc4__maxpool_kernel i arg1 harg1 arg2 harg2 arg3 harg3 arg4 harg4) K := by
  simp only [cc4__maxpool_kernel_eq_skeleton]; unfold cc4__maxpool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons_self, View.mem_set_unit_zero (S := S1x1) hz2 inb_S1x1_S1x1_0_0 y⟩)).trans ?_
  refine (View.canon_cons_unit_zero (S := S1x1) hz2 inb_S1x1_S1x1_0_0 _ _).trans ?_
  sl_unfold_run_names
  simp only [View.readAt_eq_ld, View.ld_unit_zero (S := S10000x1) hz2, View.ld_unit_zero (S := S1x1) hz2, View.readCov_unit_zero (S := S1x1) _ hz2]

set_option maxHeartbeats 1000000 in
/-- At the last point (not the first): the scratch, handed over at s, is updated, and its new contents are copied
    into the output's buffer, handed over at anything. -/
theorem sound_kernel4_C (c : Dev nD) (E : Set ℕ) (i : grid4.Coords) (hc0 : ¬cond4_0 i) (hc1 : cond4_1 i)
    (arg1 : Memref sig .tc .vmem S10000x1 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S1x1 .f32) (harg4 : arg4.IsWhole)
    (x0 : Vec F S10000x1 .f32) (x1 : Vec F S1x1 .f32) (s : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1 ∗ owns (c : Thread nD τ) arg3 fullShare (k4_pay2 x0 x1 s)
            ∗ owns (c : Thread nD τ) arg4 fullShare (k4_pay2 x0 x1 s)) -∗ K ⟨⟩))
      ⊢ wp frame (wpE (defs₀ (F := F)) Variants.none c none) E (cc4__maxpool_kernel i arg1 harg1 arg2 harg2 arg3 harg3 arg4 harg4) K := by
  simp only [cc4__maxpool_kernel_eq_skeleton]; unfold cc4__maxpool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_cons_self, View.mem_set_unit_zero (S := S1x1) hz2 inb_S1x1_S1x1_0_0 y⟩)).trans ?_
    refine (View.canon_cons_unit_zero (S := S1x1) hz2 inb_S1x1_S1x1_0_0 _ _).trans ?_
    sl_unfold_run_names
    simp only [View.readAt_eq_ld, View.ld_unit_zero (S := S10000x1) hz2, View.ld_unit_zero (S := S1x1) hz2, View.readCov_unit_zero (S := S1x1) _ hz2]
  iexists _; isplitr
  swap; · iexact HS
  ipureintro
  refine (View.read_writes_eq_canon _ _ _ (fun y => ⟨_, List.mem_cons_self, View.mem_set_unit_zero (S := S1x1) hz2 inb_S1x1_S1x1_0_0 y⟩)).trans ?_
  refine (View.canon_cons_unit_zero (S := S1x1) hz2 inb_S1x1_S1x1_0_0 _ _).trans ?_
  sl_unfold_run_names
  simp only [View.readAt_eq_ld, View.ld_unit_zero (S := S10000x1) hz2, View.ld_unit_zero (S := S1x1) hz2, View.readCov_unit_zero (S := S1x1) _ hz2]

/-! ## The obligation at a point -/

/-- The invariant at a point's start, restated at the point's number. -/
theorem PhiS4_castSucc (c : Dev nD) (t : Fin cfg4.N) :
    (dat4 V c).Φ t.castSucc = PhiS4 V c t.val (Nat.le_of_lt t.isLt) := by
  dsimp only [dat4]; simp only [Fin.coe_castSucc]

/-- The running maximum after the first point. -/
theorem acc4_first (c : Dev nD) (t : Fin cfg4.N) (h0 : t.val = 0) :
    acc4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

/-- The running maximum after a later point, from the one before. -/
theorem acc4_later (c : Dev nD) (t : Fin cfg4.N) (h0 : ¬t.val = 0) :
    acc4 V c t.val t.isLt
      = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl h0
  | succ n => rfl

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the output's buffer as it was found at every point but the last. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 2000000 in
/-- The body at any point. The inputs' buffers hold their blocks. At the first point the invariant is the launch's:
    the scratch at anything; the body leaves it at the first running maximum. At a later point the invariant hands the
    scratch at the running maximum the point before left, and the body leaves it at this point's. The output's buffer
    comes back untouched, except at the last point, where it comes back at the final running maximum. The other
    regions' scoped buffers and the generator register pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases h0 : t.val = 0
  · have h9 : ¬t.val = 9 := by omega
    rw [Dat.leavesExact_idle (dat4 V c) 2 t (idleAt4_2 t h9) (noFlush4_2 t h9)]
    rw [acc4_first V c t h0, PhiS4_castSucc V c t, PhiS4_zero V c _ _ h0, PhiA4_eq]
    iintro ⟨⟨HS, Hr, Hg⟩, Ho, ⟨%d0, H0⟩, ⟨%d1, H1⟩, ⟨%d2, H2⟩⟩
    iapply (sound_kernel4_A c Set.univ (grid4.coords t) ((hcond4_0 t).mpr h0) (fun h => h9 ((hcond4_1 t).mp h)) _ _ _ _ _ _ _ _ (iblk4 V c 0 t) (iblk4 V c 1 t) _ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · by_cases h9 : t.val = 9
    · rw [show (dat4 V c).leavesExact 2 t = owns (c : Thread nD τ) (st4_2 t) fullShare ((dat4 V c).after 2 t) from by
        unfold Dat.leavesExact; rw [liveAt4_2 t h9], after4_2]
      rw [acc4_later V c t h0, PhiS4_castSucc V c t, PhiS4_pos V c _ _ h0]
      iintro ⟨⟨HS, Hr, Hg⟩, Ho, ⟨%d0, H0⟩, ⟨%d1, H1⟩, ⟨%d2, H2⟩⟩
      iapply (sound_kernel4_C c Set.univ (grid4.coords t) (fun h => h0 ((hcond4_0 t).mp h)) ((hcond4_1 t).mpr h9) _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [Dat.leavesExact_idle (dat4 V c) 2 t (idleAt4_2 t h9) (noFlush4_2 t h9)]
      rw [acc4_later V c t h0, PhiS4_castSucc V c t, PhiS4_pos V c _ _ h0]
      iintro ⟨⟨HS, Hr, Hg⟩, Ho, ⟨%d0, H0⟩, ⟨%d1, H1⟩, ⟨%d2, H2⟩⟩
      iapply (sound_kernel4_B c Set.univ (grid4.coords t) (fun h => h0 ((hcond4_0 t).mp h)) (fun h => h9 ((hcond4_1 t).mp h)) _ _ _ _ _ _ _ _ (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The pipeline's obligation on the body, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest back: the scratch's contents are forgotten. -/
theorem hout4 (c : Dev nD) : (dat4 V c).Φ (Fin.last cfg4.N) ⊢ (Pipeline.ΦA spec4 c : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨HS, Hr, Hg⟩
  isplitl [HS]; · iexists _; iexact HS
  isplitl [Hr]; · iexact Hr
  iexact Hg

end Cert.KernelIdeal.Hand

end
-- ==== Proof.KI.Chain.lean ====
/- The contents of the core's unscoped buffers between the items of the program, from the launch to the return: a
  host stretch leaves what its operations compute from what it found; a kernel region leaves its arrays at what
  its pipeline's write-backs make of them (its inputs as found, its output at the blocks the points wrote) and every
  other buffer as found. Stated here with the facts later modules need: each region's arrays read back, every
  buffer an item does not write passed through, and the program's arguments, which no item writes, read back at the
  end as launched.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.Gen.KernelIdeal.Regions
import proofs.«130239_j40776419508957_1_alg».proof.Proof.KI.Reg0
import proofs.«130239_j40776419508957_1_alg».proof.Proof.KI.Reg1
import proofs.«130239_j40776419508957_1_alg».proof.Proof.KI.Reg2
import proofs.«130239_j40776419508957_1_alg».proof.Proof.KI.Reg3
import proofs.«130239_j40776419508957_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take as the arrays it finds. -/
abbrev atTc (W : Dev nD → Valuation τ sig (Elt F)) : (c : Dev nD) → (b : Ref sig .tc) → Buf (Elt F) ((c : Thread nD τ).loc b) :=
  fun c b => W c b

/-- Core c's buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After region 0: its arrays at what the pipeline leaves, every other buffer as found. -/
def W2 (c : Dev nD) : Valuation τ sig (Elt F) :=
  Pipeline.withArrays spec0 c (W1 m c) fun w => (dat0 (atTc (W1 m)) c).arrAt w cfg0.N
theorem W2_arr (c : Dev nD) (w : Fin cfg0.W) :
    W2 m c (Proc.devRef .tc (Pipeline.arrRef spec0 w)) = (dat0 (atTc (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array passes through the region unchanged. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (atTc (W1 m)) c).arrAt_in w hw _).trans (A_eq0 (atTc (W1 m)) c w))
/-- The two facts the region's exit takes: each of its arrays holds what the pipeline leaves, every other buffer what it held. -/
theorem hF0 (c : Dev nD) (w : Fin cfg0.W) :
    (dat0 (atTc (W1 m)) c).arrAt w cfg0.N = atTc (W2 m) c (Pipeline.arrRef spec0 w) :=
  (W2_arr m c w).symm
theorem hrest0 (c : Dev nD) : ∀ b, b ∉ Finset.univ.image (Pipeline.arrRef spec0) → atTc (W2 m) c b = atTc (W1 m) c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- After the host stretch `hostOps1_1`. -/
abbrev W4 : Dev nD → Valuation τ sig (Elt F) := fun c => StableHlo.after hostOps1_1 (W3 m c)
/-- After the host stretch `hostOps1_2`. -/
abbrev W5 : Dev nD → Valuation τ sig (Elt F) := fun c => StableHlo.after hostOps1_2 (W4 m c)
/-- After the host stretch `hostOps1_3`. -/
abbrev W6 : Dev nD → Valuation τ sig (Elt F) := fun c => StableHlo.after hostOps1_3 (W5 m c)
/-- After the host stretch `hostOps1_4`. -/
abbrev W7 : Dev nD → Valuation τ sig (Elt F) := fun c => StableHlo.after hostOps1_4 (W6 m c)
/-- After region 1: its arrays at what the pipeline leaves, every other buffer as found. -/
def W8 (c : Dev nD) : Valuation τ sig (Elt F) :=
  Pipeline.withArrays spec1 c (W7 m c) fun w => (dat1 (atTc (W7 m)) c).arrAt w cfg1.N
theorem W8_arr (c : Dev nD) (w : Fin cfg1.W) :
    W8 m c (Proc.devRef .tc (Pipeline.arrRef spec1 w)) = (dat1 (atTc (W7 m)) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- An input window's array passes through the region unchanged. -/
theorem W8_in (c : Dev nD) (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (atTc (W7 m)) c).arrAt_in w hw _).trans (A_eq1 (atTc (W7 m)) c w))
/-- The two facts the region's exit takes: each of its arrays holds what the pipeline leaves, every other buffer what it held. -/
theorem hF1 (c : Dev nD) (w : Fin cfg1.W) :
    (dat1 (atTc (W7 m)) c).arrAt w cfg1.N = atTc (W8 m) c (Pipeline.arrRef spec1 w) :=
  (W8_arr m c w).symm
theorem hrest1 (c : Dev nD) : ∀ b, b ∉ Finset.univ.image (Pipeline.arrRef spec1) → atTc (W8 m) c b = atTc (W7 m) c b :=
  fun b hb => W8_of_ne m c b fun w e => hb (Finset.mem_image.mpr ⟨w, Finset.mem_univ _, e⟩)
/-- After the host stretch `hostOps2`. -/
abbrev W9 : Dev nD → Valuation τ sig (Elt F) := fun c => StableHlo.after hostOps2 (W8 m c)
/-- After region 2: its arrays at what the pipeline leaves, every other buffer as found. -/
def W10 (c : Dev nD) : Valuation τ sig (Elt F) :=
  Pipeline.withArrays spec2 c (W9 m c) fun w => (dat2 (atTc (W9 m)) c).arrAt w cfg2.N
theorem W10_arr (c : Dev nD) (w : Fin cfg2.W) :
    W10 m c (Proc.devRef .tc (Pipeline.arrRef spec2 w)) = (dat2 (atTc (W9 m)) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- An input window's array passes through the region unchanged. -/
theorem W10_in (c : Dev nD) (w : Fin cfg2.W) (hw : (cfg2.win w).isOut = false) :
    W10 m c (Proc.devRef .tc (Pipeline.arrRef spec2 w)) = W9 m c (Proc.devRef .tc (Pipeline.arrRef spec2 w)) :=
  (W10_arr m c w).trans (((dat2 (atTc (W9 m)) c).arrAt_in w hw _).trans (A_eq2 (atTc (W9 m)) c w))
/-- The two facts the region's exit takes: each of its arrays holds what the pipeline leaves, every other buffer what it held. -/
theorem hF2 (c : Dev nD) (w : Fin cfg2.W) :
    (dat2 (atTc (W9 m)) c).arrAt w cfg2.N = atTc (W10 m) c (Pipeline.arrRef spec2 w) :=
  (W10_arr m c w).symm
theorem hrest2 (c : Dev nD) : ∀ b, b ∉ Finset.univ.image (Pipeline.arrRef spec2) → atTc (W10 m) c b = atTc (W9 m) c b :=
  fun b hb => W10_of_ne m c b fun w e => hb (Finset.mem_image.mpr ⟨w, Finset.mem_univ _, e⟩)
/-- After the host stretch `hostOps3`. -/
abbrev W11 : Dev nD → Valuation τ sig (Elt F) := fun c => StableHlo.after hostOps3 (W10 m c)
/-- After region 3: its arrays at what the pipeline leaves, every other buffer as found. -/
def W12 (c : Dev nD) : Valuation τ sig (Elt F) :=
  Pipeline.withArrays spec3 c (W11 m c) fun w => (dat3 (atTc (W11 m)) c).arrAt w cfg3.N
theorem W12_arr (c : Dev nD) (w : Fin cfg3.W) :
    W12 m c (Proc.devRef .tc (Pipeline.arrRef spec3 w)) = (dat3 (atTc (W11 m)) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
/-- An input window's array passes through the region unchanged. -/
theorem W12_in (c : Dev nD) (w : Fin cfg3.W) (hw : (cfg3.win w).isOut = false) :
    W12 m c (Proc.devRef .tc (Pipeline.arrRef spec3 w)) = W11 m c (Proc.devRef .tc (Pipeline.arrRef spec3 w)) :=
  (W12_arr m c w).trans (((dat3 (atTc (W11 m)) c).arrAt_in w hw _).trans (A_eq3 (atTc (W11 m)) c w))
/-- The two facts the region's exit takes: each of its arrays holds what the pipeline leaves, every other buffer what it held. -/
theorem hF3 (c : Dev nD) (w : Fin cfg3.W) :
    (dat3 (atTc (W11 m)) c).arrAt w cfg3.N = atTc (W12 m) c (Pipeline.arrRef spec3 w) :=
  (W12_arr m c w).symm
theorem hrest3 (c : Dev nD) : ∀ b, b ∉ Finset.univ.image (Pipeline.arrRef spec3) → atTc (W12 m) c b = atTc (W11 m) c b :=
  fun b hb => W12_of_ne m c b fun w e => hb (Finset.mem_image.mpr ⟨w, Finset.mem_univ _, e⟩)
/-- After the host stretch `hostOps4`. -/
abbrev W13 : Dev nD → Valuation τ sig (Elt F) := fun c => StableHlo.after hostOps4 (W12 m c)
/-- After region 4: its arrays at what the pipeline leaves, every other buffer as found. -/
def W14 (c : Dev nD) : Valuation τ sig (Elt F) :=
  Pipeline.withArrays spec4 c (W13 m c) fun w => (dat4 (atTc (W13 m)) c).arrAt w cfg4.N
theorem W14_arr (c : Dev nD) (w : Fin cfg4.W) :
    W14 m c (Proc.devRef .tc (Pipeline.arrRef spec4 w)) = (dat4 (atTc (W13 m)) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
/-- An input window's array passes through the region unchanged. -/
theorem W14_in (c : Dev nD) (w : Fin cfg4.W) (hw : (cfg4.win w).isOut = false) :
    W14 m c (Proc.devRef .tc (Pipeline.arrRef spec4 w)) = W13 m c (Proc.devRef .tc (Pipeline.arrRef spec4 w)) :=
  (W14_arr m c w).trans (((dat4 (atTc (W13 m)) c).arrAt_in w hw _).trans (A_eq4 (atTc (W13 m)) c w))
/-- The two facts the region's exit takes: each of its arrays holds what the pipeline leaves, every other buffer what it held. -/
theorem hF4 (c : Dev nD) (w : Fin cfg4.W) :
    (dat4 (atTc (W13 m)) c).arrAt w cfg4.N = atTc (W14 m) c (Pipeline.arrRef spec4 w) :=
  (W14_arr m c w).symm
theorem hrest4 (c : Dev nD) : ∀ b, b ∉ Finset.univ.image (Pipeline.arrRef spec4) → atTc (W14 m) c b = atTc (W13 m) c b :=
  fun b hb => W14_of_ne m c b fun w e => hb (Finset.mem_image.mpr ⟨w, Finset.mem_univ _, e⟩)

/-! ## What a host stretch does not write, it leaves -/
theorem W1_of (c : Dev nD) (r : Ref sig .tc) (hr : r ∉ hostOps0_W) : W1 m c r = W0 m c r :=
  StableHlo.after_of_writes_sub hostOps0 _ hostOps0_writes hr
theorem W3_of (c : Dev nD) (r : Ref sig .tc) (hr : r ∉ hostOps1_W) : W3 m c r = W2 m c r :=
  StableHlo.after_of_writes_sub hostOps1 _ hostOps1_writes hr
theorem W4_of (c : Dev nD) (r : Ref sig .tc) (hr : r ∉ hostOps1_1_W) : W4 m c r = W3 m c r :=
  StableHlo.after_of_writes_sub hostOps1_1 _ hostOps1_1_writes hr
theorem W5_of (c : Dev nD) (r : Ref sig .tc) (hr : r ∉ hostOps1_2_W) : W5 m c r = W4 m c r :=
  StableHlo.after_of_writes_sub hostOps1_2 _ hostOps1_2_writes hr
theorem W6_of (c : Dev nD) (r : Ref sig .tc) (hr : r ∉ hostOps1_3_W) : W6 m c r = W5 m c r :=
  StableHlo.after_of_writes_sub hostOps1_3 _ hostOps1_3_writes hr
theorem W7_of (c : Dev nD) (r : Ref sig .tc) (hr : r ∉ hostOps1_4_W) : W7 m c r = W6 m c r :=
  StableHlo.after_of_writes_sub hostOps1_4 _ hostOps1_4_writes hr
theorem W9_of (c : Dev nD) (r : Ref sig .tc) (hr : r ∉ hostOps2_W) : W9 m c r = W8 m c r :=
  StableHlo.after_of_writes_sub hostOps2 _ hostOps2_writes hr
theorem W11_of (c : Dev nD) (r : Ref sig .tc) (hr : r ∉ hostOps3_W) : W11 m c r = W10 m c r :=
  StableHlo.after_of_writes_sub hostOps3 _ hostOps3_writes hr
theorem W13_of (c : Dev nD) (r : Ref sig .tc) (hr : r ∉ hostOps4_W) : W13 m c r = W12 m c r :=
  StableHlo.after_of_writes_sub hostOps4 _ hostOps4_writes hr

/-! ## The arguments reach the end as launched -/
theorem W14_main_arg0 (c : Dev nD) : W14 m c (Proc.devRef .tc main_arg0) = m ((c : Thread nD τ).loc main_arg0) :=
  (W14_of_ne m c main_arg0 (by decide)).trans <| (W13_of m c main_arg0 (by decide)).trans <| (W12_of_ne m c main_arg0 (by decide)).trans <| (W11_of m c main_arg0 (by decide)).trans <| (W10_of_ne m c main_arg0 (by decide)).trans <| (W9_of m c main_arg0 (by decide)).trans <| (W8_of_ne m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_in m c 0 rfl).trans <| (W1_of m c main_arg0 (by decide)).trans rfl
theorem W14_main_arg1 (c : Dev nD) : W14 m c (Proc.devRef .tc main_arg1) = m ((c : Thread nD τ).loc main_arg1) :=
  (W14_of_ne m c main_arg1 (by decide)).trans <| (W13_of m c main_arg1 (by decide)).trans <| (W12_of_ne m c main_arg1 (by decide)).trans <| (W11_of m c main_arg1 (by decide)).trans <| (W10_of_ne m c main_arg1 (by decide)).trans <| (W9_of m c main_arg1 (by decide)).trans <| (W8_of_ne m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_in m c 1 rfl).trans <| (W1_of m c main_arg1 (by decide)).trans rfl
theorem W14_main_arg2 (c : Dev nD) : W14 m c (Proc.devRef .tc main_arg2) = m ((c : Thread nD τ).loc main_arg2) :=
  (W14_of_ne m c main_arg2 (by decide)).trans <| (W13_of m c main_arg2 (by decide)).trans <| (W12_of_ne m c main_arg2 (by decide)).trans <| (W11_of m c main_arg2 (by decide)).trans <| (W10_of_ne m c main_arg2 (by decide)).trans <| (W9_of m c main_arg2 (by decide)).trans <| (W8_of_ne m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of_ne m c main_arg2 (by decide)).trans <| (W1_of m c main_arg2 (by decide)).trans rfl
theorem W14_main_arg3 (c : Dev nD) : W14 m c (Proc.devRef .tc main_arg3) = m ((c : Thread nD τ).loc main_arg3) :=
  (W14_of_ne m c main_arg3 (by decide)).trans <| (W13_of m c main_arg3 (by decide)).trans <| (W12_of_ne m c main_arg3 (by decide)).trans <| (W11_of m c main_arg3 (by decide)).trans <| (W10_of_ne m c main_arg3 (by decide)).trans <| (W9_of m c main_arg3 (by decide)).trans <| (W8_of_ne m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of_ne m c main_arg3 (by decide)).trans <| (W1_of m c main_arg3 (by decide)).trans rfl
theorem W14_main_arg4 (c : Dev nD) : W14 m c (Proc.devRef .tc main_arg4) = m ((c : Thread nD τ).loc main_arg4) :=
  (W14_of_ne m c main_arg4 (by decide)).trans <| (W13_of m c main_arg4 (by decide)).trans <| (W12_of_ne m c main_arg4 (by decide)).trans <| (W11_of m c main_arg4 (by decide)).trans <| (W10_of_ne m c main_arg4 (by decide)).trans <| (W9_of m c main_arg4 (by decide)).trans <| (W8_of_ne m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of_ne m c main_arg4 (by decide)).trans <| (W1_of m c main_arg4 (by decide)).trans rfl
theorem W14_main_arg5 (c : Dev nD) : W14 m c (Proc.devRef .tc main_arg5) = m ((c : Thread nD τ).loc main_arg5) :=
  (W14_of_ne m c main_arg5 (by decide)).trans <| (W13_of m c main_arg5 (by decide)).trans <| (W12_of_ne m c main_arg5 (by decide)).trans <| (W11_of m c main_arg5 (by decide)).trans <| (W10_of_ne m c main_arg5 (by decide)).trans <| (W9_of m c main_arg5 (by decide)).trans <| (W8_of_ne m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of_ne m c main_arg5 (by decide)).trans <| (W1_of m c main_arg5 (by decide)).trans rfl

end Cert.KernelIdeal.Hand

end
-- ==== Proof.KI.Data.lean ====
/-
  What the run of the whole program is assembled from: every region's proof data at the contents the region finds
  (a literal case split on the region's number), and the resources that ride beside the buffers through every item:
  the core's generator register at some state and the fact that the core owes no signal to anyone.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every region's proof data, each at the contents its region finds. -/
def pdats : (p : Fin 5) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W7 m)) c
  | ⟨2, _⟩ => fun c => dat2 (atTc (W9 m)) c
  | ⟨3, _⟩ => fun c => dat3 (atTc (W11 m)) c
  | ⟨4, _⟩ => fun c => dat4 (atTc (W13 m)) c

/-- No core waits on another: no level is assigned. -/
abbrev noLevels : GSem nD τ sig → Finset Unit := fun _ => ∅
abbrev levelZero : GSem nD τ sig → Unit → ℕ := fun _ _ => 0

/-- What rides beside the buffers through every item: the generator register at some state, and nothing owed. -/
abbrev rest (c : Dev nD) : sProp 𝕄 := iprop((∃ r, prngReg c r) ∗ ∃ W, owes (c : Thread nD τ) (0 : CellTallies nD τ sig Unit) W)

/-- A host stretch as an item of the run: its operations over the unscoped buffers from the contents W, the rest riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- The last thread state without the owing part: every unscoped buffer at the last contents, the generator register at some state. -/
abbrev lastState (c : Dev nD) : sProp 𝕄 := iprop(StableHlo.held (c : Thread nD τ) (Pipeline.ucRefs τ sig) (W14 m c) ∗ ∃ r, prngReg c r)

end Cert.KernelIdeal.Hand

end
-- ==== Proof.KI.Seg0.lean ====
/-
  Region 0 as an item of the run. It is entered with every unscoped buffer at the contents the first host stretch
  leaves and is left with its output array at what the pipeline's write-backs make of it, every other buffer as
  found: the region's arrays are split out of the unscoped buffers at entry and put back at exit; the generator
  register goes into the region's invariant and comes back; nothing is owed; the kernel has no semaphore of its own.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item0 : Pipeline.RegionSeg (pcfgs (F := F)) adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ noLevels levelZero 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/- Region 1 as an item of the run. It is entered with every unscoped buffer at the contents the host stretches before it leave and is left with
  its output array at what the pipeline's write-backs make of it, every other buffer as found: the region's arrays
  are split out of the unscoped buffers at entry and put back at exit; the generator register goes into the region's
  invariant and comes back; nothing is owed; the kernel has no semaphore of its own.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item1 : Pipeline.RegionSeg (pcfgs (F := F)) adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (atTc (W7 m)) c).loose
  hwaits := Pipeline.hwaits_of_owed_zero _ _ _ _ noLevels levelZero 1 fun _ _ => rfl
  pre c := iprop(StableHlo.held (c : Thread nD τ) (Pipeline.ucRefs τ sig) (W7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := UR sig nD τ) (Lvl := ℕ) spec1 c (atTc (W7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W7 m) c) (atTc (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/- Region 2 as an item of the run. It is entered with every unscoped buffer at the contents the host stretch before it leaves and is left with
  its output array at what the pipeline's write-backs make of it, every other buffer as found: the region's arrays
  are split out of the unscoped buffers at entry and put back at exit; the generator register goes into the region's
  invariant and comes back; nothing is owed; the kernel has no semaphore of its own.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item2 : Pipeline.RegionSeg (pcfgs (F := F)) adm (pdats m) () defs₀ Variants.none noLevels levelZero 2 where
  win := launch2.win.to₀
  block_pos := launch2.block_pos
  stage_whole := launch2.stage_whole
  K := PEmpty
  osem k := k.elim
  ho := Pipeline.OwnSemFacts.none _
  hbody c := (body_obligation2 (atTc (W9 m)) c).loose
  hwaits := Pipeline.hwaits_of_owed_zero _ _ _ _ noLevels levelZero 2 fun _ _ => rfl
  pre c := iprop(StableHlo.held (c : Thread nD τ) (Pipeline.ucRefs τ sig) (W9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := UR sig nD τ) (Lvl := ℕ) spec2 c (atTc (W9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W9 m) c) (atTc (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/- Region 3 as an item of the run. It is entered with every unscoped buffer at the contents the host stretch before it leaves and is left with
  its output array at what the pipeline's write-backs make of it, every other buffer as found: the region's arrays
  are split out of the unscoped buffers at entry and put back at exit; the generator register goes into the region's
  invariant and comes back; nothing is owed; the kernel has no semaphore of its own.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item3 : Pipeline.RegionSeg (pcfgs (F := F)) adm (pdats m) () defs₀ Variants.none noLevels levelZero 3 where
  win := launch3.win.to₀
  block_pos := launch3.block_pos
  stage_whole := launch3.stage_whole
  K := PEmpty
  osem k := k.elim
  ho := Pipeline.OwnSemFacts.none _
  hbody c := (body_obligation3 (atTc (W11 m)) c).loose
  hwaits := Pipeline.hwaits_of_owed_zero _ _ _ _ noLevels levelZero 3 fun _ _ => rfl
  pre c := iprop(StableHlo.held (c : Thread nD τ) (Pipeline.ucRefs τ sig) (W11 m c) ∗ rest c)
  post c := iprop(StableHlo.held (c : Thread nD τ) (Pipeline.ucRefs τ sig) (W12 m c) ∗ rest c)
  X c := iprop(∃ r, prngReg c r)
  Y c := iprop(∃ r, prngReg c r)
  Z c := Pipeline.unscopedRest (Ix := Unit) (Name := ℕ) (U := UR sig nD τ) (Lvl := ℕ) spec3 c (atTc (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W11 m) c) (atTc (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 as the last item of the run. It is entered with every unscoped buffer at the contents the host stretch
  before it leaves and is left with its one-element output array at what the last point's write-back makes of it,
  every other buffer as found. Its invariant carries the running maximum in the scratch from point to point: what the
  launch hands the region is the invariant before the first point, and after the last point the invariant gives the
  scoped buffers back with the scratch's contents forgotten. Nothing is owed; the kernel has no semaphore of its own.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def item4 : Pipeline.RegionSeg (pcfgs (F := F)) adm (pdats m) () defs₀ Variants.none noLevels levelZero 4 where
  win := launch4.win.to₀
  block_pos := launch4.block_pos
  stage_whole := launch4.stage_whole
  K := PEmpty
  osem k := k.elim
  ho := Pipeline.OwnSemFacts.none _
  hbody c := (body_obligation4 (atTc (W13 m)) c).loose
  hwaits := Pipeline.hwaits_of_owed_zero _ _ _ _ noLevels levelZero 4 fun _ _ => rfl
  pre c := iprop(StableHlo.held (c : Thread nD τ) (Pipeline.ucRefs τ sig) (W13 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (atTc (W13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (atTc (W13 m)) c
    unfold Pipeline.ΦA at h
    rw [show (pdats m 4 c).Φ 0 = (dat4 (atTc (W13 m)) c).Φ 0 from rfl]
    iintro ⟨Hp, -, Hr⟩
    iapply h
    isplitl [Hr]; · iexact Hr
    iexact Hp
  hout c := by
    rw [Pipeline.ownSems0_none]
    have h := hout4 (atTc (W13 m)) c
    unfold Pipeline.ΦA at h
    rw [show (pdats m 4 c).Φ (Fin.last _) = (dat4 (atTc (W13 m)) c).Φ (Fin.last _) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W13 m) c) (atTc (W14 m) c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
/-
  The run of the whole program. Its fourteen items in order, nine host stretches and five kernel regions, each entered
  from the contents the item before leaves; the program is the run of that list; and the launch: from any memory with
  zero semaphore counters every weakly fair execution terminates without a fault, and at the end every unscoped
  buffer of every core holds the last contents of the chain. Read at the arguments that is the frame (no item writes
  an argument); read at the result buffer it is what region 4's write-back left there.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.KI.Seg0
import proofs.«130239_j40776419508957_1_alg».proof.Proof.KI.Seg1
import proofs.«130239_j40776419508957_1_alg».proof.Proof.KI.Seg2
import proofs.«130239_j40776419508957_1_alg».proof.Proof.KI.Seg3
import proofs.«130239_j40776419508957_1_alg».proof.Proof.KI.Seg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's fourteen items in order: a host item per stretch from the contents it finds, a region per kernel call. -/
abbrev items : List (Pipeline.Seg (pcfgs (F := F)) adm (pdats m) () defs₀ Variants.none noLevels levelZero) :=
  [ .host (hostItem hostOps0 hostOps0_sub hostOps0_fresh (W0 m)),
    .region (item0 m),
    .host (hostItem hostOps1 hostOps1_sub hostOps1_fresh (W2 m)),
    .host (hostItem hostOps1_1 hostOps1_1_sub hostOps1_1_fresh (W3 m)),
    .host (hostItem hostOps1_2 hostOps1_2_sub hostOps1_2_fresh (W4 m)),
    .host (hostItem hostOps1_3 hostOps1_3_sub hostOps1_3_fresh (W5 m)),
    .host (hostItem hostOps1_4 hostOps1_4_sub hostOps1_4_fresh (W6 m)),
    .region (item1 m),
    .host (hostItem hostOps2 hostOps2_sub hostOps2_fresh (W8 m)),
    .region (item2 m),
    .host (hostItem hostOps3 hostOps3_sub hostOps3_fresh (W10 m)),
    .region (item3 m),
    .host (hostItem hostOps4 hostOps4_sub hostOps4_fresh (W12 m)),
    .region (item4 m) ]

/-- The program is the run of its items. -/
theorem main_items (c : Dev nD) : main (F := F) c = Pipeline.Seg.run (items m) := by
  rw [main_chain c, Pipeline.Seg.run_eq_chain]
  rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and at the end every unscoped buffer of every core holds the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ Variants.none noLevels levelZero m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c)⟩) (run_all m ρ)

/-- THE RESULT: beside the frame, the result buffer ends at what region 4's write-back left in its output array. -/
theorem run_result : θ_run defs (onTc (τ := τ) (main (F := F))) ⟨m, fun _ => 0, ρ⟩ (fun r => ∀ c : Dev nD,
      r.2.mem ((c.tc : Thread nD τ).loc main_v62) = W14 m c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v62 (by decide)),
     (h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c)⟩) (run_all m ρ)

end Cert.KernelIdeal.Hand

end
-- ==== Proof.KI.Keeps.lean ====
/- A buffer that one item of the program writes and a later item reads holds, when it is read, what it held when it
  was written: no item in between writes it (a host stretch writes only its own results, a region only its output
  array). One fact per such buffer and pair of items, and the arguments, which nothing writes, at the items that read them.
-/
import proofs.«130239_j40776419508957_1_alg».proof.Proof.Gen.KernelIdeal.Launch
import proofs.«130239_j40776419508957_1_alg».proof.Proof.Gen.KernelIdeal.Skeleton
import proofs.«130239_j40776419508957_1_alg».proof.Proof.Gen.KernelIdeal.Points
import proofs.«130239_j40776419508957_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem keep_main_v29_2_6 (c : Dev nD) : W6 m c (Proc.devRef .tc main_v29) = W2 m c (Proc.devRef .tc main_v29) :=
  (W6_of m c main_v29 (by decide)).trans <| (W5_of m c main_v29 (by decide)).trans <| (W4_of m c main_v29 (by decide)).trans (W3_of m c main_v29 (by decide))
theorem keep_main_v30_4_6 (c : Dev nD) : W6 m c (Proc.devRef .tc main_v30) = W4 m c (Proc.devRef .tc main_v30) :=
  (W6_of m c main_v30 (by decide)).trans (W5_of m c main_v30 (by decide))
theorem keep_main_v5_1_3 (c : Dev nD) : W3 m c (Proc.devRef .tc main_v5) = W1 m c (Proc.devRef .tc main_v5) :=
  (W3_of m c main_v5 (by decide)).trans (W2_of_ne m c main_v5 (by decide))
theorem keep_main_v28_1_5 (c : Dev nD) : W5 m c (Proc.devRef .tc main_v28) = W1 m c (Proc.devRef .tc main_v28) :=
  (W5_of m c main_v28 (by decide)).trans <| (W4_of m c main_v28 (by decide)).trans <| (W3_of m c main_v28 (by decide)).trans (W2_of_ne m c main_v28 (by decide))
theorem keep_main_v6_1_8 (c : Dev nD) : W8 m c (Proc.devRef .tc main_v6) = W1 m c (Proc.devRef .tc main_v6) :=
  (W8_of_ne m c main_v6 (by decide)).trans <| (W7_of m c main_v6 (by decide)).trans <| (W6_of m c main_v6 (by decide)).trans <| (W5_of m c main_v6 (by decide)).trans <| (W4_of m c main_v6 (by decide)).trans <| (W3_of m c main_v6 (by decide)).trans (W2_of_ne m c main_v6 (by decide))
theorem keep_main_v5_1_12 (c : Dev nD) : W12 m c (Proc.devRef .tc main_v5) = W1 m c (Proc.devRef .tc main_v5) :=
  (W12_of_ne m c main_v5 (by decide)).trans <| (W11_of m c main_v5 (by decide)).trans <| (W10_of_ne m c main_v5 (by decide)).trans <| (W9_of m c main_v5 (by decide)).trans <| (W8_of_ne m c main_v5 (by decide)).trans <| (W7_of m c main_v5 (by decide)).trans <| (W6_of m c main_v5 (by decide)).trans <| (W5_of m c main_v5 (by decide)).trans <| (W4_of m c main_v5 (by decide)).trans <| (W3_of m c main_v5 (by decide)).trans (W2_of_ne m c main_v5 (by decide))
theorem keep_main_v6_1_12 (c : Dev nD) : W12 m c (Proc.devRef .tc main_v6) = W1 m c (Proc.devRef .tc main_v6) :=
  (W12_of_ne m c main_v6 (by decide)).trans <| (W11_of m c main_v6 (by decide)).trans <| (W10_of_ne m c main_v6 (by decide)).trans <| (W9_of m c main_v6 (by decide)).trans <| (W8_of_ne m c main_v6 (by decide)).trans <| (W7_of m c main_v6 (by decide)).trans <| (W6_of m c main_v6 (by decide)).trans <| (W5_of m c main_v6 (by decide)).trans <| (W4_of m c main_v6 (by decide)).trans <| (W3_of m c main_v6 (by decide)).trans (W2_of_ne m c main_v6 (by decide))
theorem keep_main_v28_1_12 (c : Dev nD) : W12 m c (Proc.devRef .tc main_v28) = W1 m c (Proc.devRef .tc main_v28) :=
  (W12_of_ne m c main_v28 (by decide)).trans <| (W11_of m c main_v28 (by decide)).trans <| (W10_of_ne m c main_v28 (by decide)).trans <| (W9_of m c main_v28 (by decide)).trans <| (W8_of_ne m c main_v28 (by decide)).trans <| (W7_of m c main_v28 (by decide)).trans <| (W6_of m c main_v28 (by decide)).trans <| (W5_of m c main_v28 (by decide)).trans <| (W4_of m c main_v28 (by decide)).trans <| (W3_of m c main_v28 (by decide)).trans (W2_of_ne m c main_v28 (by decide))
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of_ne m c main_arg2 (by decide)).trans <| (W1_of m c main_arg2 (by decide)).trans rfl
theorem W10_main_arg3 (c : Dev nD) : W10 m c (Proc.devRef .tc main_arg3) = m ((c : Thread nD τ).loc main_arg3) :=
  (W10_of_ne m c main_arg3 (by decide)).trans <| (W9_of m c main_arg3 (by decide)).trans <| (W8_of_ne m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of_ne m c main_arg3 (by decide)).trans <| (W1_of m c main_arg3 (by decide)).trans rfl
theorem W12_main_arg4 (c : Dev nD) : W12 m c (Proc.devRef .tc main_arg4) = m ((c : Thread nD τ).loc main_arg4) :=
  (W12_of_ne m c main_arg4 (by decide)).trans <| (W11_of m c main_arg4 (by decide)).trans <| (W10_of_ne m c main_arg4 (by decide)).trans <| (W9_of m c main_arg4 (by decide)).trans <| (W8_of_ne m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of_ne m c main_arg4 (by decide)).trans <| (W1_of m c main_arg4 (by decide)).trans rfl

end Cert.KernelIdeal.Hand

end
-- ==== Proof.KI.Val0.lean ====
/-
  What region 0 leaves in its output array, at the exact instance: every entry (r, j) is x[r, 0] * W1[0, j], which
  is the reference's matrix product of x (one column) with W1 (one row), a sum over a single contracted index.
-/
import proofs.«130239_j40776419508957_1_alg».proof.Proof.KI.Reg0
import proofs.«130239_j40776419508957_1_alg».proof.Proof.Gen.ReferenceIdeal
import proofs.«130239_j40776419508957_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem
open Idealize.ShloMosaic.Pipeline (Dat)
open Idealize.ShloMosaic.ValueIdx

/-- The two zero offsets, however spelt. -/
theorem zeros0 : (![0, 0] : Fin 2 → Nat) = fun _ => 0 := funext fun a => by fin_cases a <;> rfl

/-- A column [a, 1] broadcast to [a, b] reads, at (p, q), the column's entry at row p. -/
private theorem broadcastTo_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The outer product of a column with a row: entry (r, j) is x[r, 0] * w[0, j]. -/
def outer0 (x : Vec Ideal S100000x1 .f32) (w : Vec Ideal S1x64 .f32) : Vec Ideal S100000x64 .f32 :=
  fun i => x (ix2 (⟨(i 0).val, (i 0).isLt⟩ : Fin 100000) (0 : Fin 1)) * w (ix2 (0 : Fin 1) (⟨(i 1).val, (i 1).isLt⟩ : Fin 64))

theorem outer0_apply (x : Vec Ideal S100000x1 .f32) (w : Vec Ideal S1x64 .f32) (i : S100000x64.Idx) :
    outer0 x w i = x (ix2 (⟨(i 0).val, (i 0).isLt⟩ : Fin 100000) (0 : Fin 1)) * w (ix2 (0 : Fin 1) (⟨(i 1).val, (i 1).isLt⟩ : Fin 64)) := rfl

/-- The body's arithmetic on one block, at an entry given by coordinates: the block's column entry times the row's. -/
theorem pay0_ix (x0 : Vec Ideal S10000x1 .f32) (x1 : Vec Ideal S1x64 .f32) (p : Fin 10000) (q : Fin 64) :
    k0_pay1 x0 x1 (ix2 p q) = x0 (ix2 p (0 : Fin 1)) * x1 (ix2 (0 : Fin 1) q) := by
  unfold k0_pay1
  show mulf (F := Ideal) (φ := .f32) (broadcastTo S10000x64 (x0 : FVec Ideal S10000x1 .f32) broadcasts_S10000x1_S10000x64)
    (broadcastTo S10000x64 (x1 : FVec Ideal S1x64 .f32) broadcasts_S1x64_S10000x64) (ix2 p q) = _
  rw [mulf_apply, broadcastTo_col_apply, broadcastTo_1b_ab_apply]

/-- The same at any index of the block, the two operands' indices named by their coordinates. -/
theorem pay0_at (x0 : Vec Ideal S10000x1 .f32) (x1 : Vec Ideal S1x64 .f32) (y : S10000x64.Idx) (k0 : S10000x1.Idx) (k1 : S1x64.Idx)
    (h00 : (k0 0).val = (y 0).val) (h01 : (k0 1).val = 0) (h10 : (k1 0).val = 0) (h11 : (k1 1).val = (y 1).val) :
    k0_pay1 x0 x1 y = x0 k0 * x1 k1 := by
  obtain ⟨p, q, rfl⟩ : ∃ (p : Fin 10000) (q : Fin 64), y = ix2 p q := ⟨y 0, y 1, eq_ix2 y⟩
  have e0 : k0 = ix2 p (0 : Fin 1) := funext fun a => Fin.ext (by
    match a with
    | ⟨0, _⟩ => exact h00
    | ⟨1, _⟩ => exact h01)
  have e1 : k1 = ix2 (0 : Fin 1) q := funext fun a => Fin.ext (by
    match a with
    | ⟨0, _⟩ => exact h10
    | ⟨1, _⟩ => exact h11)
  rw [e0, e1]
  exact pay0_ix x0 x1 p q

/-- The reference's product at an index is the one product of its single contracted index. -/
theorem ref0 (x : FVec Ideal S100000x1 .f32) (w : FVec Ideal S1x64 .f32) :
    Host.dotGeneral (F := Ideal) (φ₁ := .f32) (φ₂ := .f32) Cert.ReferenceIdeal.dot_S100000x1_S1x64_S100000x64_1_0_0_1_n_n none x w
      = outer0 x w := by
  funext i
  refine (Cert.ReferenceIdeal.Read.val_main_v29_apply x w i).trans ?_
  rw [Fin.sum_univ_one]
  have el : Cert.ReferenceIdeal.Read.lidx_main_v29 i 0 = ix2 (⟨(i 0).val, (i 0).isLt⟩ : Fin 100000) (0 : Fin 1) :=
    funext fun a => by
      match a with
      | ⟨0, _⟩ => rfl
      | ⟨1, _⟩ => rfl
  have er : Cert.ReferenceIdeal.Read.ridx_main_v29 i 0 = ix2 (0 : Fin 1) (⟨(i 1).val, (i 1).isLt⟩ : Fin 64) :=
    funext fun a => by
      match a with
      | ⟨0, _⟩ => rfl
      | ⟨1, _⟩ => rfl
  rw [el, er]
  rfl

variable (V : (c : Dev nD) → (b : Ref sig .tc) → Buf (Elt Ideal) ((c : Thread nD τ).loc b)) (c : Dev nD)

/-- The index maps over the grid: x's block and the output's block are both at block row t, column block 0; the
    weight row's block is the same (0, 0) at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- x's block at point t, at an entry k: x at row t * 10000 + k's row. -/
theorem xblk0_at (t : Fin cfg0.N) (k : S10000x1.Idx) (i : S100000x1.Idx)
    (h0 : (i 0).val = t.val * 10000 + (k 0).val) (h1 : (i 1).val = (k 1).val) :
    (iblk0 V c 0 t : Vec Ideal S10000x1 .f32) k = (V c main_arg0 : Vec Ideal S100000x1 .f32) i := by
  obtain ⟨e00, e01, -⟩ := idx0 t
  unfold iblk0
  rw [View.read_apply]
  show V c main_arg0 (((cfg0.win 0).blk t).view.emb k) = V c main_arg0 i
  refine congrArg _ (funext fun a => Fin.ext ?_)
  match a with
  | ⟨0, _⟩ => show win0_0.index t (0 : Fin 2) * 10000 + 1 * (k 0).val = (i 0).val; rw [e00, h0]; omega
  | ⟨1, _⟩ => show win0_0.index t (1 : Fin 2) * 1 + 1 * (k 1).val = (i 1).val; rw [e01, h1]; omega

/-- The weight row's block at any point is the weight row. -/
theorem wblk0_at (t : Fin cfg0.N) (k : S1x64.Idx) :
    (iblk0 V c 1 t : Vec Ideal S1x64 .f32) k = (V c main_arg1 : Vec Ideal S1x64 .f32) k := by
  obtain ⟨-, -, e10, e11, -⟩ := idx0 t
  unfold iblk0
  rw [View.read_apply]
  show V c main_arg1 (((cfg0.win 1).blk t).view.emb k) = V c main_arg1 k
  refine congrArg _ (funext fun a => Fin.ext ?_)
  match a with
  | ⟨0, _⟩ => show win0_1.index t (0 : Fin 2) * 1 + 1 * (k 0).val = (k 0).val; rw [e10]; omega
  | ⟨1, _⟩ => show win0_1.index t (1 : Fin 2) * 64 + 1 * (k 1).val = (k 1).val; rw [e11]; omega

/-- What point t writes back is block t of the outer product of the two arrays the region found. -/
theorem flushed0 (t : Fin cfg0.N) :
    (dat0 (F := Ideal) V c).flushed 2 t = ((cfg0.win 2).blk t).view.read (Elt Ideal) (outer0 (V c main_arg0) (V c main_arg1)) := by
  show (cfg0.win 2).cut (grid0.coords t) ((dat0 V c).after 2 t) = _
  rw [after0_2]
  unfold out0_2
  rw [View.canon_unit_zero zeros0]
  simp only [View.ld_unit_zero (S := S10000x1) zeros0, View.ld_unit_zero (S := S1x64) zeros0]
  obtain ⟨-, -, -, -, e20, e21⟩ := idx0 t
  funext j
  have hj0 : (j 0).val < 10000 := (j 0).isLt
  have hj1 : (j 1).val < 64 := (j 1).isLt
  refine (pay0_at (iblk0 V c 0 t) (iblk0 V c 1 t) _ (ix2 (⟨(j 0).val, hj0⟩ : Fin 10000) (0 : Fin 1))
    (ix2 (0 : Fin 1) (⟨(j 1).val, hj1⟩ : Fin 64)) rfl rfl rfl rfl).trans ?_
  refine Eq.trans ?_ (outer0_apply (V c main_arg0) (V c main_arg1) (((cfg0.win 2).blk t).view.emb j)).symm
  have h0 := xblk0_at V c t (ix2 (⟨(j 0).val, hj0⟩ : Fin 10000) (0 : Fin 1))
    (ix2 (⟨((((cfg0.win 2).blk t).view.emb j) 0).val, ((((cfg0.win 2).blk t).view.emb j) 0).isLt⟩ : Fin 100000) (0 : Fin 1))
    (by show win0_2.index t (0 : Fin 2) * 10000 + 1 * (j 0).val = t.val * 10000 + (j 0).val; rw [e20]; omega) rfl
  have h1 := wblk0_at V c t (ix2 (0 : Fin 1) (⟨(j 1).val, hj1⟩ : Fin 64))
  have e1 : (ix2 (0 : Fin 1) (⟨(j 1).val, hj1⟩ : Fin 64) : S1x64.Idx)
      = ix2 (0 : Fin 1) (⟨((((cfg0.win 2).blk t).view.emb j) 1).val, ((((cfg0.win 2).blk t).view.emb j) 1).isLt⟩ : Fin 64) :=
    funext fun a => Fin.ext (by
      match a with
      | ⟨0, _⟩ => rfl
      | ⟨1, _⟩ => show (j 1).val = win0_2.index t (1 : Fin 2) * 64 + 1 * (j 1).val; rw [e21]; omega)
  rw [h0, h1, e1]

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v29).slice (win0_2.rect t)).set ↔ _
  rw [View.set_slice_whole, Rect.mem_set_unit]
  exact Iff.rfl

/-- Every entry (r, j) of the output array is written by the point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, Nat.lt_of_lt_of_eq (by omega) N_0.symm⟩, rfl⟩
  obtain ⟨-, -, -, -, e20, e21⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e20, ht]; omega
  | ⟨1, _⟩ =>
    show win0_2.index t (1 : Fin 2) * 64 ≤ (i 1).val ∧ (i 1).val < win0_2.index t (1 : Fin 2) * 64 + 64
    rw [e21]; omega

/-- So the output array ends holding the outer product. -/
theorem final0 : ((dat0 (F := Ideal) V c).arrAt 2 cfg0.N : FVec Ideal S100000x64 .f32) = outer0 (V c main_arg0) (V c main_arg1) :=
  (dat0 (F := Ideal) V c).arrAt_eq_of_cover 2 (outer0 (V c main_arg0) (V c main_arg1)) (fun t _ => flushed0 V c t) cover0

/-- Region 0's output array after the run is the reference's product of the two arrays the region found. -/
theorem arr0 : ((dat0 (F := Ideal) V c).arrAt 2 cfg0.N : FVec Ideal S100000x64 .f32)
    = Host.dotGeneral (F := Ideal) (φ₁ := .f32) (φ₂ := .f32) Cert.ReferenceIdeal.dot_S100000x1_S1x64_S100000x64_1_0_0_1_n_n none
        (V c main_arg0 : FVec Ideal S100000x1 .f32) (V c main_arg1 : FVec Ideal S1x64 .f32) := by
  rw [ref0]
  exact final0 V c

end Cert.KernelIdeal.HandVal

end
-- ==== Proof.KI.Val1.lean ====
/-
  What region 1 leaves in its output array, at the exact instance: entry (r, j) is g[r, j] * n[r, 0], each gathered
  row scaled by its normalisation coefficient.
-/
import proofs.«130239_j40776419508957_1_alg».proof.Proof.KI.Reg1
import proofs.«130239_j40776419508957_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- Each row of g scaled by the matching entry of the one-column array n. -/
def scaleRows (g : FVec Ideal S1703936x64 .f32) (n : FVec Ideal S1703936x1 .f32) : FVec Ideal S1703936x64 .f32 :=
  fun i => g i * n (ix2 (i 0) 0)

/-- The zero offset of a rank-2 rectangle, as a constant function. -/
theorem offs_zero1 : (![0, 0] : Fin 2 → Nat) = fun _ => 0 :=
  funext fun a => match a with | ⟨0, _⟩ => rfl | ⟨1, _⟩ => rfl

/-- A one-column block broadcast along the columns, read at (p, q), is the block's entry (p, 0). -/
theorem bcast_col1_apply (x1 : Vec Ideal S8192x1 .f32) (p : Fin 8192) (q : Fin 64) :
    broadcastTo S8192x64 x1 broadcasts_S8192x1_S8192x64 (ix2 p q) = x1 (ix2 p 0) :=
  broadcastTo_apply x1 broadcasts_S8192x1_S8192x64 (ix2 p q) (ix2 p 0) fun a =>
    match a with
    | ⟨0, _⟩ => rfl
    | ⟨1, _⟩ => rfl

/-- The body's product at entry (p, q) of the two loaded blocks: the gathered block's entry times its row's coefficient. -/
theorem pay1_apply (x0 : Vec Ideal S8192x64 .f32) (x1 : Vec Ideal S8192x1 .f32) (p : Fin 8192) (q : Fin 64) :
    k1_pay1 x0 x1 (ix2 p q) = x0 (ix2 p q) * x1 (ix2 p 0) := by
  unfold k1_pay1
  simp only [shapeCast_self]
  rw [mulf_apply, bcast_col1_apply]

/-- Over the 208 grid points, each window's block index at point t is (t, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The grid has 208 points. -/
theorem points_count1 : cfg1.N = 208 := by decide +kernel

/-- If a block of g and a block of n hold, at (p, q) and (p, 0), the arrays' entries at i and at (i's row, 0), the
    body's product at (p, q) is the row scaling's entry at i. -/
theorem scaled_entry1 (g : FVec Ideal S1703936x64 .f32) (n : FVec Ideal S1703936x1 .f32)
    (x0 : Vec Ideal S8192x64 .f32) (x1 : Vec Ideal S8192x1 .f32) (p : Fin 8192) (q : Fin 64) (i : S1703936x64.Idx)
    (h0 : x0 (ix2 p q) = g i) (h1 : x1 (ix2 p 0) = n (ix2 (i 0) 0)) :
    k1_pay1 x0 x1 (ix2 p q) = scaleRows g n i := by
  rw [pay1_apply, h0, h1]
  rfl

/-- What point t writes back is block t of the row scaling of the two arrays the region found. -/
theorem written_back1 (t : Fin cfg1.N) :
    (dat1 (F := Ideal) V c).flushed 2 t
      = ((cfg1.win 2).blk t).view.read (Elt Ideal)
          (scaleRows (V c main_v38 : FVec Ideal S1703936x64 .f32) (V c main_v39 : FVec Ideal S1703936x1 .f32)) := by
  show (cfg1.win 2).cut (grid1.coords t) ((dat1 V c).after 2 t) = _
  rw [after1_2]
  unfold out1_2
  rw [View.canon_unit_zero offs_zero1]
  simp only [View.ld_unit_zero (S := S8192x64) offs_zero1, View.ld_unit_zero (S := S8192x1) offs_zero1]
  obtain ⟨a0, a1, b0, b1, o0, o1⟩ := block_index1 t
  funext j
  obtain ⟨p, q, rfl⟩ : ∃ (p : Fin 8192) (q : Fin 64), j = ix2 p q := ⟨j 0, j 1, eq_ix2 j⟩
  refine scaled_entry1 (V c main_v38) (V c main_v39) (iblk1 V c 0 t) (iblk1 V c 1 t) p q
    (((cfg1.win 2).blk t).view.emb (ix2 p q)) ?_ ?_
  · show V c main_v38 (((cfg1.win 0).blk t).view.emb (ix2 p q)) = V c main_v38 (((cfg1.win 2).blk t).view.emb (ix2 p q))
    refine congrArg _ (funext fun a => Fin.ext ?_)
    match a with
    | ⟨0, _⟩ =>
      show win1_0.index t (0 : Fin 2) * 8192 + 1 * p.val = win1_2.index t (0 : Fin 2) * 8192 + 1 * p.val
      rw [a0, o0]
    | ⟨1, _⟩ =>
      show win1_0.index t (1 : Fin 2) * 64 + 1 * q.val = win1_2.index t (1 : Fin 2) * 64 + 1 * q.val
      rw [a1, o1]
  · show V c main_v39 (((cfg1.win 1).blk t).view.emb (ix2 p 0))
      = V c main_v39 (ix2 ((((cfg1.win 2).blk t).view.emb (ix2 p q)) 0) 0)
    refine congrArg _ (funext fun a => Fin.ext ?_)
    match a with
    | ⟨0, _⟩ =>
      show win1_1.index t (0 : Fin 2) * 8192 + 1 * p.val = win1_2.index t (0 : Fin 2) * 8192 + 1 * p.val
      rw [b0, o0]
    | ⟨1, _⟩ =>
      show win1_1.index t (1 : Fin 2) * 1 + 1 * 0 = 0
      rw [b1]

/-- Every row r of the output lies in the block of point r / 8192, which is written back. -/
theorem blocks_cover1 (i : S1703936x64.Idx) :
    ∃ t : Fin cfg1.N, (cfg1.win 2).flush t = true ∧ i ∈ ((cfg1.win 2).blk t).view.set := by
  have hr : (i 0).val < 1703936 := (i 0).isLt
  have hq : (i 1).val < 64 := (i 1).isLt
  have ht : (i 0).val / 8192 < cfg1.N := by rw [points_count1]; omega
  obtain ⟨-, -, -, -, o0, o1⟩ := block_index1 ⟨(i 0).val / 8192, ht⟩
  refine ⟨⟨(i 0).val / 8192, ht⟩, flush1_2 _, ?_⟩
  show i ∈ ((View.whole main_v40).slice (win1_2.rect ⟨(i 0).val / 8192, ht⟩)).set
  rw [View.set_slice_whole, Rect.mem_set_unit]
  intro a
  match a with
  | ⟨0, _⟩ =>
    show win1_2.index ⟨(i 0).val / 8192, ht⟩ (0 : Fin 2) * 8192 ≤ (i 0).val
      ∧ (i 0).val < win1_2.index ⟨(i 0).val / 8192, ht⟩ (0 : Fin 2) * 8192 + 8192
    rw [o0]
    show (i 0).val / 8192 * 8192 ≤ (i 0).val ∧ (i 0).val < (i 0).val / 8192 * 8192 + 8192
    omega
  | ⟨1, _⟩ =>
    show win1_2.index ⟨(i 0).val / 8192, ht⟩ (1 : Fin 2) * 64 ≤ (i 1).val
      ∧ (i 1).val < win1_2.index ⟨(i 0).val / 8192, ht⟩ (1 : Fin 2) * 64 + 64
    rw [o1]
    omega

/-- Region 1's output array after the run is the row scaling of the two arrays the region found. -/
theorem arr1 : ((dat1 (F := Ideal) V c).arrAt 2 cfg1.N : FVec Ideal S1703936x64 .f32)
    = scaleRows (V c main_v38 : FVec Ideal S1703936x64 .f32) (V c main_v39 : FVec Ideal S1703936x1 .f32) := by
  exact (dat1 (F := Ideal) V c).arrAt_eq_of_cover 2
    (scaleRows (V c main_v38 : FVec Ideal S1703936x64 .f32) (V c main_v39 : FVec Ideal S1703936x1 .f32))
    (fun t _ => written_back1 V c t) blocks_cover1

end Cert.KernelIdeal.HandVal

end
-- ==== Proof.KI.Val2.lean ====
/-
  What region 2 leaves in its output array, at the exact instance: entry (r, j) is max(a[r, j] + b[j], 0), where the
  bias row is the reshaped bias vector; the reference adds the broadcast bias and takes the maximum with a broadcast zero.
-/
import proofs.«130239_j40776419508957_1_alg».proof.Proof.KI.Reg2
import proofs.«130239_j40776419508957_1_alg».proof.Proof.Gen.ReferenceIdeal
import proofs.«130239_j40776419508957_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The zero offsets of a whole-block rectangle, as the constant function. -/
theorem biasRelu_zeroOffsets : (![0, 0] : Fin 2 → Nat) = fun _ => 0 := funext fun a => by fin_cases a <;> rfl

/-- The zero element the region rectifies against. -/
abbrev biasRelu_zero : Ideal .f32 := Scalar.ofBits (F := Ideal) .f32 0x00000000#32

/-- The payload at an index: the larger of the block's entry plus the row's entry of its column, and zero. -/
theorem biasRelu_payload_apply (x0 : Vec Ideal S10000x64 .f32) (x1 : Vec Ideal S1x64 .f32) (p : Fin 10000) (q : Fin 64) :
    k2_pay1 x0 x1 (ix2 p q) = max (x0 (ix2 p q) + x1 (ix2 (0 : Fin 1) q)) biasRelu_zero := by
  unfold k2_pay1
  rw [maximumf_apply, addf_apply, shapeCast_self, shapeCast_self, broadcastTo_1b_ab_apply, broadcast_apply]

/-- The same at any index of the block, its column read off the index. -/
theorem biasRelu_payload_at (x0 : Vec Ideal S10000x64 .f32) (x1 : Vec Ideal S1x64 .f32) (y : S10000x64.Idx) :
    k2_pay1 x0 x1 y = max (x0 y + x1 (ix2 (0 : Fin 1) (y 1 : Fin 64))) biasRelu_zero := by
  obtain ⟨p, q, rfl⟩ : ∃ (p : Fin 10000) (q : Fin 64), y = ix2 p q := ⟨y 0, y 1, eq_ix2 y⟩
  exact biasRelu_payload_apply x0 x1 p q

/-- The whole-array function: entry (r, j) is the larger of a[r, j] + b[0, j] and zero. -/
abbrev biasRelu (a : S100000x64.Idx → Elt Ideal .f32) (b : S1x64.Idx → Elt Ideal .f32) : S100000x64.Idx → Elt Ideal .f32 :=
  fun i => max (a i + b (ix2 (0 : Fin 1) (i 1 : Fin 64))) biasRelu_zero

/-- The printed index maps over the grid: the first input's block moves with the output's, the bias row's block is
    the one block, the output's block index is the point along the rows and zero along the columns. -/
theorem biasRelu_blockIndices : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole-array function at an index, from its two reads. -/
theorem biasRelu_of_reads (a : FVec Ideal S100000x64 .f32) (b : FVec Ideal S1x64 .f32) (i0 i : S100000x64.Idx) (k : S1x64.Idx)
    (h0 : i0 = i) (h1 : k = ix2 (0 : Fin 1) (i 1 : Fin 64)) : max (a i0 + b k) biasRelu_zero = biasRelu a b i := by
  subst h0; subst h1; rfl

/-- What point t writes back is block t of the whole-array function of the two arrays as the region finds them. -/
theorem biasRelu_flushed (t : Fin cfg2.N) :
    (dat2 V c).flushed 2 t = ((cfg2.win 2).blk t).view.read (Elt Ideal) (biasRelu (V c main_v44) (V c main_v45)) := by
  show (cfg2.win 2).cut (grid2.coords t) ((dat2 V c).after 2 t) = _
  rw [after2_2]
  unfold out2_2
  rw [View.canon_unit_zero biasRelu_zeroOffsets]
  simp only [View.ld_unit_zero (S := S10000x64) biasRelu_zeroOffsets, View.ld_unit_zero (S := S1x64) biasRelu_zeroOffsets]
  obtain ⟨e0, e1, e2, e3, e4, e5⟩ := biasRelu_blockIndices t
  funext j
  refine (biasRelu_payload_at (iblk2 V c 0 t) (iblk2 V c 1 t) ((win2 2).xinj (grid2.coords t) j)).trans ?_
  refine biasRelu_of_reads (V c main_v44) (V c main_v45)
    (((cfg2.win 0).blk t).view.emb ((win2 2).xinj (grid2.coords t) j))
    (((cfg2.win 2).blk t).view.emb j)
    (((cfg2.win 1).blk t).view.emb (ix2 (0 : Fin 1) (⟨(j 1).val, (j 1).isLt⟩ : Fin 64))) ?_ ?_
  · funext a; apply Fin.ext
    match a with
    | ⟨0, _⟩ => show win2_0.index t (0 : Fin 2) * 10000 + 1 * (j 0).val = win2_2.index t (0 : Fin 2) * 10000 + 1 * (j 0).val; rw [e0]
    | ⟨1, _⟩ => show win2_0.index t (1 : Fin 2) * 64 + 1 * (j 1).val = win2_2.index t (1 : Fin 2) * 64 + 1 * (j 1).val; rw [e1]
  · funext a; apply Fin.ext
    match a with
    | ⟨0, _⟩ => show win2_1.index t (0 : Fin 2) * 1 + 1 * 0 = 0; rw [e2]
    | ⟨1, _⟩ => show win2_1.index t (1 : Fin 2) * 64 + 1 * (j 1).val = win2_2.index t (1 : Fin 2) * 64 + 1 * (j 1).val; rw [e3, e5]

/-- An index of the array is in point t's block iff each coordinate is in the block's range on its axis. -/
theorem biasRelu_mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Every index of the array is in some point's block: row r is in the block of point r / 10000. -/
theorem biasRelu_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := by decide
  have ht : (i 0).val / 10000 < cfg2.N := by rw [hN]; omega
  obtain ⟨-, -, -, -, e4, e5⟩ := biasRelu_blockIndices ⟨(i 0).val / 10000, ht⟩
  refine ⟨⟨(i 0).val / 10000, ht⟩, flush2_2 _, ?_⟩
  rw [biasRelu_mem_block]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e5]; omega

/-- The output array after the run is the whole-array function of the two arrays as the region finds them. -/
theorem biasRelu_final : ((dat2 (F := Ideal) V c).arrAt 2 cfg2.N : FVec Ideal S100000x64 .f32) = biasRelu (V c main_v44) (V c main_v45) :=
  (dat2 V c).arrAt_eq_of_cover 2 (biasRelu (V c main_v44) (V c main_v45)) (fun t _ => biasRelu_flushed V c t) biasRelu_cover

/-- The reference's rectified biased sum at an index. -/
theorem biasRelu_reference_apply (a : FVec Ideal S100000x64 .f32) (b1 : FVec Ideal S64 .f32) (i : S100000x64.Idx) :
    maximumf (addf a
          (broadcastInDim S100000x64 ![0, 1] Cert.ReferenceIdeal.Facts₀.bcast_S1x64_S100000x64_0_1 (broadcastInDim S1x64 ![1] Cert.ReferenceIdeal.Facts₀.bcast_S64_S1x64_1 b1)))
        (broadcastInDim S100000x64 ![] Cert.ReferenceIdeal.Facts₀.bcast_S_S100000x64 (constant (F := Ideal) S_ .f32 0x00000000#32)) i
      = max (a i + b1 (ix1 (i 1 : Fin 64))) biasRelu_zero := by
  rw [maximumf_apply, addf_apply]
  show max (a i + Cert.ReferenceIdeal.Read.val_main_v44 (F := Ideal) b1 i) (Cert.ReferenceIdeal.Read.val_main_call0_v0 (F := Ideal) i) = _
  rw [Cert.ReferenceIdeal.Read.val_main_v44_apply, Cert.ReferenceIdeal.Read.val_main_v43_apply,
    Cert.ReferenceIdeal.Read.val_main_call0_v0_apply, Cert.ReferenceIdeal.Read.val_main_call0_cst_apply]
  have hk : Cert.ReferenceIdeal.Read.idx_main_v43 (Cert.ReferenceIdeal.Read.idx_main_v44 i) = ix1 (i 1 : Fin 64) :=
    funext fun a => Fin.ext (by match a with | ⟨0, _⟩ => rfl)
  rw [hk]
  rfl

/-- The whole-array function over the bias vector reshaped into a row reads the vector at the column. -/
theorem biasRelu_row (a : FVec Ideal S100000x64 .f32) (b1 : FVec Ideal S64 .f32) (i : S100000x64.Idx) :
    biasRelu a (shapeCast S1x64 b1 shapeCasts_S64_S1x64) i = max (a i + b1 (ix1 (i 1 : Fin 64))) biasRelu_zero := by
  show max (a i + shapeCast S1x64 b1 shapeCasts_S64_S1x64 (ix2 (0 : Fin 1) (i 1 : Fin 64))) biasRelu_zero = _
  rw [show shapeCast S1x64 b1 shapeCasts_S64_S1x64 (ix2 (0 : Fin 1) (i 1 : Fin 64)) = b1 (ix1 (i 1 : Fin 64)) from
      shapeCast_a_1a_apply b1 shapeCasts_S64_S1x64 (0 : Fin 1) (i 1 : Fin 64)]

/-- Region 2's output array after the run is the reference's rectified biased sum, when the region's second array is
    the bias vector reshaped into a row. -/
theorem arr2 (b1 : FVec Ideal S64 .f32)
    (hb : (V c main_v45 : FVec Ideal S1x64 .f32) = shapeCast S1x64 b1 shapeCasts_S64_S1x64) :
    ((dat2 (F := Ideal) V c).arrAt 2 cfg2.N : FVec Ideal S100000x64 .f32)
    = maximumf (addf (V c main_v44 : FVec Ideal S100000x64 .f32)
          (broadcastInDim S100000x64 ![0, 1] Cert.ReferenceIdeal.Facts₀.bcast_S1x64_S100000x64_0_1 (broadcastInDim S1x64 ![1] Cert.ReferenceIdeal.Facts₀.bcast_S64_S1x64_1 b1)))
        (broadcastInDim S100000x64 ![] Cert.ReferenceIdeal.Facts₀.bcast_S_S100000x64 (constant (F := Ideal) S_ .f32 0x00000000#32)) := by
  rw [biasRelu_final V c]
  funext i
  rw [biasRelu_reference_apply, hb]
  exact biasRelu_row (V c main_v44) b1 i

end Cert.KernelIdeal.HandVal

end
-- ==== Proof.KI.Val3.lean ====
/-
  What region 3 leaves in its output array, at the exact instance: entry (r, 0) is the sum over j of h[r, j] * w[0, j],
  where the weight row w is the reshaped weight column W2; that is the reference's matrix product of h with W2.
-/
import proofs.«130239_j40776419508957_1_alg».proof.Proof.KI.Reg3
import proofs.«130239_j40776419508957_1_alg».proof.Proof.Gen.ReferenceIdeal
import proofs.«130239_j40776419508957_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem
open Idealize.ShloMosaic.Pipeline (Dat)
open Idealize.ShloMosaic.ValueIdx

/-- The two zero offsets, however spelt. -/
theorem zeros3 : (![0, 0] : Fin 2 → Nat) = fun _ => 0 := funext fun a => by fin_cases a <;> rfl

/-- A vector [a] cast to a column [a, 1] reads, at (p, u), the vector at p, whatever the unit coordinate u. -/
private theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [b, 1] cast to a row [1, b] reads, at (u, q), the column at (q, 0). -/
private theorem shapeCast_b1_1b_apply {α : Type} {b : ℕ} (x : (⟨2, ![b, 1]⟩ : Shape).Idx → α) (h : (⟨2, ![b, 1]⟩ : Shape).ShapeCasts ⟨2, ![1, b]⟩)
    (u : Fin 1) (q : Fin b) : shapeCast ⟨2, ![1, b]⟩ x h (ix2 u q) = x (ix2 q (0 : Fin 1)) :=
  shapeCast_apply x h _ _ (by
    have hu : u.val = 0 := by omega
    rw [Shape.rowMajor_val_two, Shape.rowMajor_val_two]
    show q.val * 1 + 0 = u.val * b + q.val
    rw [hu, Nat.mul_one, Nat.add_zero, Nat.zero_mul, Nat.zero_add])

/-- The lane sum of the body, with the accumulator's proof typed as the body spells it: at row p the sum over the 64 lanes. -/
theorem lanesum3 (src : FVec Ideal S10000x64 .f32) (hacc : (0x00000000#32 : BitVec 32) = 0x00000000#32) (p : Fin 10000) :
    multiReduction (F := Ideal) .add [1] S10000 src 0x00000000#32 reduces_S10000x64_S10000 (.inl rfl) hacc (ix1 p)
      = ∑ k : Fin 64, src (ix2 p k) := by
  refine (Ideal.multiReduction_add_single src 0x00000000#32 reduces_S10000x64_S10000 (.inl rfl) hacc (ix1 p)).trans ?_
  refine Finset.sum_congr rfl fun k _ => congrArg src (funext fun a => Fin.ext ?_)
  match a with
  | ⟨0, _⟩ => rfl
  | ⟨1, _⟩ => rfl

/-- Each row's product with the weight column: entry (r, 0) is the sum over j of h[r, j] * w2[j, 0]. -/
def rowdot3 (h : Vec Ideal S100000x64 .f32) (w2 : Vec Ideal S64x1 .f32) : Vec Ideal S100000x1 .f32 :=
  fun i => ∑ k : Fin 64, h (ix2 (⟨(i 0).val, (i 0).isLt⟩ : Fin 100000) k) * w2 (ix2 k (0 : Fin 1))

theorem rowdot3_apply (h : Vec Ideal S100000x64 .f32) (w2 : Vec Ideal S64x1 .f32) (i : S100000x1.Idx) :
    rowdot3 h w2 i = ∑ k : Fin 64, h (ix2 (⟨(i 0).val, (i 0).isLt⟩ : Fin 100000) k) * w2 (ix2 k (0 : Fin 1)) := rfl

/-- The body's arithmetic on one block, at an entry given by coordinates: the row's products with the weight row, summed over the lanes. -/
theorem pay3_ix (x0 : Vec Ideal S10000x64 .f32) (x1 : Vec Ideal S1x64 .f32) (p : Fin 10000) (u : Fin 1) :
    k3_pay1 x0 x1 (ix2 p u) = ∑ k : Fin 64, x0 (ix2 p k) * x1 (ix2 (0 : Fin 1) k) := by
  unfold k3_pay1
  dsimp only
  refine (shapeCast_a_a1_apply _ _ p u).trans ?_
  refine (lanesum3 _ _ p).trans ?_
  refine Finset.sum_congr rfl fun k _ => ?_
  rw [mulf_apply, shapeCast_self, shapeCast_self, broadcastTo_1b_ab_apply]

/-- The same at any index of the block, its row named by a coordinate. -/
theorem pay3_at (x0 : Vec Ideal S10000x64 .f32) (x1 : Vec Ideal S1x64 .f32) (y : S10000x1.Idx) (p : Fin 10000)
    (hp : p.val = (y 0).val) : k3_pay1 x0 x1 y = ∑ k : Fin 64, x0 (ix2 p k) * x1 (ix2 (0 : Fin 1) k) := by
  obtain ⟨p', u, rfl⟩ : ∃ (p' : Fin 10000) (u : Fin 1), y = ix2 p' u := ⟨y 0, y 1, eq_ix2 y⟩
  obtain rfl : p = p' := Fin.ext hp
  exact pay3_ix x0 x1 p u

/-- The reference's product at an index: the sum over its one contracted index, of extent 64, of h[r, k] * w2[k, 0]. -/
theorem ref3 (h : FVec Ideal S100000x64 .f32) (w2 : FVec Ideal S64x1 .f32) :
    Host.dotGeneral (F := Ideal) (φ₁ := .f32) (φ₂ := .f32) Cert.ReferenceIdeal.dot_S100000x64_S64x1_S100000x1_1_0_0_1_n_n none h w2
      = rowdot3 h w2 := by
  funext i
  simp only [Host.dotGeneral]
  rw [Ideal.dotGeneral_apply, ← Equiv.sum_comp (contrEquiv1 Cert.ReferenceIdeal.dot_S100000x64_S64x1_S100000x1_1_0_0_1_n_n 64 rfl rfl).symm]
  refine (Finset.sum_congr rfl fun k _ => ?_).trans (rowdot3_apply h w2 i).symm
  have hk := contrEquiv1_symm_val Cert.ReferenceIdeal.dot_S100000x64_S64x1_S100000x1_1_0_0_1_n_n 64 rfl rfl k
  have el : (Cert.ReferenceIdeal.dot_S100000x64_S64x1_S100000x1_1_0_0_1_n_n).lhsIdx i ((contrEquiv1 Cert.ReferenceIdeal.dot_S100000x64_S64x1_S100000x1_1_0_0_1_n_n 64 rfl rfl).symm k)
      = ix2 (⟨(i 0).val, (i 0).isLt⟩ : Fin 100000) k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : (Cert.ReferenceIdeal.dot_S100000x64_S64x1_S100000x1_1_0_0_1_n_n).rhsIdx i ((contrEquiv1 Cert.ReferenceIdeal.dot_S100000x64_S64x1_S100000x1_1_0_0_1_n_n 64 rfl rfl).symm k)
      = ix2 k (0 : Fin 1) := funext fun a => Fin.ext (by
    match a with
    | ⟨0, _⟩ => exact (Cert.ReferenceIdeal.Read.rhs_main_v47_0 _ _).trans hk
    | ⟨1, _⟩ =>
      refine (Cert.ReferenceIdeal.Read.rhs_main_v47_1 _ _).trans ?_
      have h1 : (i 1).val < 1 := (i 1).isLt
      show (i 1).val = 0
      omega)
  rw [el, er]

variable (V : (c : Dev nD) → (b : Ref sig .tc) → Buf (Elt Ideal) ((c : Thread nD τ).loc b)) (c : Dev nD)

/-- The index maps over the grid: h's block and the output's block are both at block row t, column block 0; the
    weight row's block is the same (0, 0) at every point. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- h's block at point t, at an entry k: h at row t * 10000 + k's row, the same column. -/
theorem hblk3_at (t : Fin cfg3.N) (k : S10000x64.Idx) (i : S100000x64.Idx)
    (h0 : (i 0).val = t.val * 10000 + (k 0).val) (h1 : (i 1).val = (k 1).val) :
    (iblk3 V c 0 t : Vec Ideal S10000x64 .f32) k = (V c main_v46 : Vec Ideal S100000x64 .f32) i := by
  obtain ⟨e00, e01, -⟩ := idx3 t
  unfold iblk3
  rw [View.read_apply]
  show V c main_v46 (((cfg3.win 0).blk t).view.emb k) = V c main_v46 i
  refine congrArg _ (funext fun a => Fin.ext ?_)
  match a with
  | ⟨0, _⟩ => show win3_0.index t (0 : Fin 2) * 10000 + 1 * (k 0).val = (i 0).val; rw [e00, h0]; omega
  | ⟨1, _⟩ => show win3_0.index t (1 : Fin 2) * 64 + 1 * (k 1).val = (i 1).val; rw [e01, h1]; omega

/-- The weight row's block at any point is the weight row. -/
theorem wblk3_at (t : Fin cfg3.N) (k : S1x64.Idx) :
    (iblk3 V c 1 t : Vec Ideal S1x64 .f32) k = (V c main_v47 : Vec Ideal S1x64 .f32) k := by
  obtain ⟨-, -, e10, e11, -⟩ := idx3 t
  unfold iblk3
  rw [View.read_apply]
  show V c main_v47 (((cfg3.win 1).blk t).view.emb k) = V c main_v47 k
  refine congrArg _ (funext fun a => Fin.ext ?_)
  match a with
  | ⟨0, _⟩ => show win3_1.index t (0 : Fin 2) * 1 + 1 * (k 0).val = (k 0).val; rw [e10]; omega
  | ⟨1, _⟩ => show win3_1.index t (1 : Fin 2) * 64 + 1 * (k 1).val = (k 1).val; rw [e11]; omega

/-- What point t writes back is block t of the rows' products with the weight column, when the region's second array is
    that column reshaped into a row. -/
theorem flushed3 (w2 : FVec Ideal S64x1 .f32)
    (hw : (V c main_v47 : FVec Ideal S1x64 .f32) = shapeCast S1x64 w2 shapeCasts_S64x1_S1x64) (t : Fin cfg3.N) :
    (dat3 (F := Ideal) V c).flushed 2 t = ((cfg3.win 2).blk t).view.read (Elt Ideal) (rowdot3 (V c main_v46) w2) := by
  show (cfg3.win 2).cut (grid3.coords t) ((dat3 V c).after 2 t) = _
  rw [after3_2]
  unfold out3_2
  rw [View.canon_unit_zero zeros3]
  simp only [View.ld_unit_zero (S := S10000x64) zeros3, View.ld_unit_zero (S := S1x64) zeros3]
  obtain ⟨-, -, -, -, e20, e21⟩ := idx3 t
  funext j
  have hj0 : (j 0).val < 10000 := (j 0).isLt
  refine (pay3_at (iblk3 V c 0 t) (iblk3 V c 1 t) _ (⟨(j 0).val, hj0⟩ : Fin 10000) rfl).trans ?_
  refine Eq.trans ?_ (rowdot3_apply (V c main_v46) w2 (((cfg3.win 2).blk t).view.emb j)).symm
  refine Finset.sum_congr rfl fun k _ => ?_
  have h0 := hblk3_at V c t (ix2 (⟨(j 0).val, hj0⟩ : Fin 10000) k)
    (ix2 (⟨((((cfg3.win 2).blk t).view.emb j) 0).val, ((((cfg3.win 2).blk t).view.emb j) 0).isLt⟩ : Fin 100000) k)
    (by show win3_2.index t (0 : Fin 2) * 10000 + 1 * (j 0).val = t.val * 10000 + (j 0).val; rw [e20]; omega) rfl
  have h1 := wblk3_at V c t (ix2 (0 : Fin 1) k)
  have h2 := congrFun hw (ix2 (0 : Fin 1) k)
  rw [h0, h1, h2, shapeCast_b1_1b_apply]

/-- An index of the output array is in point t's block iff each coordinate is in the block's range on its axis. -/
theorem mem_blk3 (t : Fin cfg3.N) (i : S100000x1.Idx) :
    i ∈ ((cfg3.win 2).blk t).view.set ↔ ∀ a : Fin 2, win3_2.index t a * S10000x1.size a ≤ (i a).val
      ∧ (i a).val < win3_2.index t a * S10000x1.size a + S10000x1.size a := by
  show i ∈ ((View.whole main_v48).slice (win3_2.rect t)).set ↔ _
  rw [View.set_slice_whole, Rect.mem_set_unit]
  exact Iff.rfl

/-- Every entry (r, 0) of the output array is written by the point r / 10000. -/
theorem cover3 (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  obtain ⟨t, ht⟩ : ∃ t : Fin cfg3.N, t.val = (i 0).val / 10000 :=
    ⟨⟨(i 0).val / 10000, Nat.lt_of_lt_of_eq (by omega) N_3.symm⟩, rfl⟩
  obtain ⟨-, -, -, -, e20, e21⟩ := idx3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    rw [e20, ht]; omega
  | ⟨1, _⟩ =>
    show win3_2.index t (1 : Fin 2) * 1 ≤ (i 1).val ∧ (i 1).val < win3_2.index t (1 : Fin 2) * 1 + 1
    rw [e21]; omega

/-- So the output array ends holding the rows' products with the weight column. -/
theorem final3 (w2 : FVec Ideal S64x1 .f32)
    (hw : (V c main_v47 : FVec Ideal S1x64 .f32) = shapeCast S1x64 w2 shapeCasts_S64x1_S1x64) :
    ((dat3 (F := Ideal) V c).arrAt 2 cfg3.N : FVec Ideal S100000x1 .f32) = rowdot3 (V c main_v46) w2 :=
  (dat3 (F := Ideal) V c).arrAt_eq_of_cover 2 (rowdot3 (V c main_v46) w2) (fun t _ => flushed3 V c w2 hw t) cover3

/-- Region 3's output array after the run is the reference's product of the hidden features with the weight column,
    when the region's second array is that column reshaped into a row. -/
theorem arr3 (w2 : FVec Ideal S64x1 .f32)
    (hw : (V c main_v47 : FVec Ideal S1x64 .f32) = shapeCast S1x64 w2 shapeCasts_S64x1_S1x64) :
    ((dat3 (F := Ideal) V c).arrAt 2 cfg3.N : FVec Ideal S100000x1 .f32)
    = Host.dotGeneral (F := Ideal) (φ₁ := .f32) (φ₂ := .f32) Cert.ReferenceIdeal.dot_S100000x64_S64x1_S100000x1_1_0_0_1_n_n none
        (V c main_v46 : FVec Ideal S100000x64 .f32) w2 := by
  rw [ref3]
  exact final3 V c w2 hw

end Cert.KernelIdeal.HandVal

end
-- ==== Proof.KI.Val4.lean ====
/-
  What region 4 leaves in its one-element output array, at the exact instance: the running maximum after the last of
  the ten points, which is the maximum over all 100000 rows r of a[r, 0] + b; the reference reduces the biased column
  with max from minus infinity. The maximum of extended reals is associative, commutative and idempotent with minus
  infinity as its unit, so the blockwise running maximum is the maximum over the whole column.

  A maximum is carried here by its universal property: each side is described by the set of its upper bounds. The
  running maximum after point n is at most z exactly when every a[r, 0] + b with r < 10000 (n + 1) is (by induction
  on the point); the reference's reduction is at most z exactly when every a[r, 0] + b is; at the last point the two
  sets of upper bounds are the same, and an extended real is determined by its upper bounds.
-/
import proofs.«130239_j40776419508957_1_alg».proof.Proof.KI.Reg4
import proofs.«130239_j40776419508957_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The word 0xFF800000 denotes minus infinity, the least extended real. -/
theorem negInf_eq_bot : Ideal.ofBits .f32 0xFF800000#32 = (⊥ : EReal) := by
  simp [Ideal.ofBits, Ideal.ieee]

/-- The reset value at its one index is minus infinity. -/
theorem reset_apply : (k4_pay1 (F := Ideal)) (ix2 (0 : Fin 1) (0 : Fin 1)) = (⊥ : EReal) := by
  unfold k4_pay1
  rw [shapeCast_self]
  exact negInf_eq_bot

/-- The inserted index of the block's lane reduction: row k, column 0. -/
theorem lift_block (h : S10000x1.Reduces [0] S1) (k : Fin 10000) :
    h.lift (ix1 (0 : Fin 1)) k = ix2 k (0 : Fin 1) := by
  funext a
  apply Fin.ext
  match a with
  | ⟨0, _⟩ => rfl
  | ⟨1, _⟩ => rfl

/-- The maximum over the rows of a one-column block, from minus infinity, said by its upper bounds. -/
theorem laneMax_le_iff (src : FVec Ideal S10000x1 .f32) (h : S10000x1.Reduces [0] S1) (hφ : FKind.Formats .f32)
    (hacc : (0xFF800000#32 : BitVec 32) = 0xFF800000#32) (z : EReal) :
    multiReduction .maximumf [0] S1 src 0xFF800000#32 h hφ hacc (ix1 (0 : Fin 1)) ≤ z
      ↔ ∀ k : Fin 10000, src (ix2 k (0 : Fin 1)) ≤ z := by
  have e := Ideal.multiReduction_maximumf_single src 0xFF800000#32 h hφ hacc (ix1 (0 : Fin 1))
  have key : ∀ k : Fin 10000, (src ∘ h.lift (ix1 (0 : Fin 1))) k = src (ix2 k (0 : Fin 1)) :=
    fun k => congrArg src (lift_block h k)
  rw [e, Finset.fold_max_le]
  constructor
  · intro hh k
    exact (key k).symm.trans_le (hh.2 k (Finset.mem_univ k))
  · intro hh
    refine ⟨?_, fun k _ => (key k).trans_le (hh k)⟩
    show Ideal.ofBits .f32 0xFF800000#32 ≤ z
    rw [negInf_eq_bot]; exact bot_le

/-- The update at its one index: the larger of the carried value and every x[k, 0] + b[0, 0] of the block, said by
    its upper bounds. -/
theorem update_le_iff (x : Vec Ideal S10000x1 .f32) (b : Vec Ideal S1x1 .f32) (s : Vec Ideal S1x1 .f32) (z : EReal) :
    (k4_pay2 x b s) (ix2 (0 : Fin 1) (0 : Fin 1)) ≤ z
      ↔ s (ix2 (0 : Fin 1) (0 : Fin 1)) ≤ z ∧ ∀ k : Fin 10000, x (ix2 k (0 : Fin 1)) + b (ix2 (0 : Fin 1) (0 : Fin 1)) ≤ z := by
  unfold k4_pay2
  rw [shapeCast_self, shapeCast_self, shapeCast_self, maximumf_apply, shapeCast_a_1a_apply, max_le_iff]
  refine and_congr Iff.rfl ((laneMax_le_iff _ _ _ _ z).trans ?_)
  refine forall_congr' fun k => ?_
  rw [addf_apply, broadcastTo_apply b broadcasts_S1x1_S10000x1 (ix2 k (0 : Fin 1)) (ix2 (0 : Fin 1) (0 : Fin 1))]
  intro a
  match a with
  | ⟨0, _⟩ => rfl
  | ⟨1, _⟩ => rfl

/-- The windows' index maps over the grid: the first window's block index is (t, 0); the other two stay at (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Block t of the column: its row k is row 10000 t + k of the array. -/
theorem colBlock_apply (t : Fin cfg4.N) (k : Fin 10000) (r : Fin 100000) (hr : r.val = 10000 * t.val + k.val) :
    (iblk4 V c 0 t : Vec Ideal S10000x1 .f32) (ix2 k (0 : Fin 1))
      = (V c main_v60 : FVec Ideal S100000x1 .f32) (ix2 r (0 : Fin 1)) := by
  unfold iblk4
  rw [View.read_apply]
  show V c main_v60 _ = V c main_v60 _
  congr 1
  funext a
  apply Fin.ext
  match a with
  | ⟨0, _⟩ =>
    show win4_0.index t (0 : Fin 2) * 10000 + 1 * k.val = r.val
    rw [(idx_facts4 t).1]; omega
  | ⟨1, _⟩ =>
    show win4_0.index t (1 : Fin 2) * 1 + 1 * 0 = 0
    rw [(idx_facts4 t).2.1]

/-- The bias window's block is the whole one-element array, at every point. -/
theorem biasBlock_apply (t : Fin cfg4.N) :
    (iblk4 V c 1 t : Vec Ideal S1x1 .f32) (ix2 (0 : Fin 1) (0 : Fin 1))
      = (V c main_v61 : FVec Ideal S1x1 .f32) (ix2 (0 : Fin 1) (0 : Fin 1)) := by
  unfold iblk4
  rw [View.read_apply]
  show V c main_v61 _ = V c main_v61 _
  congr 1
  funext a
  apply Fin.ext
  match a with
  | ⟨0, _⟩ =>
    show win4_1.index t (0 : Fin 2) * 1 + 1 * 0 = 0
    rw [(idx_facts4 t).2.2.1]
  | ⟨1, _⟩ =>
    show win4_1.index t (1 : Fin 2) * 1 + 1 * 0 = 0
    rw [(idx_facts4 t).2.2.2.1]

/-- The column as the region finds it. -/
abbrev col4 : FVec Ideal S100000x1 .f32 := V c main_v60
/-- The one-element bias array as the region finds it. -/
abbrev bias4 : FVec Ideal S1x1 .f32 := V c main_v61

/-- One more block, by its upper bounds: every row of a block that is rows 10000 t … 10000 t + 9999 of the column A,
    offset by the bias, is at most z exactly when every such row of A is. -/
theorem block_bounds (t : ℕ) (ht : t < 10) (z : EReal) (x : Vec Ideal S10000x1 .f32) (b : Vec Ideal S1x1 .f32)
    (A : FVec Ideal S100000x1 .f32) (B : FVec Ideal S1x1 .f32)
    (hx : ∀ (k : Fin 10000) (r : Fin 100000), r.val = 10000 * t + k.val → x (ix2 k (0 : Fin 1)) = A (ix2 r (0 : Fin 1)))
    (hb : b (ix2 (0 : Fin 1) (0 : Fin 1)) = B (ix2 (0 : Fin 1) (0 : Fin 1))) :
    (∀ k : Fin 10000, x (ix2 k (0 : Fin 1)) + b (ix2 (0 : Fin 1) (0 : Fin 1)) ≤ z)
      ↔ ∀ r : Fin 100000, 10000 * t ≤ r.val → r.val < 10000 * (t + 1) →
          A (ix2 r (0 : Fin 1)) + B (ix2 (0 : Fin 1) (0 : Fin 1)) ≤ z := by
  constructor
  · intro hh r h1 h2
    have e := hx ⟨r.val - 10000 * t, by omega⟩ r (by show r.val = 10000 * t + (r.val - 10000 * t); omega)
    rw [← e, ← hb]
    exact hh _
  · intro hh k
    have hk : k.val < 10000 := k.isLt
    rw [hx k ⟨10000 * t + k.val, by omega⟩ rfl, hb]
    exact hh _ (by show 10000 * t ≤ 10000 * t + k.val; omega) (by show 10000 * t + k.val < _; omega)

/-- The running maximum after point n, by its upper bounds: the rows below 10000 (n + 1), each offset by the bias. -/
theorem running_le_iff (z : EReal) : ∀ (n : ℕ) (h : n < cfg4.N),
    (acc4 V c n h) (ix2 (0 : Fin 1) (0 : Fin 1)) ≤ z
      ↔ ∀ r : Fin 100000, r.val < 10000 * (n + 1) →
          col4 V c (ix2 r (0 : Fin 1)) + bias4 V c (ix2 (0 : Fin 1) (0 : Fin 1)) ≤ z
  | 0, h => by
    rw [acc4_zero]
    refine (update_le_iff (iblk4 V c 0 ⟨0, h⟩) (iblk4 V c 1 ⟨0, h⟩) (k4_pay1 (F := Ideal)) z).trans ?_
    refine (and_congr (by rw [reset_apply])
      (block_bounds 0 (by omega) z (iblk4 V c 0 ⟨0, h⟩) (iblk4 V c 1 ⟨0, h⟩) (col4 V c) (bias4 V c)
        (fun k r hr => colBlock_apply V c ⟨0, h⟩ k r hr) (biasBlock_apply V c ⟨0, h⟩))).trans ?_
    constructor
    · intro hh r hr
      exact hh.2 r (by omega) (by omega)
    · intro hh
      exact ⟨bot_le, fun r _ h2 => hh r (by omega)⟩
  | n + 1, h => by
    have hN : cfg4.N = 10 := N_4
    rw [acc4_succ]
    refine (update_le_iff (iblk4 V c 0 ⟨n + 1, h⟩) (iblk4 V c 1 ⟨n + 1, h⟩) (acc4 V c n (Nat.lt_of_succ_lt h)) z).trans ?_
    refine (and_congr (running_le_iff z n (Nat.lt_of_succ_lt h))
      (block_bounds (n + 1) (by omega) z (iblk4 V c 0 ⟨n + 1, h⟩) (iblk4 V c 1 ⟨n + 1, h⟩) (col4 V c) (bias4 V c)
        (fun k r hr => colBlock_apply V c ⟨n + 1, h⟩ k r hr) (biasBlock_apply V c ⟨n + 1, h⟩))).trans ?_
    constructor
    · intro hh r hr
      by_cases hlt : r.val < 10000 * (n + 1)
      · exact hh.1 r hlt
      · exact hh.2 r (by omega) (by omega)
    · intro hh
      exact ⟨fun r hr => hh r (by omega), fun r _ h2 => hh r (by omega)⟩

/-- The inserted index of the reference's reduction over the rows: row k, column 0. -/
theorem lift_col (h : S100000x1.Reduces [0] S1) (k : Fin 100000) :
    h.lift (ix1 (0 : Fin 1)) k = ix2 k (0 : Fin 1) := by
  funext a
  apply Fin.ext
  match a with
  | ⟨0, _⟩ => rfl
  | ⟨1, _⟩ => rfl

/-- The bias vector broadcast to one element and then down the column reads b2[0] at every row. -/
theorem biasCol_apply (b2 : FVec Ideal S1 .f32) (k : Fin 100000) :
    broadcastInDim S100000x1 ![0, 1] Cert.ReferenceIdeal.Facts₀.bcast_S1x1_S100000x1_0_1
        (broadcastInDim S1x1 ![1] Cert.ReferenceIdeal.Facts₀.bcast_S1_S1x1_1 b2) (ix2 k (0 : Fin 1))
      = b2 (ix1 (0 : Fin 1)) := by
  rw [broadcastInDim_apply _ Cert.ReferenceIdeal.Facts₀.bcast_S1x1_S100000x1_0_1 _ (ix2 k (0 : Fin 1)) (ix2 (0 : Fin 1) (0 : Fin 1))
      (fun a => match a with
        | ⟨0, _⟩ => by show 0 = if (1 : Nat) = 1 then 0 else k.val; rw [if_pos rfl]
        | ⟨1, _⟩ => by show 0 = if (1 : Nat) = 1 then 0 else 0; rw [if_pos rfl]),
    broadcastInDim_apply _ Cert.ReferenceIdeal.Facts₀.bcast_S1_S1x1_1 b2 (ix2 (0 : Fin 1) (0 : Fin 1)) (ix1 (0 : Fin 1))
      (fun a => match a with
        | ⟨0, _⟩ => by show 0 = if (1 : Nat) = 1 then 0 else 0; rw [if_pos rfl])]

/-- The reference's maximum over the rows from minus infinity, broadcast back to one element, by its upper bounds. -/
theorem refMax_le_iff (A : FVec Ideal S100000x1 .f32) (b2 : FVec Ideal S1 .f32) (z : EReal) :
    broadcastInDim S1x1 ![1] Cert.ReferenceIdeal.Facts₀.bcast_S1_S1x1_1
        (Host.reduce FloatOps.maximumf
          (addf A (broadcastInDim S100000x1 ![0, 1] Cert.ReferenceIdeal.Facts₀.bcast_S1x1_S100000x1_0_1
            (broadcastInDim S1x1 ![1] Cert.ReferenceIdeal.Facts₀.bcast_S1_S1x1_1 b2)))
          (constant (F := Ideal) S_ .f32 0xFF800000#32) Cert.ReferenceIdeal.Facts₀.reducesTo_S100000x1_S1_d0
          Cert.ReferenceIdeal.Facts₀.h_S_) (ix2 (0 : Fin 1) (0 : Fin 1)) ≤ z
      ↔ ∀ r : Fin 100000, A (ix2 r (0 : Fin 1)) + b2 (ix1 (0 : Fin 1)) ≤ z := by
  have hred : S100000x1.Reduces [0] S1 := by decide
  rw [broadcastInDim_apply _ Cert.ReferenceIdeal.Facts₀.bcast_S1_S1x1_1 _ (ix2 (0 : Fin 1) (0 : Fin 1)) (ix1 (0 : Fin 1))
      (fun a => match a with
        | ⟨0, _⟩ => by show 0 = if (1 : Nat) = 1 then 0 else 0; rw [if_pos rfl])]
  have e := Host.reduce_eq_fold_single (FloatOps.maximumf (F := Ideal) (φ := .f32))
    (addf A (broadcastInDim S100000x1 ![0, 1] Cert.ReferenceIdeal.Facts₀.bcast_S1x1_S100000x1_0_1
      (broadcastInDim S1x1 ![1] Cert.ReferenceIdeal.Facts₀.bcast_S1_S1x1_1 b2)))
    (constant (F := Ideal) S_ .f32 0xFF800000#32) Cert.ReferenceIdeal.Facts₀.reducesTo_S100000x1_S1_d0 hred
    Cert.ReferenceIdeal.Facts₀.h_S_ (ix1 (0 : Fin 1))
  rw [e]
  have key : ∀ k : Fin 100000,
      ((addf A (broadcastInDim S100000x1 ![0, 1] Cert.ReferenceIdeal.Facts₀.bcast_S1x1_S100000x1_0_1
        (broadcastInDim S1x1 ![1] Cert.ReferenceIdeal.Facts₀.bcast_S1_S1x1_1 b2))) ∘ hred.lift (ix1 (0 : Fin 1))) k
        = A (ix2 k (0 : Fin 1)) + b2 (ix1 (0 : Fin 1)) := by
    intro k
    refine (congrArg (addf A (broadcastInDim S100000x1 ![0, 1] Cert.ReferenceIdeal.Facts₀.bcast_S1x1_S100000x1_0_1
      (broadcastInDim S1x1 ![1] Cert.ReferenceIdeal.Facts₀.bcast_S1_S1x1_1 b2))) (lift_col hred k)).trans ?_
    rw [addf_apply, biasCol_apply]
  refine (Finset.fold_max_le (c := z)).trans ?_
  constructor
  · intro hh r
    exact (key r).symm.trans_le (hh.2 r (Finset.mem_univ r))
  · intro hh
    refine ⟨?_, fun k _ => (key k).trans_le (hh k)⟩
    show Ideal.ofBits .f32 0xFF800000#32 ≤ z
    rw [negInf_eq_bot]; exact bot_le

/-- The last point of the grid. -/
abbrev tLast4 : Fin cfg4.N := ⟨9, by rw [show cfg4.N = 10 from N_4]; decide⟩

/-- What the scratch holds after the last point, as contents of the one-element output array. -/
abbrev last4 : Buf (Elt Ideal) ((c : Thread nD τ).loc main_v62) := acc4 V c (tLast4).val (tLast4).isLt

/-- The one write-back, at the last point, writes it: the output's block is the whole one-element array. -/
theorem flushed4_eq (t : Fin cfg4.N) (hf : (cfg4.win 2).flush t = true) :
    (dat4 (F := Ideal) V c).flushed 2 t = ((cfg4.win 2).blk t).view.read (Elt Ideal) (last4 V c) := by
  have hN : cfg4.N = 10 := N_4
  have h9 : t.val = 9 := by have := (flush4_2 t).mp hf; have := t.isLt; omega
  obtain rfl : t = tLast4 := Fin.ext h9
  show (cfg4.win 2).cut (grid4.coords tLast4) ((dat4 (F := Ideal) V c).after 2 tLast4) = _
  rw [after4_2]
  have hz' : (fun a => win4_2.index tLast4 a * main_v62.ty.shape.size a) = fun _ => 0 :=
    funext fun a => by fin_cases a <;> decide
  exact (Memref.read_access_unit_zero (Elt Ideal) main_v62 hz' (fun a => by rw [congrFun hz' a]; simp) (last4 V c)).symm

/-- So the output array ends holding what the last point left: that point's block covers its one index. -/
theorem final4 : (dat4 (F := Ideal) V c).arrAt 2 cfg4.N = last4 V c :=
  (dat4 (F := Ideal) V c).arrAt_eq_of_cover 2 (last4 V c) (flushed4_eq V c) fun i =>
    ⟨tLast4, (flush4_2 tLast4).mpr rfl, by
      show i ∈ ((View.whole main_v62).slice (win4_2.rect tLast4)).set
      rw [View.set_slice_whole, Rect.mem_set_unit]
      intro a
      have h0 : (i 0 : Nat) < 1 := (i 0).isLt
      have h1 : (i 1 : Nat) < 1 := (i 1).isLt
      match a with
      | ⟨0, _⟩ =>
        show win4_2.index tLast4 0 * win4_2.size 0 ≤ (i 0 : Nat) ∧ (i 0 : Nat) < win4_2.index tLast4 0 * win4_2.size 0 + win4_2.xsize (grid4.coords tLast4) 0
        rw [show win4_2.index tLast4 0 * win4_2.size 0 = 0 from by decide +kernel, show win4_2.xsize (grid4.coords tLast4) 0 = 1 from by decide +kernel]; omega
      | ⟨1, _⟩ =>
        show win4_2.index tLast4 1 * win4_2.size 1 ≤ (i 1 : Nat) ∧ (i 1 : Nat) < win4_2.index tLast4 1 * win4_2.size 1 + win4_2.xsize (grid4.coords tLast4) 1
        rw [show win4_2.index tLast4 1 * win4_2.size 1 = 0 from by decide +kernel, show win4_2.xsize (grid4.coords tLast4) 1 = 1 from by decide +kernel]; omega⟩

/-- Region 4's output array after the run is the reference's maximum of the biased column, when the region's second
    array is the one-element bias vector reshaped. -/
theorem arr4 (b2 : FVec Ideal S1 .f32)
    (hb : (V c main_v61 : FVec Ideal S1x1 .f32) = shapeCast S1x1 b2 shapeCasts_S1_S1x1) :
    ((dat4 (F := Ideal) V c).arrAt 2 cfg4.N : FVec Ideal S1x1 .f32)
    = broadcastInDim S1x1 ![1] Cert.ReferenceIdeal.Facts₀.bcast_S1_S1x1_1
        (Host.reduce FloatOps.maximumf
          (addf (V c main_v60 : FVec Ideal S100000x1 .f32)
            (broadcastInDim S100000x1 ![0, 1] Cert.ReferenceIdeal.Facts₀.bcast_S1x1_S100000x1_0_1 (broadcastInDim S1x1 ![1] Cert.ReferenceIdeal.Facts₀.bcast_S1_S1x1_1 b2)))
          (constant (F := Ideal) S_ .f32 0xFF800000#32) Cert.ReferenceIdeal.Facts₀.reducesTo_S100000x1_S1_d0 Cert.ReferenceIdeal.Facts₀.h_S_) := by
  rw [final4 V c]
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  have hbias : bias4 V c (ix2 (0 : Fin 1) (0 : Fin 1)) = b2 (ix1 (0 : Fin 1)) := by
    show (V c main_v61 : FVec Ideal S1x1 .f32) (ix2 (0 : Fin 1) (0 : Fin 1)) = _
    rw [hb, shapeCast_a_1a_apply]
  refine eq_of_forall_ge_iff (α := EReal) fun z => ?_
  refine (running_le_iff V c z 9 tLast4.isLt).trans (Iff.trans ?_ (refMax_le_iff (col4 V c) b2 z).symm)
  rw [hbias]
  exact ⟨fun hh r => hh r (by have := r.isLt; omega), fun hh r _ => hh r⟩

end Cert.KernelIdeal.HandVal

end
-- ==== Proof.KI.HostRows.lean ====
/-
  The host operations around region 1, at the exact instance. The program pads the message sources and the
  normalisation coefficients from 1700000 to 1703936 entries, gathers one row of the feature table per padded source,
  scales the rows (region 1) and cuts the result back to its first 1700000 rows; the reference gathers and scales the
  1700000 rows directly. A gathered row depends only on its own source index, and the first 1700000 padded entries are
  the unpadded ones, so the two agree entry by entry.
-/
import proofs.«130239_j40776419508957_1_alg».proof.Proof.KI.Val1
import Idealize.ShloMosaic.Lib.StableHlo.Predicate
import Idealize.ShloMosaic.Lib.KernelVsHost

set_option maxRecDepth 16384

noncomputable section

namespace Cert.KernelIdeal.HandVal

open Cert.KernelIdeal.Gen Cert.KernelIdeal.Hand
open Idealize.ShloMosaic Idealize.ShloMosaic.TcCoe Idealize.SL.Sem
open Idealize.ShloMosaic.ValueIdx

/-- An entry of a padded one-axis array below the original length is the original entry (nothing is added in front
    or between). -/
theorem pad_apply_lt {α : Type} (x : S1700000.Idx → α) (v : S_.Idx → α) (i : Fin 1700000) :
    pad S1703936 ![0] ![3936] ![0] x v pads_S1700000_S1703936_039360 h_S_ (ix1 ⟨i.val, by omega⟩) = x (ix1 i) := by
  refine pad_apply_of_inside _ _ _ x v _ _ _ (ix1 i) (fun a => ?_)
  match a with
  | ⟨0, _⟩ => show i.val = 0 + i.val * (0 + 1); omega

/-! ### A gather of whole rows of a table, read at an index

The dimension numbers of `T[idx]` for a table `T : [N, C]` and one column `idx : [R, 1]` of row numbers: offset axis 1,
axis 0 of the table collapsed and named by the start index, slices of one whole row. Entry `(r, c)` of the result is
`T` at column `c` of the row `idx[r, 0]` names, read signed and clamped into the table. -/

section GatherRows
variable {α : Type}

/-- The row a start index word names in a table of `N` rows: the word read signed, clamped into `[0, N - 1]`. -/
def clampRow (N : Nat) (hN : 0 < N) {w : Nat} (b : BitVec w) : Fin N := ⟨min b.toInt.toNat (N - 1), by omega⟩

/-- The dimension numbers of a gather of whole rows: table `[N, C]`, start indices `[R, 1]`, result `[R, C]`. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, c)`. -/
abbrev rowIdx {R C : Nat} (y : (⟨2, ![R, C]⟩ : Shape).Idx) : (⟨2, ![R, 1]⟩ : Shape).Idx :=
  ix2 ⟨(y 0).val, idx2_lt0 y⟩ 0

/-- The gather of whole rows read at `(r, c)`: the table at column `c` of the row the start index `idx[r, 0]` names. -/
theorem gather_rows_apply {N C R w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (y : (⟨2, ![R, C]⟩ : Shape).Idx) :
    Host.gather (rowDims N C R wf) T idx y = T (ix2 (clampRow N hN (idx (rowIdx y))) ⟨(y 1).val, idx2_lt1 y⟩) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil, Nat.add_zero]
  match a with
  | ⟨0, h⟩ =>
    show (rowDims N C R wf).start y idx (0 : Fin 2) + (rowDims N C R wf).offCoord y (0 : Fin 2) = _
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N C R wf).startIndexMap from List.mem_singleton.mpr rfl)]
    have hsi : (rowDims N C R wf).siIdx y ⟨List.idxOf (0 : Fin 2) (rowDims N C R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, h⟩ =>
    show (rowDims N C R wf).start y idx (1 : Fin 2) + (rowDims N C R wf).offCoord y (1 : Fin 2) = _
    have h0 : (rowDims N C R wf).start y idx (1 : Fin 2) = 0 := by
      unfold GatherDims.start
      rw [dif_neg (show ¬ (1 : Fin 2) ∈ ([0] : List (Fin 2)) by decide)]
    rw [h0, Nat.zero_add]
    have hk : (1 : Fin 2) ∈ (rowDims N C R wf).sKept :=
      (GatherDims.mem_sKept _ _).mpr ⟨(show ¬ (1 : Fin 2) ∈ ([0] : List (Fin 2)) by decide), List.not_mem_nil⟩
    unfold GatherDims.offCoord
    rw [dif_pos hk]
    rfl

end GatherRows

/-- The rows the program keeps are the rows the reference computes: cutting the scaled gather over the padded index
    and coefficient arrays back to 1700000 rows gives the reference's gather over the unpadded index array times the
    broadcast coefficients, whenever the padded arrays agree with the unpadded ones on the first 1700000 entries. -/
theorem slice_scaleRows_gather
    (T : FVec Ideal S100000x64 .f32)
    (idxP : (⟨S1703936x1, .i32⟩ : BufTy).Contents (Elt Ideal)) (idx : (⟨S1700000x1, .i32⟩ : BufTy).Contents (Elt Ideal))
    (nP : FVec Ideal S1703936x1 .f32) (n : FVec Ideal S1700000 .f32)
    (hidx : ∀ i : Fin 1700000, idxP (ix2 ⟨i.val, by omega⟩ 0) = idx (ix2 i 0))
    (hn : ∀ i : Fin 1700000, nP (ix2 ⟨i.val, by omega⟩ 0) = n (ix1 i)) :
    extractStridedSlice S1700000x64 ![0, 0]
        (scaleRows (Host.gather gather_S100000x64_S1703936x1_S1703936x64_1_0_n_n_0_1_164 T idxP) nP)
        slices_S1703936x64_S1700000x64_0_0
    = mulf (Host.gather Cert.ReferenceIdeal.gather_S100000x64_S1700000x1_S1700000x64_1_0_n_n_0_1_164 T idx)
        (broadcastInDim S1700000x64 ![0, 1] Cert.ReferenceIdeal.Facts₀.bcast_S1700000x1_S1700000x64_0_1
          (broadcastInDim S1700000x1 ![0] bcast_S1700000_S1700000x1_0 n)) := by
  funext y
  obtain ⟨i, j, rfl⟩ : ∃ (i : Fin 1700000) (j : Fin 64), y = ix2 i j := ⟨y 0, y 1, eq_ix2 y⟩
  -- the coefficient: the two nested broadcasts read n at the row
  have hb : broadcastInDim S1700000x64 ![0, 1] Cert.ReferenceIdeal.Facts₀.bcast_S1700000x1_S1700000x64_0_1
      (broadcastInDim S1700000x1 ![0] bcast_S1700000_S1700000x1_0 n) (ix2 i j) = n (ix1 i) := by
    refine (broadcastInDim_apply _ _ _ (ix2 i j) (ix2 i 0) (fun a => ?_)).trans ?_
    · match a with
      | ⟨0, _⟩ => rfl
      | ⟨1, _⟩ => rfl
    · refine broadcastInDim_apply _ _ n (ix2 i 0) (ix1 i) (fun a => ?_)
      match a with
      | ⟨0, _⟩ => rfl
  -- the cut: entry (i, j) of the first 1700000 rows is entry (i, j) of the padded array
  have hs : extractStridedSlice S1700000x64 ![0, 0]
        (scaleRows (Host.gather gather_S100000x64_S1703936x1_S1703936x64_1_0_n_n_0_1_164 T idxP) nP)
        slices_S1703936x64_S1700000x64_0_0 (ix2 i j)
      = scaleRows (Host.gather gather_S100000x64_S1703936x1_S1703936x64_1_0_n_n_0_1_164 T idxP) nP
          (ix2 ⟨i.val, by omega⟩ j) := by
    refine extractStridedSlice_apply _ _ _ (ix2 i j) (ix2 ⟨i.val, by omega⟩ j) (fun a => ?_)
    match a with
    | ⟨0, _⟩ => show i.val = 0 + i.val; omega
    | ⟨1, _⟩ => show j.val = 0 + j.val; omega
  -- the two gathers, each read at its index
  have hK : gather_S100000x64_S1703936x1_S1703936x64_1_0_n_n_0_1_164
      = rowDims 100000 64 1703936 Cert.KernelIdeal.Facts₀.gather_S100000x64_S1703936x1_S1703936x64_1_0_n_n_0_1_164_wf := rfl
  have hR : Cert.ReferenceIdeal.gather_S100000x64_S1700000x1_S1700000x64_1_0_n_n_0_1_164
      = rowDims 100000 64 1700000 Cert.ReferenceIdeal.Facts₀.gather_S100000x64_S1700000x1_S1700000x64_1_0_n_n_0_1_164_wf := rfl
  rw [hs, mulf_apply, hb]
  unfold scaleRows
  rw [hK, hR, gather_rows_apply (by omega), gather_rows_apply (by omega)]
  show T (ix2 (clampRow 100000 _ (idxP (ix2 ⟨i.val, _⟩ 0))) j) * nP (ix2 ⟨i.val, _⟩ 0)
    = T (ix2 (clampRow 100000 _ (idx (ix2 i 0))) j) * n (ix1 i)
  rw [hidx i, hn i]

end Cert.KernelIdeal.HandVal

end
-- ==== Proof.KI.PadIdx.lean ====
/-
  The padded message-source indices and coefficients agree with the unpadded ones on the first 1700000 entries: padding
  adds entries only behind the original ones, and the index normalisation (add the table's length to a negative index)
  and the reshapes and broadcasts around it act entry by entry.
-/
import proofs.«130239_j40776419508957_1_alg».proof.Proof.KI.HostRows
import proofs.«130239_j40776419508957_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem Idealize.ShloMosaic.StableHlo
open Idealize.ShloMosaic.ValueIdx

/-- The normalised, column-shaped index array built from the padded sources agrees on its first 1700000 rows with the
    one built from the unpadded sources. -/
theorem padded_index_agree (r : (⟨S1700000, .i32⟩ : BufTy).Contents (Elt Ideal)) (v : (⟨S_, .i32⟩ : BufTy).Contents (Elt Ideal)) (i : Fin 1700000) :
    (broadcastInDim S1703936x1 ![0] bcast_S1703936_S1703936x1_0
      (select
        (cmpi .slt (pad S1703936 ![0] ![3936] ![0] r v pads_S1700000_S1703936_039360 h_S_)
          (broadcastInDim S1703936 ![] bcast_S_S1703936 (constantI S_ 32 0#32)))
        (addi (pad S1703936 ![0] ![3936] ![0] r v pads_S1700000_S1703936_039360 h_S_)
          (broadcastInDim S1703936 ![] bcast_S_S1703936 (constantI S_ 32 100000#32)))
        (pad S1703936 ![0] ![3936] ![0] r v pads_S1700000_S1703936_039360 h_S_))
      : (⟨S1703936x1, .i32⟩ : BufTy).Contents (Elt Ideal)) (ix2 ⟨i.val, by omega⟩ 0)
    = (broadcastInDim S1700000x1 ![0] bcast_S1700000_S1700000x1_0
        (select (cmpi .slt r (broadcastInDim S1700000 ![] bcast_S_S1700000 (constantI S_ 32 0#32)))
          (addi r (broadcastInDim S1700000 ![] bcast_S_S1700000 (constantI S_ 32 100000#32))) r)
        : (⟨S1700000x1, .i32⟩ : BufTy).Contents (Elt Ideal)) (ix2 i 0) := by
  refine (broadcastInDim_apply _ bcast_S1703936_S1703936x1_0 _ (ix2 ⟨i.val, by omega⟩ 0) (ix1 ⟨i.val, by omega⟩)
    (fun a => match a with
      | ⟨0, _⟩ => by show i.val = if (1703936 : Nat) = 1 then 0 else i.val; rw [if_neg (by decide)])).trans ?_
  refine Eq.symm ((broadcastInDim_apply _ bcast_S1700000_S1700000x1_0 _ (ix2 i 0) (ix1 i)
    (fun a => match a with
      | ⟨0, _⟩ => by show i.val = if (1700000 : Nat) = 1 then 0 else i.val; rw [if_neg (by decide)])).trans ?_)
  -- both sides are now the normalisation of one entry: of r at i, and of the padded array at i, which is r at i
  have hp := pad_apply_lt r v i
  generalize pad S1703936 ![0] ![3936] ![0] r v pads_S1700000_S1703936_039360 h_S_ = p at hp ⊢
  show Scalar.select (IntOp.cmpi .slt (r (ix1 i)) 0#32) (IntOp.addi (r (ix1 i)) 100000#32) (r (ix1 i))
    = Scalar.select (IntOp.cmpi .slt (p (ix1 ⟨i.val, by omega⟩)) 0#32) (IntOp.addi (p (ix1 ⟨i.val, by omega⟩)) 100000#32)
        (p (ix1 ⟨i.val, by omega⟩))
  rw [hp]

/-- The column-shaped padded coefficients agree on their first 1700000 rows with the unpadded coefficients. -/
theorem padded_coeff_agree (n : FVec Ideal S1700000 .f32) (v : (⟨S_, .f32⟩ : BufTy).Contents (Elt Ideal)) (i : Fin 1700000) :
    (shapeCast S1703936x1 (pad S1703936 ![0] ![3936] ![0] n v pads_S1700000_S1703936_039360 h_S_) shapeCasts_S1703936_S1703936x1
      : FVec Ideal S1703936x1 .f32) (ix2 ⟨i.val, by omega⟩ 0) = n (ix1 i) := by
  refine (shapeCast_apply _ shapeCasts_S1703936_S1703936x1 (ix2 ⟨i.val, by omega⟩ 0) (ix1 ⟨i.val, by omega⟩) ?_).trans
    (pad_apply_lt n v i)
  rw [Shape.rowMajor_val_one, Shape.rowMajor_val_two]
  show i.val = i.val * 1 + 0
  omega

end Cert.KernelIdeal.HandVal

end
-- ==== Proof.KI.StretchA.lean ====
/-
  The two long host stretches of the program read back against the reference's stages. Before region 0 the program
  computes, from the edge list alone, the message sources, the message targets and the normalisation coefficients by
  the same thirty-six operations as the reference; before region 4 it gathers, scales and scatters the second layer's
  one-column features by the same operations as the reference. Whatever contents the stretch finds, if the buffers it
  reads hold the reference's stages, the buffers it writes hold the reference's next stages.
-/
import proofs.«130239_j40776419508957_1_alg».proof.Proof.KI.Chain
import proofs.«130239_j40776419508957_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem Idealize.ShloMosaic.StableHlo
open Idealize.ShloMosaic.ValueIdx

variable (X : Valuation τ sig (Elt Ideal))

/-- The first stretch leaves the message sources at the reference's stage. -/
theorem first_sources : StableHlo.after hostOps0 X (Proc.devRef .tc main_v5) = Cert.ReferenceIdeal.Read.val_main_v5 (F := Ideal) (X (Proc.devRef .tc main_arg5)) := by
  after_results_simp
  rfl

/-- The first stretch leaves the message targets at the reference's stage. -/
theorem first_targets : StableHlo.after hostOps0 X (Proc.devRef .tc main_v6) = Cert.ReferenceIdeal.Read.val_main_v6 (F := Ideal) (X (Proc.devRef .tc main_arg5)) := by
  after_results_simp
  rfl

/-- The first stretch leaves the normalisation coefficients at the reference's stage. -/
theorem first_coeffs : StableHlo.after hostOps0 X (Proc.devRef .tc main_v28) = Cert.ReferenceIdeal.Read.val_main_v28 (F := Ideal) (X (Proc.devRef .tc main_arg5)) := by
  after_results_simp
  rfl

/-- The last stretch: from the second layer's linear features, the sources, the targets and the coefficients at the
    reference's stages, the aggregated column is the reference's stage. -/
theorem last_aggregate
    (x0 : (⟨S100000x1, .f32⟩ : BufTy).Contents (Elt Ideal)) (x1 : (⟨S1x64, .f32⟩ : BufTy).Contents (Elt Ideal))
    (x2 : (⟨S64, .f32⟩ : BufTy).Contents (Elt Ideal)) (x3 : (⟨S64x1, .f32⟩ : BufTy).Contents (Elt Ideal))
    (x5 : (⟨S2x1600000, .i32⟩ : BufTy).Contents (Elt Ideal))
    (h48 : X (Proc.devRef .tc main_v48) = Cert.ReferenceIdeal.Read.val_main_v47 (F := Ideal) x0 x1 x2 x3 x5)
    (h5 : X (Proc.devRef .tc main_v5) = Cert.ReferenceIdeal.Read.val_main_v5 (F := Ideal) x5)
    (h6 : X (Proc.devRef .tc main_v6) = Cert.ReferenceIdeal.Read.val_main_v6 (F := Ideal) x5)
    (h28 : X (Proc.devRef .tc main_v28) = Cert.ReferenceIdeal.Read.val_main_v28 (F := Ideal) x5) :
    StableHlo.after hostOps4 X (Proc.devRef .tc main_v60) = Cert.ReferenceIdeal.Read.val_main_v59 (F := Ideal) x0 x1 x2 x3 x5 := by
  after_results_simp
  rw [h48, h5, h6, h28]
  rfl

/-- The last stretch reshapes the one-element bias into a one-by-one array. -/
theorem last_bias : StableHlo.after hostOps4 X (Proc.devRef .tc main_v61)
    = shapeCast S1x1 (X (Proc.devRef .tc main_arg4) : FVec Ideal S1 .f32) shapeCasts_S1_S1x1 := by
  after_results
  rfl

end Cert.KernelIdeal.HandVal

end
-- ==== Proof.KI.StretchB.lean ====
/-
  The short host stretches of the program read back, whatever contents they find: the two paddings (of the message
  sources and of the coefficients), the gather of one feature row per padded source with the coefficients reshaped
  into a column, the cut back to the unpadded rows with the first aggregation and the reshaped bias, and the reshaped
  weight column. Where a stretch applies the reference's own operations to buffers holding the reference's stages,
  what it writes is the reference's next stage.
-/
import proofs.«130239_j40776419508957_1_alg».proof.Proof.KI.Chain
import proofs.«130239_j40776419508957_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem Idealize.ShloMosaic.StableHlo
open Idealize.ShloMosaic.ValueIdx

variable (X : Valuation τ sig (Elt Ideal))

/-- The padded message sources: the sources with 3936 more entries behind them. -/
theorem padded_sources : StableHlo.after hostOps1_1 X (Proc.devRef .tc main_v30)
    = pad S1703936 ![0] ![3936] ![0] (X (Proc.devRef .tc main_v5) : (⟨S1700000, .i32⟩ : BufTy).Contents (Elt Ideal))
        (id (X (Proc.devRef .tc main_c_5))) pads_S1700000_S1703936_039360 h_S_ := by
  after_results
  simp only [TRef.toBuf, TRef.ofBuf, cast_eq]

/-- The padded coefficients: the coefficients with 3936 more entries behind them. -/
theorem padded_coeffs : StableHlo.after hostOps1_3 X (Proc.devRef .tc main_v31)
    = pad S1703936 ![0] ![3936] ![0] (X (Proc.devRef .tc main_v28) : FVec Ideal S1700000 .f32)
        (sitofp (F := Ideal) .f32 (X (Proc.devRef .tc main_c_6) : (⟨S_, .i32⟩ : BufTy).Contents (Elt Ideal))) pads_S1700000_S1703936_039360 h_S_ := by
  after_results
  simp only [TRef.toBuf, TRef.ofBuf, cast_eq]

/-- One row of the feature table per padded source, the index normalised first. -/
theorem gathered_rows : StableHlo.after hostOps1_4 X (Proc.devRef .tc main_v38)
    = Host.gather gather_S100000x64_S1703936x1_S1703936x64_1_0_n_n_0_1_164 (X (Proc.devRef .tc main_v29))
        (broadcastInDim S1703936x1 ![0] bcast_S1703936_S1703936x1_0
          (select
            (cmpi .slt (X (Proc.devRef .tc main_v30)) (broadcastInDim S1703936 ![] bcast_S_S1703936 (constantI S_ 32 0#32)))
            (addi (X (Proc.devRef .tc main_v30)) (broadcastInDim S1703936 ![] bcast_S_S1703936 (constantI S_ 32 100000#32)))
            (X (Proc.devRef .tc main_v30)))) := by
  after_results <;> rfl

/-- The padded coefficients as a column. -/
theorem coeff_column : StableHlo.after hostOps1_4 X (Proc.devRef .tc main_v39)
    = shapeCast S1703936x1 (X (Proc.devRef .tc main_v31) : FVec Ideal S1703936 .f32) shapeCasts_S1703936_S1703936x1 := by
  after_results <;> rfl

/-- The first aggregation: if the rows kept of the scaled gather are the reference's messages and the targets are the
    reference's, the scatter-add is the reference's aggregate. -/
theorem first_aggregate
    (x0 : (⟨S100000x1, .f32⟩ : BufTy).Contents (Elt Ideal)) (x1 : (⟨S1x64, .f32⟩ : BufTy).Contents (Elt Ideal))
    (x5 : (⟨S2x1600000, .i32⟩ : BufTy).Contents (Elt Ideal))
    (h40 : extractStridedSlice S1700000x64 ![0, 0] (X (Proc.devRef .tc main_v40) : FVec Ideal S1703936x64 .f32) slices_S1703936x64_S1700000x64_0_0
      = Cert.ReferenceIdeal.Read.val_main_v39 (F := Ideal) x0 x1 x5)
    (h6 : X (Proc.devRef .tc main_v6) = Cert.ReferenceIdeal.Read.val_main_v6 (F := Ideal) x5) :
    StableHlo.after hostOps2 X (Proc.devRef .tc main_v44) = Cert.ReferenceIdeal.Read.val_main_v42 (F := Ideal) x0 x1 x5 := by
  after_results
  rw [h6, h40]
  rfl

/-- The bias vector as a row. -/
theorem bias_row : StableHlo.after hostOps2 X (Proc.devRef .tc main_v45)
    = shapeCast S1x64 (X (Proc.devRef .tc main_arg2) : FVec Ideal S64 .f32) shapeCasts_S64_S1x64 := by
  after_results <;> rfl

/-- The weight column as a row. -/
theorem weight_row : StableHlo.after hostOps3 X (Proc.devRef .tc main_v47)
    = shapeCast S1x64 (X (Proc.devRef .tc main_arg3) : FVec Ideal S64x1 .f32) shapeCasts_S64x1_S1x64 := by
  after_results <;> rfl

end Cert.KernelIdeal.HandVal

end
-- ==== Proof.KI.Glue.lean ====
/-
  The program's buffers against the reference's stages, at the exact instance. Following the program item by item:
  the first stretch leaves the message sources, targets and coefficients at the reference's stages; region 0 leaves
  the first layer's linear features at the reference's matrix product; the padded gather, region 1's row scaling and
  the cut back leave the reference's messages, and their scatter-add the reference's aggregate; region 2 leaves the
  reference's rectified hidden features; region 3 the reference's second matrix product; the last stretch the
  reference's second aggregate; and region 4 its maximum. So the result buffer ends at the reference's result term
  whenever the two programs' memories agree on the arguments.
-/
import proofs.«130239_j40776419508957_1_alg».proof.Proof.KI.Keeps
import proofs.«130239_j40776419508957_1_alg».proof.Proof.KI.Val0
import proofs.«130239_j40776419508957_1_alg».proof.Proof.KI.Val1
import proofs.«130239_j40776419508957_1_alg».proof.Proof.KI.Val2
import proofs.«130239_j40776419508957_1_alg».proof.Proof.KI.Val3
import proofs.«130239_j40776419508957_1_alg».proof.Proof.KI.Val4
import proofs.«130239_j40776419508957_1_alg».proof.Proof.KI.HostRows
import proofs.«130239_j40776419508957_1_alg».proof.Proof.KI.PadIdx
import proofs.«130239_j40776419508957_1_alg».proof.Proof.KI.StretchA
import proofs.«130239_j40776419508957_1_alg».proof.Proof.KI.StretchB
import proofs.«130239_j40776419508957_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The program's six arguments on core c, at their array types. -/
abbrev a0 : (⟨S100000x1, .f32⟩ : BufTy).Contents (Elt Ideal) := m ((c : Thread nD τ).loc main_arg0)
abbrev a1 : (⟨S1x64, .f32⟩ : BufTy).Contents (Elt Ideal) := m ((c : Thread nD τ).loc main_arg1)
abbrev a2 : (⟨S64, .f32⟩ : BufTy).Contents (Elt Ideal) := m ((c : Thread nD τ).loc main_arg2)
abbrev a3 : (⟨S64x1, .f32⟩ : BufTy).Contents (Elt Ideal) := m ((c : Thread nD τ).loc main_arg3)
abbrev a4 : (⟨S1, .f32⟩ : BufTy).Contents (Elt Ideal) := m ((c : Thread nD τ).loc main_arg4)
abbrev a5 : (⟨S2x1600000, .i32⟩ : BufTy).Contents (Elt Ideal) := m ((c : Thread nD τ).loc main_arg5)

/-! ## The first stretch -/

theorem stage_sources : W1 m c (Proc.devRef .tc main_v5) = Cert.ReferenceIdeal.Read.val_main_v5 (F := Ideal) (a5 m c) := first_sources (W0 m c)
theorem stage_targets : W1 m c (Proc.devRef .tc main_v6) = Cert.ReferenceIdeal.Read.val_main_v6 (F := Ideal) (a5 m c) := first_targets (W0 m c)
theorem stage_coeffs : W1 m c (Proc.devRef .tc main_v28) = Cert.ReferenceIdeal.Read.val_main_v28 (F := Ideal) (a5 m c) := first_coeffs (W0 m c)

/-! ## Region 0: the first layer's linear features -/

theorem stage_linear1 : (W2 m c (Proc.devRef .tc main_v29) : (⟨S100000x64, .f32⟩ : BufTy).Contents (Elt Ideal)) = Cert.ReferenceIdeal.Read.val_main_v29 (F := Ideal) (a0 m c) (a1 m c) := by
  refine (W2_arr m c 2).trans ?_
  refine (arr0 (atTc (W1 m)) c).trans ?_
  exact congrArg₂ (Host.dotGeneral (F := Ideal) (φ₁ := .f32) (φ₂ := .f32) Cert.ReferenceIdeal.dot_S100000x1_S1x64_S100000x64_1_0_0_1_n_n none)
    (W1_of m c main_arg0 (by decide)) (W1_of m c main_arg1 (by decide))

/-! ## The padded gather, region 1 and the cut back: the first layer's messages -/

theorem stage_messages1 :
    extractStridedSlice S1700000x64 ![0, 0] (W8 m c (Proc.devRef .tc main_v40) : FVec Ideal S1703936x64 .f32) slices_S1703936x64_S1700000x64_0_0
      = Cert.ReferenceIdeal.Read.val_main_v39 (F := Ideal) (a0 m c) (a1 m c) (a5 m c) := by
  have h40 : (W8 m c (Proc.devRef .tc main_v40) : FVec Ideal S1703936x64 .f32)
      = scaleRows (atTc (W7 m) c main_v38) (atTc (W7 m) c main_v39) := (W8_arr m c 2).trans (arr1 (atTc (W7 m)) c)
  have h38 : (atTc (W7 m) c main_v38 : FVec Ideal S1703936x64 .f32) = _ := gathered_rows (W6 m c)
  have h39 : (atTc (W7 m) c main_v39 : FVec Ideal S1703936x1 .f32) = _ := coeff_column (W6 m c)
  have h29 : W6 m c (Proc.devRef .tc main_v29) = Cert.ReferenceIdeal.Read.val_main_v29 (F := Ideal) (a0 m c) (a1 m c) :=
    (keep_main_v29_2_6 m c).trans (stage_linear1 m c)
  have h30 : W6 m c (Proc.devRef .tc main_v30) = _ := (keep_main_v30_4_6 m c).trans (padded_sources (W3 m c))
  have h5 : W3 m c (Proc.devRef .tc main_v5) = Cert.ReferenceIdeal.Read.val_main_v5 (F := Ideal) (a5 m c) :=
    (keep_main_v5_1_3 m c).trans (stage_sources m c)
  have h31 : W6 m c (Proc.devRef .tc main_v31) = _ := padded_coeffs (W5 m c)
  have h28 : W5 m c (Proc.devRef .tc main_v28) = Cert.ReferenceIdeal.Read.val_main_v28 (F := Ideal) (a5 m c) :=
    (keep_main_v28_1_5 m c).trans (stage_coeffs m c)
  rw [h40, h38, h39, h29, h30, h31, h5, h28]
  exact slice_scaleRows_gather _ _ (Cert.ReferenceIdeal.Read.val_main_v35 (F := Ideal) (a5 m c)) _ (Cert.ReferenceIdeal.Read.val_main_v28 (F := Ideal) (a5 m c))
    (fun i => padded_index_agree _ _ i) (fun i => padded_coeff_agree _ _ i)

/-! ## The first aggregation and region 2: the hidden features -/

theorem stage_aggregate1 : W9 m c (Proc.devRef .tc main_v44) = Cert.ReferenceIdeal.Read.val_main_v42 (F := Ideal) (a0 m c) (a1 m c) (a5 m c) :=
  first_aggregate (W8 m c) _ _ _ (stage_messages1 m c) ((keep_main_v6_1_8 m c).trans (stage_targets m c))

theorem stage_hidden : (W10 m c (Proc.devRef .tc main_v46) : (⟨S100000x64, .f32⟩ : BufTy).Contents (Elt Ideal))
    = Cert.ReferenceIdeal.Read.val_main_v46 (F := Ideal) (a0 m c) (a1 m c) (a2 m c) (a5 m c) := by
  refine (W10_arr m c 2).trans ?_
  refine (arr2 (atTc (W9 m)) c (a2 m c) ((bias_row (W8 m c)).trans (congrArg (fun b => shapeCast S1x64 (b : FVec Ideal S64 .f32) shapeCasts_S64_S1x64) (W8_main_arg2 m c)))).trans ?_
  rw [show (atTc (W9 m) c main_v44 : FVec Ideal S100000x64 .f32) = _ from stage_aggregate1 m c]
  rfl

/-! ## Region 3: the second layer's linear features -/

theorem stage_linear2 : (W12 m c (Proc.devRef .tc main_v48) : (⟨S100000x1, .f32⟩ : BufTy).Contents (Elt Ideal))
    = Cert.ReferenceIdeal.Read.val_main_v47 (F := Ideal) (a0 m c) (a1 m c) (a2 m c) (a3 m c) (a5 m c) := by
  refine (W12_arr m c 2).trans ?_
  refine (arr3 (atTc (W11 m)) c (a3 m c) ((weight_row (W10 m c)).trans (congrArg (fun b => shapeCast S1x64 (b : FVec Ideal S64x1 .f32) shapeCasts_S64x1_S1x64) (W10_main_arg3 m c)))).trans ?_
  rw [show (atTc (W11 m) c main_v46 : FVec Ideal S100000x64 .f32) = _ from (W11_of m c main_v46 (by decide)).trans (stage_hidden m c)]
  rfl

/-! ## The last stretch and region 4: the second aggregate and its maximum -/

theorem stage_aggregate2 : W13 m c (Proc.devRef .tc main_v60) = Cert.ReferenceIdeal.Read.val_main_v59 (F := Ideal) (a0 m c) (a1 m c) (a2 m c) (a3 m c) (a5 m c) :=
  last_aggregate (W12 m c) _ _ _ _ _ (stage_linear2 m c)
    ((keep_main_v5_1_12 m c).trans (stage_sources m c))
    ((keep_main_v6_1_12 m c).trans (stage_targets m c))
    ((keep_main_v28_1_12 m c).trans (stage_coeffs m c))

theorem stage_result : (W14 m c (Proc.devRef .tc main_v62) : (⟨S1x1, .f32⟩ : BufTy).Contents (Elt Ideal))
    = Cert.ReferenceIdeal.Read.val_main_v64 (F := Ideal) (a0 m c) (a1 m c) (a2 m c) (a3 m c) (a4 m c) (a5 m c) := by
  refine (W14_arr m c 2).trans ?_
  refine (arr4 (atTc (W13 m)) c (a4 m c) ((last_bias (W12 m c)).trans (congrArg (fun b => shapeCast S1x1 (b : FVec Ideal S1 .f32) shapeCasts_S1_S1x1) (W12_main_arg4 m c)))).trans ?_
  rw [show (atTc (W13 m) c main_v60 : FVec Ideal S100000x1 .f32) = _ from stage_aggregate2 m c]
  rfl

end Cert.KernelIdeal.HandVal

end
-- ==== Proof.lean ====
/-
  The certificate of a two-layer graph convolution with a global maximum: the program (five kernel regions among host
  stretches) against its reference (host operations only).

  Both compute, from node features x, weights W1, W2, biases b1, b2 and an edge list: the degree-normalisation
  coefficients of the edges and self loops; the first layer (x times W1, gathered per message source, scaled by the
  coefficient, summed per message target, plus b1, rectified); the second layer (times W2, gathered, scaled, summed,
  plus b2); and the maximum over the nodes. The program computes the coefficients, the gathers and the sums by the
  reference's own host operations, and the dense steps in kernels: the first product block by block as a broadcast
  product (the contracted axis has one element, so the reference's sum has one term); the scaling of the first
  layer's messages on rows padded to a multiple of the block height and cut back afterwards (a gathered row depends
  only on its own source, and padding adds rows only behind); bias and rectification entry by entry; the second
  product as a lane sum of products (the reference's sum over the 64 hidden channels); and the maximum as a running
  maximum over ten blocks kept in a scratch buffer (the maximum of extended reals is associative, commutative and
  idempotent with minus infinity as unit, so the blockwise maximum is the maximum over all rows). No law that fails at
  infinities is used, so the precondition is not opened.

  The frames: each kernel region's body is run once per control case on whole staging buffers, the regions and host
  stretches are chained from the launch to the return with the buffer contents named at every boundary, and no item
  writes an argument. The idealized program's result buffer is read off the same run. The pass rewrote no operation,
  so the idealization is the program's own text read over the extended reals.
-/
import proofs.«130239_j40776419508957_1_alg».proof.Defs
import proofs.«130239_j40776419508957_1_alg».proof.Proof.Gen.Kernel
import proofs.«130239_j40776419508957_1_alg».proof.Proof.Gen.KernelIdeal
import proofs.«130239_j40776419508957_1_alg».proof.Proof.Gen.ReferenceIdeal
import proofs.«130239_j40776419508957_1_alg».proof.Proof.Gen.ReferenceIdeal.Run
import proofs.«130239_j40776419508957_1_alg».proof.Proof.Gen.ReferenceIdeal.Read
import proofs.«130239_j40776419508957_1_alg».proof.Proof.Gen.Pre_finite_inputs
import proofs.«130239_j40776419508957_1_alg».proof.Proof.K.Run
import proofs.«130239_j40776419508957_1_alg».proof.Proof.KI.Run
import proofs.«130239_j40776419508957_1_alg».proof.Proof.KI.Glue
import Idealize.ShloMosaic.Adequacy
import Idealize.ShloMosaic.Init

noncomputable section

namespace Cert.Proof

open Idealize.ShloMosaic Idealize.ShloMosaic.TcCoe Idealize.SL.Sem

/-- The program as printed runs to the end without a fault and leaves its arguments unchanged. -/
theorem frame_program : Cert.frame_Kernel := fun m ρ _ => Cert.Kernel.Hand.frame (F := Bits) m ρ

/-- So does its idealization. -/
theorem frame_ideal : Cert.frame_KernelIdeal := fun m ρ _ => Cert.KernelIdeal.Hand.frame (F := Ideal) m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the two programs, run from memories that agree on the arguments, end with the same
    one-element result: the program's result buffer holds what region 4 wrote back, which stage by stage is the
    reference's result term. -/
theorem algebraic : Cert.algebraic_KernelIdeal_ReferenceIdeal := by
  intro m ρ m' ρ' _ hagree
  refine ⟨fun c => Cert.KernelIdeal.Hand.W14 (F := Ideal) m c (Proc.devRef .tc Cert.KernelIdeal.main_v62),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1,
    (hagree c).2.2.2.2.1, (hagree c).2.2.2.2.2]
  exact (Cert.KernelIdeal.HandVal.stage_result m c).symm

theorem claim : Cert.Claim := ⟨Cert.Kernel.Gen.facts, Cert.KernelIdeal.Gen.facts, Cert.ReferenceIdeal.Gen.facts, Cert.Pre_finite_inputs.Gen.facts,
  frame_program, frame_ideal, frame_reference, trivial, algebraic⟩

end Cert.Proof

end
